-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x128 : Shape := ⟨2, ![500000, 128]⟩
abbrev S1024x128 : Shape := ⟨2, ![1024, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S2x500000 : Shape := ⟨2, ![2, 500000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S1024x128 : S_.BroadcastsInDim S1024x128 (![] : Fin 0 → Fin S1024x128.rank)
  reducesTo_S1024x128_S_d0_1 : S1024x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S512 .f32) (main_arg5 : FVec F S512x128 .f32) (main_arg6 : FVec F S128 .f32) (main_arg7 : FVec F S128 .f32) (main_arg8 : FVec F S128 .f32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S500000x128 .f32) (main_arg2 : FVec F S1024x128 .f32) (main_arg3 : FVec F S384x512 .f32) (main_arg4 : FVec F S512 .f32) (main_arg5 : FVec F S512x128 .f32) (main_arg6 : FVec F S128 .f32) (main_arg7 : FVec F S128 .f32) (main_arg8 : FVec F S128 .f32) (main_arg9 : IVec S2x500000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S384x512 .f32 := Host.absf main_arg3
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S500000x128 : Shape := ⟨2, ![500000, 128]⟩
abbrev S1024x128 : Shape := ⟨2, ![1024, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S2x500000 : Shape := ⟨2, ![2, 500000]⟩
abbrev S100000 : Shape := ⟨1, ![100000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S507904x128 : Shape := ⟨2, ![507904, 128]⟩
abbrev S507904 : Shape := ⟨1, ![507904]⟩
abbrev S1x507904 : Shape := ⟨2, ![1, 507904]⟩
abbrev S2x1024x128 : Shape := ⟨3, ![2, 1024, 128]⟩
abbrev S2x1024x1 : Shape := ⟨3, ![2, 1024, 1]⟩
abbrev S4096x128 : Shape := ⟨2, ![4096, 128]⟩
abbrev S1x4096 : Shape := ⟨2, ![1, 4096]⟩
abbrev S1x1024x128 : Shape := ⟨3, ![1, 1024, 128]⟩
abbrev S1x1024x1 : Shape := ⟨3, ![1, 1024, 1]⟩
abbrev S1024x1 : Shape := ⟨2, ![1024, 1]⟩
abbrev S1024x4096 : Shape := ⟨2, ![1024, 4096]⟩
abbrev S4096x256 : Shape := ⟨2, ![4096, 256]⟩
abbrev S1024x256 : Shape := ⟨2, ![1024, 256]⟩
abbrev S106496x128 : Shape := ⟨2, ![106496, 128]⟩
abbrev S106496 : Shape := ⟨1, ![106496]⟩
abbrev S1x106496 : Shape := ⟨2, ![1, 106496]⟩
abbrev S1x512 : Shape := ⟨2, ![1, 512]⟩
abbrev S1x128 : Shape := ⟨2, ![1, 128]⟩
abbrev S1024x384 : Shape := ⟨2, ![1024, 384]⟩
abbrev S1024x512 : Shape := ⟨2, ![1024, 512]⟩
abbrev S1024 : Shape := ⟨1, ![1024]⟩

abbrev nBuf : Space → Nat
  | .hbm => 53
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1024x128, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x500000, .i32⟩
  | .hbm, ⟨10, _⟩ => ⟨S100000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000, .i32⟩
  | .hbm, ⟨22, _⟩ => ⟨S_, .i32⟩
  | .hbm, ⟨23, _⟩ => ⟨S_, .f32⟩
  | .hbm, ⟨24, _⟩ => ⟨S507904x128, .f32⟩
  | .hbm, ⟨25, _⟩ => ⟨S_, .i32⟩
  | .hbm, ⟨26, _⟩ => ⟨S_, .i32⟩
  | .hbm, ⟨27, _⟩ => ⟨S507904, .i32⟩
  | .hbm, ⟨28, _⟩ => ⟨S1x507904, .i32⟩
  | .hbm, ⟨29, _⟩ => ⟨S2x1024x128, .f32⟩
  | .hbm, ⟨30, _⟩ => ⟨S2x1024x1, .f32⟩
  | .hbm, ⟨31, _⟩ => ⟨S_, .f32⟩
  | .hbm, ⟨32, _⟩ => ⟨S1024x128, .f32⟩
  | .hbm, ⟨33, _⟩ => ⟨S_, .f32⟩
  | .hbm, ⟨34, _⟩ => ⟨S1024x1, .f32⟩
  | .hbm, ⟨35, _⟩ => ⟨S_, .i32⟩
  | .hbm, ⟨36, _⟩ => ⟨S_, .f32⟩
  | .hbm, ⟨37, _⟩ => ⟨S106496x128, .f32⟩
  | .hbm, ⟨38, _⟩ => ⟨S_, .i32⟩
  | .hbm, ⟨39, _⟩ => ⟨S_, .i32⟩
  | .hbm, ⟨40, _⟩ => ⟨S106496, .i32⟩
  | .hbm, ⟨41, _⟩ => ⟨S1x106496, .i32⟩
  | .hbm, ⟨42, _⟩ => ⟨S2x1024x128, .f32⟩
  | .hbm, ⟨43, _⟩ => ⟨S2x1024x1, .f32⟩
  | .hbm, ⟨44, _⟩ => ⟨S_, .f32⟩
  | .hbm, ⟨45, _⟩ => ⟨S1024x128, .f32⟩
  | .hbm, ⟨46, _⟩ => ⟨S_, .f32⟩
  | .hbm, ⟨47, _⟩ => ⟨S1024x1, .f32⟩
  | .hbm, ⟨48, _⟩ => ⟨S1x512, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1024x128, .f32⟩
  | .local _ .vmem, ⟨0, _⟩ => ⟨S4096x128, .f32⟩
  | .local _ .vmem, ⟨1, _⟩ => ⟨S4096x128, .f32⟩
  | .local _ .vmem, ⟨2, _⟩ => ⟨S1x4096, .i32⟩
  | .local _ .vmem, ⟨3, _⟩ => ⟨S1x4096, .i32⟩
  | .local _ .vmem, ⟨4, _⟩ => ⟨S1x1024x128, .f32⟩
  | .local _ .vmem, ⟨5, _⟩ => ⟨S1x1024x128, .f32⟩
  | .local _ .vmem, ⟨6, _⟩ => ⟨S1x1024x1, .f32⟩
  | .local _ .vmem, ⟨7, _⟩ => ⟨S1x1024x1, .f32⟩
  | .local _ .vmem, ⟨8, _⟩ => ⟨S1024x128, .f32⟩
  | .local _ .vmem, ⟨9, _⟩ => ⟨S1024x1, .f32⟩
  | .local _ .vmem, ⟨10, _⟩ => ⟨S4096x128, .f32⟩
  | .local _ .vmem, ⟨11, _⟩ => ⟨S4096x128, .f32⟩
  | .local _ .vmem, ⟨12, _⟩ => ⟨S1x4096, .i32⟩
  | .local _ .vmem, ⟨13, _⟩ => ⟨S1x4096, .i32⟩
  | .local _ .vmem, ⟨14, _⟩ => ⟨S1x1024x128, .f32⟩
  | .local _ .vmem, ⟨15, _⟩ => ⟨S1x1024x128, .f32⟩
  | .local _ .vmem, ⟨16, _⟩ => ⟨S1x1024x1, .f32⟩
  | .local _ .vmem, ⟨17, _⟩ => ⟨S1x1024x1, .f32⟩
  | .local _ .vmem, ⟨18, _⟩ => ⟨S1024x128, .f32⟩
  | .local _ .vmem, ⟨19, _⟩ => ⟨S1024x1, .f32⟩
  | .local _ .vmem, ⟨20, _⟩ => ⟨S1024x128, .f32⟩
  | .local _ .vmem, ⟨21, _⟩ => ⟨S1024x128, .f32⟩
  | .local _ .vmem, ⟨22, _⟩ => ⟨S1024x1, .f32⟩
  | .local _ .vmem, ⟨23, _⟩ => ⟨S1024x128, .f32⟩
  | .local _ .vmem, ⟨24, _⟩ => ⟨S1024x1, .f32⟩
  | .local _ .vmem, ⟨25, _⟩ => ⟨S384x512, .f32⟩
  | .local _ .vmem, ⟨26, _⟩ => ⟨S1x512, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call0_v0 : Ref sig .tc := ⟨.hbm, 23, rfl⟩
abbrev main_v9 : Ref sig .tc := ⟨.hbm, 24, rfl⟩
abbrev main_c_2 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_cst : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_c_4 : Ref sig .tc := ⟨.hbm, 35, rfl⟩
abbrev main_call2_v0 : Ref sig .tc := ⟨.hbm, 36, rfl⟩
abbrev main_v15 : Ref sig .tc := ⟨.hbm, 37, rfl⟩
abbrev main_c_5 : Ref sig .tc := ⟨.hbm, 38, rfl⟩
abbrev main_call3_v0 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_cst_6 : Ref sig .tc := ⟨.hbm, 44, rfl⟩
abbrev main_v19 : Ref sig .tc := ⟨.hbm, 45, rfl⟩
abbrev main_cst_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27

abbrev nD : Nat := 1
abbrev τ : Topo := Topo.v7x

variable {F : FTy → Type} [FloatOps F]

abbrev grid0 : Pipeline.Grid := ⟨2, ![2, 62], ![false, false]⟩

def k0_cond2 (i : grid0.Coords) : BitVec 1 :=
  let arg1 : BitVec 32 := BitVec.ofNat 32 (i 1).val
  let c61_i32 : BitVec 32 := 61#32
  let v30 : BitVec 1 := Scalar.cmpi .eq arg1 c61_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 13], ![false, false]⟩

def k1_cond2 (i : grid1.Coords) : BitVec 1 :=
  let arg1 : BitVec 32 := BitVec.ofNat 32 (i 1).val
  let c12_i32 : BitVec 32 := 12#32
  let v30 : BitVec 1 := Scalar.cmpi .eq arg1 c12_i32
  let v31 : BitVec 32 := Scalar.extui v30
  let c0_i32_13 : BitVec 32 := 0#32
  let v32 : BitVec 1 := Scalar.cmpi .ne v31 c0_i32_13
  v32

def cc1_transform_0 (i : grid1.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  pads_S500000x128_S507904x128_079040_000 : S500000x128.Pads (![0, 0] : Fin 2 → Nat) ![7904, 0] ![0, 0] S507904x128
  h_S_ : 0 < S_.numel
  pads_S500000_S507904_079040 : S500000.Pads (![0] : Fin 1 → Nat) ![7904] ![0] S507904
  shapeCasts_S507904_S1x507904 : S507904.ShapeCasts S1x507904
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S4096x128_S4096x128_S4096x256_d1 : Shape.Concatenates [S4096x128, S4096x128] S4096x256 1
  slices_S1024x256_o0_0_S1024x128 : S1024x256.Slices ![0, 0] S1024x128
  slices_S1024x256_o0_128_S1024x1 : S1024x256.Slices ![0, 128] S1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S2x1024x128_S1024x128_d0 : S2x1024x128.ReducesTo [0] S1024x128
  reducesTo_S2x1024x1_S1024x1_d0 : S2x1024x1.ReducesTo [0] S1024x1
  pads_S100000x128_S106496x128_064960_000 : S100000x128.Pads (![0, 0] : Fin 2 → Nat) ![6496, 0] ![0, 0] S106496x128
  pads_S100000_S106496_064960 : S100000.Pads (![0] : Fin 1 → Nat) ![6496] ![0] S106496
  shapeCasts_S106496_S1x106496 : S106496.ShapeCasts S1x106496
  shapeCasts_S512_S1x512 : S512.ShapeCasts S1x512
  shapeCasts_S128_S1x128 : S128.ShapeCasts S1x128
  broadcasts_S1024x1_S1024x128 : S1024x1.Broadcasts S1024x128
  concatenates_S1024x128_S1024x128_S1024x128_S1024x384_d1 : Shape.Concatenates [S1024x128, S1024x128, S1024x128] S1024x384 1
  inb_S384x512_S384x512_0_0 : ∀ a, (![0, 0] : Fin 2 → Nat) a + S384x512.size a ≤ S384x512.size a
  h_S384x512 : 0 < S384x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  gather_S100000_S500000x1_S500000_n_0_n_n_0_1_1_wf : GatherDims.WF S100000 S500000x1 S500000 [] [0] [] [0] [] 1 ![1]
  dot_S1024x4096_S4096x256_S1024x256_1_0_0_1_n_n_wf : DotDims.WF S1024x4096 S4096x256 S1024x256 [1] [0] [0] [1] [] []
  dot_S1024x384_S384x512_S1024x512_1_0_0_1_n_n_wf : DotDims.WF S1024x384 S384x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S507904x128.size a
  hwx0_0 : ∀ i : grid0.Coords, EltTy.bits .f32 = 32 ∨ (Rect.block (s := S507904x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x507904.size a
  hwx0_1 : ∀ i : grid0.Coords, EltTy.bits .i32 = 32 ∨ (Rect.block (s := S1x507904) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S106496x128.size a
  hwx1_0 : ∀ i : grid1.Coords, EltTy.bits .f32 = 32 ∨ (Rect.block (s := S106496x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x106496.size a
  hwx1_1 : ∀ i : grid1.Coords, EltTy.bits .i32 = 32 ∨ (Rect.block (s := S1x106496) S1x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x1024x128.size a
  hwx1_2 : ∀ i : grid1.Coords, EltTy.bits .f32 = 32 ∨ (Rect.block (s := S2x1024x128) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S2x1024x1.size a
  hwx1_3 : ∀ i : grid1.Coords, EltTy.bits .f32 = 32 ∨ (Rect.block (s := S2x1024x1) S1x1024x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S1024x128.size a
  hwx2_3 : ∀ i : grid2.Coords, EltTy.bits .f32 = 32 ∨ (Rect.block (s := S1024x128) S1024x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S1024x1.size a
  hwx2_4 : ∀ i : grid2.Coords, EltTy.bits .f32 = 32 ∨ (Rect.block (s := S1024x1) S1024x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384x512.size a ≤ S384x512.size a
  hwx2_5 : ∀ i : grid2.Coords, EltTy.bits .f32 = 32 ∨ (Rect.block (s := S384x512) S384x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S512x128.size a
  hwx2_7 : ∀ i : grid2.Coords, EltTy.bits .f32 = 32 ∨ (Rect.block (s := S512x128) S512x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1024x128.size a ≤ S1024x128.size a
  hwx2_11 : ∀ i : grid2.Coords, EltTy.bits .f32 = 32 ∨ (Rect.block (s := S1024x128) S1024x128.size (cc2_transform_11 i) (hinb2_11 i)).WholeWords (EltTy.packing .f32)

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x384_S384x512_S1024x512_1_0_0_1_n_n : DotDims S1024x384 S384x512 S1024x512 where
  lhsContracting := [1]
  rhsContracting := [0]
  lhsNonContracting := [0]
  rhsNonContracting := [1]
  lhsBatch := []
  rhsBatch := []
  wf := dot_S1024x384_S384x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v9) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S1x1024x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S1x1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1024x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1024x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S384x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S512x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v24) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v25) S1024x128.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x128 : Shape := ⟨2, ![100000, 128]⟩
abbrev S500000x128 : Shape := ⟨2, ![500000, 128]⟩
abbrev S1024x128 : Shape := ⟨2, ![1024, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S2x500000 : Shape := ⟨2, ![2, 500000]⟩
abbrev S100000 : Shape := ⟨1, ![100000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1024 : Shape := ⟨1, ![1024]⟩
abbrev S1024x1 : Shape := ⟨2, ![1024, 1]⟩
abbrev S100000x1 : Shape := ⟨2, ![100000, 1]⟩
abbrev S1024x384 : Shape := ⟨2, ![1024, 384]⟩
abbrev S1024x512 : Shape := ⟨2, ![1024, 512]⟩
abbrev S1x512 : Shape := ⟨2, ![1, 512]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1024x128, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x500000, .i32⟩
  | .hbm, ⟨10, _⟩ => ⟨S100000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000, .i32⟩
  | .hbm, ⟨22, _⟩ => ⟨S_, .f32⟩
  | .hbm, ⟨23, _⟩ => ⟨S1024x128, .f32⟩
  | .hbm, ⟨24, _⟩ => ⟨S500000x1, .i32⟩
  | .hbm, ⟨25, _⟩ => ⟨S1024x128, .f32⟩
  | .hbm, ⟨26, _⟩ => ⟨S_, .f32⟩
  | .hbm, ⟨27, _⟩ => ⟨S500000, .f32⟩
  | .hbm, ⟨28, _⟩ => ⟨S_, .f32⟩
  | .hbm, ⟨29, _⟩ => ⟨S1024, .f32⟩
  | .hbm, ⟨30, _⟩ => ⟨S500000x1, .i32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024x1, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S100000x1, .i32⟩
  | .hbm, ⟨41, _⟩ => ⟨S1024x128, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S1024, .f32⟩
  | .hbm, ⟨46, _⟩ => ⟨S100000x1, .i32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024x1, .f32⟩
  | .hbm, ⟨52, _⟩ => ⟨S1024x128, .f32⟩
  | .hbm, ⟨53, _⟩ => ⟨S1024x128, .f32⟩
  | .hbm, ⟨54, _⟩ => ⟨S1024x384, .f32⟩
  | .hbm, ⟨55, _⟩ => ⟨S1024x512, .f32⟩
  | .hbm, ⟨56, _⟩ => ⟨S1x512, .f32⟩
  | .hbm, ⟨57, _⟩ => ⟨S1024x512, .f32⟩
  | .hbm, ⟨58, _⟩ => ⟨S1024x512, .f32⟩
  | .hbm, ⟨59, _⟩ => ⟨S_, .f32⟩
  | .hbm, ⟨60, _⟩ => ⟨S1024x512, .f32⟩
  | .hbm, ⟨61, _⟩ => ⟨S1024x512, .f32⟩
  | .hbm, ⟨62, _⟩ => ⟨S1024x128, .f32⟩
  | .hbm, ⟨63, _⟩ => ⟨S1x128, .f32⟩
  | .hbm, ⟨64, _⟩ => ⟨S1024x128, .f32⟩
  | .hbm, ⟨65, _⟩ => ⟨S1024x128, .f32⟩
  | .hbm, ⟨66, _⟩ => ⟨S1024x128, .f32⟩
  | .hbm, ⟨67, _⟩ => ⟨S_, .f32⟩
  | .hbm, ⟨68, _⟩ => ⟨S1024, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x128, .f32⟩
  | .hbm, ⟨74, _⟩ => ⟨S1024x128, .f32⟩
  | .hbm, ⟨75, _⟩ => ⟨S1024x128, .f32⟩
  | .hbm, ⟨76, _⟩ => ⟨S_, .f32⟩
  | .hbm, ⟨77, _⟩ => ⟨S1024, .f32⟩
  | .hbm, ⟨78, _⟩ => ⟨S1024x1, .f32⟩
  | .hbm, ⟨79, _⟩ => ⟨S_, .f32⟩
  | .hbm, ⟨80, _⟩ => ⟨S1024x1, .f32⟩
  | .hbm, ⟨81, _⟩ => ⟨S1024x1, .f32⟩
  | .hbm, ⟨82, _⟩ => ⟨S1024x128, .f32⟩
  | .hbm, ⟨83, _⟩ => ⟨S1024x128, .f32⟩
  | .hbm, ⟨84, _⟩ => ⟨S_, .f32⟩
  | .hbm, ⟨85, _⟩ => ⟨S1024x1, .f32⟩
  | .hbm, ⟨86, _⟩ => ⟨S1024x1, .f32⟩
  | .hbm, ⟨87, _⟩ => ⟨S1024x1, .f32⟩
  | .hbm, ⟨88, _⟩ => ⟨S1024x128, .f32⟩
  | .hbm, ⟨89, _⟩ => ⟨S1024x128, .f32⟩
  | .hbm, ⟨90, _⟩ => ⟨S1x128, .f32⟩
  | .hbm, ⟨91, _⟩ => ⟨S1024x128, .f32⟩
  | .hbm, ⟨92, _⟩ => ⟨S1024x128, .f32⟩
  | .hbm, ⟨93, _⟩ => ⟨S1x128, .f32⟩
  | .hbm, ⟨94, _⟩ => ⟨S1024x128, .f32⟩
  | .hbm, ⟨95, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S100000_S100000x1_0 : S100000.BroadcastsInDim S100000x1 (![0] : Fin 1 → Fin S100000x1.rank)
  bcast_S_S100000 : S_.BroadcastsInDim S100000 (![] : Fin 0 → Fin S100000.rank)
  concatenates_S1024x128_S1024x128_S1024x128_S1024x384_d1 : Shape.Concatenates [S1024x128, S1024x128, S1024x128] S1024x384 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S1024_d1 : S1024x128.ReducesTo [1] S1024
  h_S_ : 0 < S_.numel
  bcast_S_S1024x1 : S_.BroadcastsInDim S1024x1 (![] : Fin 0 → Fin S1024x1.rank)
  gather_S100000_S500000x1_S500000_n_0_n_n_0_1_1_wf : GatherDims.WF S100000 S500000x1 S500000 [] [0] [] [0] [] 1 ![1]
  scatter_S1024x128_S500000x1_S500000x128_1_0_0_1_wf : ScatterDims.WF S1024x128 S500000x1 S500000x128 [1] [0] [0] 1
  scatter_S1024_S500000x1_S500000_n_0_0_1_wf : ScatterDims.WF S1024 S500000x1 S500000 [] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x384_S384x512_S1024x512_1_0_0_1_n_n_wf : DotDims.WF S1024x384 S384x512 S1024x512 [1] [0] [0] [1] [] []
  dot_S1024x512_S512x128_S1024x128_1_0_0_1_n_n_wf : DotDims.WF S1024x512 S512x128 S1024x128 [1] [0] [0] [1] [] []

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x384_S384x512_S1024x512_1_0_0_1_n_n : DotDims S1024x384 S384x512 S1024x512 where
  lhsContracting := [1]
  rhsContracting := [0]
  lhsNonContracting := [0]
  rhsNonContracting := [1]
  lhsBatch := []
  rhsBatch := []
  wf := dot_S1024x384_S384x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

class Facts : Prop extends Facts₀ where

variable [Facts]
-- ==== Proof.KbR0Runs.lean ====
import proofs.«416664_j53730040873193_3_alg».proof.Proof.Gen.Kernel.Launch
import proofs.«416664_j53730040873193_3_alg».proof.Proof.Gen.Kernel.Skeleton
import proofs.«416664_j53730040873193_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first segment-sum call (124 grid points: 2 core slots of 62 row blocks)

The body zeroes its two accumulators at the first row block of a core slot, adds the block's
one-hot product into them at every block, and copies them out at the slot's last block. -/

/-- The row block is the first of its core slot. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 62 = 0 :=
  (by decide +kernel : ∀ t : Fin grid0.N, cond0_0 (grid0.coords t) ↔ t.val % 62 = 0)

/-- The row block is the last of its core slot. -/
abbrev cond0_1 (i : grid0.Coords) : Prop := k0_cond2 i = 1#1
theorem hcond0_1 : ∀ t : Fin cfg0.N, cond0_1 (grid0.coords t) ↔ t.val % 62 = 61 :=
  (by decide +kernel : ∀ t : Fin grid0.N, cond0_1 (grid0.coords t) ↔ t.val % 62 = 61)

/-- The two operands are staged at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two results are stored, and written back, exactly at a slot's last block. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The staging memrefs the pipeline passes at point `t`, and the two accumulators. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view
abbrev VO0_2 : View sig .tc .vmem S1x1024x128 .f32 := (Memref.whole cc0_stg2_0 : Memref sig .tc .vmem S1x1024x128 .f32).view
abbrev VO0_3 : View sig .tc .vmem S1x1024x1 .f32 := (Memref.whole cc0_stg3_0 : Memref sig .tc .vmem S1x1024x1 .f32).view

/-! ## The body, case by case -/

set_option maxHeartbeats 4000000 in
/-- FIRST block of a slot: both accumulators are overwritten (zeroed, then the block's product added), whatever
    they held; the results' buffers are not touched. -/
noncomputable def kernelRun0_A (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S4096x128 .f32) (x1 : Vec F S1x4096 .i32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE block: the block's product is added to what the accumulators held; the results' buffers are not touched. -/
noncomputable def kernelRun0_B (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S4096x128 .f32) (x1 : Vec F S1x4096 .i32) (xs0 : Vec F S1024x128 .f32) (xs1 : Vec F S1024x1 .f32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST block of a slot: the block's product is added to the accumulators, which are then copied into the
    results' buffers, whatever those held. -/
noncomputable def kernelRun0_C (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S4096x128 .f32) (x1 : Vec F S1x4096 .i32) (xs0 : Vec F S1024x128 .f32) (xs1 : Vec F S1024x1 .f32) :
    Σ' (L2 : List (View.Piece (Elt F) S1x1024x128 .f32)) (L3 : List (View.Piece (Elt F) S1x1024x1 .f32))
      (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, ?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Seg

end
-- ==== Proof.KbR0.lean ====
import proofs.«416664_j53730040873193_3_alg».proof.Proof.KbR0Runs

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first segment-sum call: what every buffer holds point by point, at the contents `V` the call is entered from -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulators and in the results' buffers -/

/-- Contents nothing reads: a result's buffer at a point that neither stores it nor writes it back. -/
def junk0_2 : Vec F S1x1024x128 .f32 := VO0_2.read (Elt F) VO0_2.junk
def junk0_3 : Vec F S1x1024x1 .f32 := VO0_3.read (Elt F) VO0_3.junk

theorem scover0_A_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) (y : S1024x128.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x128.size (by sl_kernel_rfl) y
theorem scover0_A_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem scover0_B_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x128.size (by sl_kernel_rfl) y
theorem scover0_B_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

theorem cover0_C_2 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1x1024x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x1024x128.size (by sl_kernel_rfl) y
theorem cover0_C_3 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1x1024x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1024x1.size (by sl_kernel_rfl) y
theorem scover0_C_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x128.size (by sl_kernel_rfl) y
theorem scover0_C_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def out0_C_2 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1x1024x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1x1024x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## The accumulation, point by point -/

/-- What the two results' buffers and the two accumulators hold after the body at position `n`: the case the position
    selects (first, middle or last block of its core slot), the accumulators of a middle or last block taken over from the
    position before. -/
def outsAt0 (c : Dev nD) : (n : ℕ) → n < cfg0.N → Vec F S1x1024x128 .f32 × Vec F S1x1024x1 .f32 × Vec F S1024x128 .f32 × Vec F S1024x1 .f32
  | 0, hn => (fun (h0 : (0 : ℕ) % 62 = 0) (h1 : ¬(0 : ℕ) % 62 = 61) => (junk0_2, junk0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩))) (Nat.zero_mod _) (by decide)
  | n + 1, hn =>
    if h0 : (n + 1) % 62 = 0 then
      if h1 : (n + 1) % 62 = 61 then
        False.elim (by omega)
      else
        (junk0_2, junk0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 62 = 61 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (junk0_2, junk0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 62 = 0) (h1 : ¬t.val % 62 = 61) :
    outsAt0 V c t.val t.isLt = (junk0_2, junk0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 62 = 0) (h1 : ¬t.val % 62 = 61) :
    outsAt0 V c t.val t.isLt = (junk0_2, junk0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 62 = 0) (h1 : t.val % 62 = 61) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators between points -/

/-- The core's scoped buffers other than this call's staging buffers and its two accumulators, each at some contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) ∗ rest0 (F := F) c) :=
  Pipeline.scopedRest_split_of_list spec0 c [cc0_scratch0, cc0_scratch1] (by decide) (by decide)

/-- The class invariant with the accumulators named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

/-- Before position `n`: nothing named before the first point; afterwards the accumulators at what the position before left. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

/-! ## The proof data -/

/-- The arrays as the call finds them; after the body each operand's buffer at its block and each result's at the
    accumulation's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Seg

end
-- ==== Proof.KbR0Body.lean ====
import proofs.«416664_j53730040873193_3_alg».proof.Proof.KbR0

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first segment-sum call: the body at every point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 8000000 in
/-- The position's remainder mod 62 says which case the point is in; the invariant hands the body the accumulators at what
    the position before left (at anything before the first point) and takes them back at this position's contents; a result's
    buffer passes through untouched except at a slot's last block, where it is stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 124 := lt_of_lt_of_eq t.isLt (show cfg0.N = 124 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 62 = 0
  · by_cases h1 : t.val % 62 = 61
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 62 = 61
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_C_0 c _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_B_0 c _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 124 := N_0; omega)

end Cert.Kernel.Seg

end
-- ==== Proof.KbR1Runs.lean ====
import proofs.«416664_j53730040873193_3_alg».proof.Proof.Gen.Kernel.Launch
import proofs.«416664_j53730040873193_3_alg».proof.Proof.Gen.Kernel.Skeleton
import proofs.«416664_j53730040873193_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second segment-sum call (26 grid points: 2 core slots of 13 row blocks)

The body zeroes its two accumulators at the first row block of a core slot, adds the block's
one-hot product into them at every block, and copies them out at the slot's last block. -/

/-- The row block is the first of its core slot. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 13 = 0 :=
  (by decide +kernel : ∀ t : Fin grid1.N, cond1_0 (grid1.coords t) ↔ t.val % 13 = 0)

/-- The row block is the last of its core slot. -/
abbrev cond1_1 (i : grid1.Coords) : Prop := k1_cond2 i = 1#1
theorem hcond1_1 : ∀ t : Fin cfg1.N, cond1_1 (grid1.coords t) ↔ t.val % 13 = 12 :=
  (by decide +kernel : ∀ t : Fin grid1.N, cond1_1 (grid1.coords t) ↔ t.val % 13 = 12)

/-- The two operands are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The two results are stored, and written back, exactly at a slot's last block. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The staging memrefs the pipeline passes at point `t`, and the two accumulators. -/
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view
abbrev VO1_2 : View sig .tc .vmem S1x1024x128 .f32 := (Memref.whole cc1_stg2_0 : Memref sig .tc .vmem S1x1024x128 .f32).view
abbrev VO1_3 : View sig .tc .vmem S1x1024x1 .f32 := (Memref.whole cc1_stg3_0 : Memref sig .tc .vmem S1x1024x1 .f32).view

/-! ## The body, case by case -/

set_option maxHeartbeats 4000000 in
/-- FIRST block of a slot: both accumulators are overwritten (zeroed, then the block's product added), whatever
    they held; the results' buffers are not touched. -/
noncomputable def kernelRun1_A (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i)
    (x0 : Vec F S4096x128 .f32) (x1 : Vec F S1x4096 .i32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, fun xi2 xi3 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE block: the block's product is added to what the accumulators held; the results' buffers are not touched. -/
noncomputable def kernelRun1_B (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i)
    (x0 : Vec F S4096x128 .f32) (x1 : Vec F S1x4096 .i32) (xs0 : Vec F S1024x128 .f32) (xs1 : Vec F S1024x1 .f32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, fun xi2 xi3 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST block of a slot: the block's product is added to the accumulators, which are then copied into the
    results' buffers, whatever those held. -/
noncomputable def kernelRun1_C (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i)
    (x0 : Vec F S4096x128 .f32) (x1 : Vec F S1x4096 .i32) (xs0 : Vec F S1024x128 .f32) (xs1 : Vec F S1024x1 .f32) :
    Σ' (L2 : List (View.Piece (Elt F) S1x1024x128 .f32)) (L3 : List (View.Piece (Elt F) S1x1024x1 .f32))
      (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, ?_, ?_, fun E K => ?run⟩
  case run =>
    simp only [cc1__segsum_kernel_eq_skeleton]; unfold cc1__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Seg

end
-- ==== Proof.KbR1.lean ====
import proofs.«416664_j53730040873193_3_alg».proof.Proof.KbR1Runs

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second segment-sum call: what every buffer holds point by point, at the contents `V` the call is entered from -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulators and in the results' buffers -/

/-- Contents nothing reads: a result's buffer at a point that neither stores it nor writes it back. -/
def junk1_2 : Vec F S1x1024x128 .f32 := VO1_2.read (Elt F) VO1_2.junk
def junk1_3 : Vec F S1x1024x1 .f32 := VO1_3.read (Elt F) VO1_3.junk

theorem scover1_A_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) (y : S1024x128.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x128.size (by sl_kernel_rfl) y
theorem scover1_A_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y
def sout1_A_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1).1)
def sout1_A_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.1)

theorem scover1_B_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) (y : S1024x128.Idx) :
    ∃ pc ∈ (kernelRun1_B c i arg2 harg2 arg3 harg3 arg4 harg4 arg5 harg5 arg6 harg6 arg7 harg7 hc0 hc1 x0 x1 xs0 xs1).1, y ∈ pc.1.set :=
  View.cover_of_tiledL (kernelRun1_B c i arg2 harg2 arg3 harg3 arg4 harg4 arg5 harg5 arg6 harg6 arg7 harg7 hc0 hc1 x0 x1 xs0 xs1).1 S1024x128.size (by sl_kernel_rfl) y
theorem scover1_B_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) (y : S1024x1.Idx) :
    ∃ pc ∈ (kernelRun1_B c i arg2 harg2 arg3 harg3 arg4 harg4 arg5 harg5 arg6 harg6 arg7 harg7 hc0 hc1 x0 x1 xs0 xs1).2.1, y ∈ pc.1.set :=
  View.cover_of_tiledL (kernelRun1_B c i arg2 harg2 arg3 harg3 arg4 harg4 arg5 harg5 arg6 harg6 arg7 harg7 hc0 hc1 x0 x1 xs0 xs1).2.1 S1024x1.size (by sl_kernel_rfl) y
def sout1_B_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).1)
def sout1_B_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.1)

theorem cover1_C_2 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1x1024x128.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL (kernelRun1_C c i arg2 harg2 arg3 harg3 arg4 harg4 arg5 harg5 arg6 harg6 arg7 harg7 hc0 hc1 x0 x1 xs0 xs1).1 S1x1024x128.size (by sl_kernel_rfl) y
theorem cover1_C_3 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1x1024x1.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL (kernelRun1_C c i arg2 harg2 arg3 harg3 arg4 harg4 arg5 harg5 arg6 harg6 arg7 harg7 hc0 hc1 x0 x1 xs0 xs1).2.1 S1x1024x1.size (by sl_kernel_rfl) y
theorem scover1_C_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL (kernelRun1_C c i arg2 harg2 arg3 harg3 arg4 harg4 arg5 harg5 arg6 harg6 arg7 harg7 hc0 hc1 x0 x1 xs0 xs1).2.2.1 S1024x128.size (by sl_kernel_rfl) y
theorem scover1_C_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL (kernelRun1_C c i arg2 harg2 arg3 harg3 arg4 harg4 arg5 harg5 arg6 harg6 arg7 harg7 hc0 hc1 x0 x1 xs0 xs1).2.2.2.1 S1024x1.size (by sl_kernel_rfl) y
def out1_C_2 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1x1024x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1x1024x1 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)
def sout1_C_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
def sout1_C_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

/-! ## The accumulation, point by point -/

/-- What the two results' buffers and the two accumulators hold after the body at position `n`: the case the position
    selects (first, middle or last block of its core slot), the accumulators of a middle or last block taken over from the
    position before. -/
def outsAt1 (c : Dev nD) : (n : ℕ) → n < cfg1.N → Vec F S1x1024x128 .f32 × Vec F S1x1024x1 .f32 × Vec F S1024x128 .f32 × Vec F S1024x1 .f32
  | 0, hn => (fun (h0 : (0 : ℕ) % 13 = 0) (h1 : ¬(0 : ℕ) % 13 = 12) => (junk1_2, junk1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩))) (Nat.zero_mod _) (by decide)
  | n + 1, hn =>
    if h0 : (n + 1) % 13 = 0 then
      if h1 : (n + 1) % 13 = 12 then
        False.elim (by omega)
      else
        (junk1_2, junk1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 13 = 12 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
      else
        (junk1_2, junk1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 13 = 0) (h1 : ¬t.val % 13 = 12) :
    outsAt1 V c t.val t.isLt = (junk1_2, junk1_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 13 = 0) (h1 : ¬t.val % 13 = 12) :
    outsAt1 V c t.val t.isLt = (junk1_2, junk1_3, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 13 = 0) (h1 : t.val % 13 = 12) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators between points -/

/-- The core's scoped buffers other than this call's staging buffers and its two accumulators, each at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)) ∗ rest1 (F := F) c) :=
  Pipeline.scopedRest_split_of_list spec1 c [cc1_scratch0, cc1_scratch1] (by decide) (by decide)

/-- The class invariant with the accumulators named. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

/-- Before position `n`: nothing named before the first point; afterwards the accumulators at what the position before left. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 (F := F) c) ∗ (∃ r, prngReg c r)) := by
  cases n with
  | zero => exact absurd rfl hz
  | succ n => rfl

/-! ## The proof data -/

/-- The arrays as the call finds them; after the body each operand's buffer at its block and each result's at the
    accumulation's component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Seg

end
-- ==== Proof.KbR1Body.lean ====
import proofs.«416664_j53730040873193_3_alg».proof.Proof.KbR1

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second segment-sum call: the body at every point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The position's remainder mod 62 says which case the point is in; the invariant hands the body the accumulators at what
    the position before left (at anything before the first point) and takes them back at this position's contents; a result's
    buffer passes through untouched except at a slot's last block, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 26 := lt_of_lt_of_eq t.isLt (show cfg1.N = 26 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 13 = 0
  · by_cases h1 : t.val % 13 = 12
    · exfalso; omega
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1; (try dsimp only)
      by_cases hz : t.val = 0
      ·
        rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 13 = 12
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_C_2 c _ _ _ _ _ _ _ _ _ _ _ _ _ _ _ _ _ _ _)
        unfold owns; iexists _; isplitr
        swap; · iexact H3
        ipureintro; exact View.read_writes_of_cover _ _ _ _ _ (cover1_C_3 c _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 26 := N_1; omega)

end Cert.Kernel.Seg

end
-- ==== Proof.KbR2.lean ====
import proofs.«416664_j53730040873193_3_alg».proof.Proof.Gen.Kernel.Launch
import proofs.«416664_j53730040873193_3_alg».proof.Proof.Gen.Kernel.Skeleton
import proofs.«416664_j53730040873193_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third call: the feed-forward block and the layer normalisation (one grid point)

The body loads its eleven operands whole, computes, and stores the result whole. -/

/-- The staging memrefs the pipeline passes at point `t`. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S384x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x128 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1024x128 .f32 := win2_11.stage (cfg2.slots t 11)
abbrev hs2_11 (t : Fin cfg2.N) : (ms2_11 t).IsWhole := hstage2_11 ((cfg2.slots t 11).cast nbuf2_11)
/-- One staging buffer of the result's window, through which its contents are stated. -/
abbrev VO2_11 : View sig .tc .vmem S1024x128 .f32 := (Memref.whole cc2_stg11_0 : Memref sig .tc .vmem S1024x128 .f32).view

/-! ## The body -/

set_option maxHeartbeats 4000000 in
/-- On whole memrefs, the operands' at contents `x0 … x10` and the result's at anything, the body runs to the
    continuation holding the operands' as they were and the result's with its pieces written. -/
noncomputable def kernelRun2 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) :
    { L11 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)) -∗ K ⟨⟩))
          ⊢ wp frame (wpE (defs₀ (F := F)) Variants.none c none) E (cc2__mlp_ln_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc2__mlp_ln_kernel_eq_skeleton]; unfold cc2__mlp_ln_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact H11

/-- Its one store tiles the result's buffer, so it covers it. -/
theorem cover2_11 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) (y : S1024x128.Idx) :
    ∃ pc ∈ (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S1024x128.size (by sl_kernel_rfl) y

/-- What the body leaves in the result's buffer: its pieces read back. -/
def out2_11 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) : Vec F S1024x128 .f32 :=
  VO2_11.read (Elt F) (VO2_11.writes (Elt F) VO2_11.junk (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

variable (V : (c : Dev nD) → (b : Ref sig .tc) → Buf (Elt F) ((c : Thread nD τ).loc b))

/-! ## The windows' blocks, at the contents `V` the call is entered from -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The arrays as the call finds them; after the body each operand's buffer at its block and the result's at what
    the body's store leaves; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t))

set_option maxHeartbeats 4000000 in
/-- The body at the point: the operands' memrefs hold their blocks, so the run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  unfold out2_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover2_11 c _ _ _ _ _ _ _ _ _ _ _ _ _ _ _ _ _ _ _ _ _ _ _ _ _ _ _ _ _ _ _ _ _ _ _ _)

/-- The library's body obligation, at the point. -/
theorem body_obligation2 (c : Dev nD) : BodyObligation (dat2 (F := F) V c) (defs₀ (F := F)) Variants.none () Set.univ := fun t => by
  rw [bigSep_W2, bigSep_W2]
  exact sound_body2 V c t

set_option maxHeartbeats 4000000 in
/-- The stored value is the skeleton's payload of the eleven blocks. -/
theorem after2_11_eq (c : Dev nD) (t : Fin cfg2.N) : (dat2 V c).after 11 t = k2_pay1 (iblk2 V c 0 t) (k2_pay2 (iblk2 V c 0 t) (iblk2 V c 1 t) (iblk2 V c 2 t) (iblk2 V c 3 t) (iblk2 V c 4 t) (iblk2 V c 5 t) (iblk2 V c 6 t) (iblk2 V c 7 t) (iblk2 V c 8 t)) (iblk2 V c 9 t) (iblk2 V c 10 t) := by
  have hz : (![0, 0] : Fin 2 → Nat) = fun _ => 0 := funext fun a => by fin_cases a <;> rfl
  rw [after2_11]
  unfold out2_11
  rw [View.read_writes_eq_canon _ _ _ (cover2_11 c _ _ _ _ _ _ _ _ _ _ _ _ _ _ _ _ _ _ _ _ _ _ _ _ _ _ _ _ _ _ _ _ _ _ _ _)]
  unfold kernelRun2
  dsimp only
  rw [View.canon_unit_zero hz]
  simp only [View.readAt_eq_ld, Memref.IsWhole.read_unread, View.ld_unit_zero (S := S1024x128) hz, View.ld_unit_zero (S := S1024x1) hz, View.ld_unit_zero (S := S384x512) hz, View.ld_unit_zero (S := S1x512) hz, View.ld_unit_zero (S := S512x128) hz, View.ld_unit_zero (S := S1x128) hz]

/-! ## Reading the blocks: every window stages its whole array as its one block -/

/-- Each window's block index at the one point is zero on both axes. -/
theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)
theorem idx2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

/-- So a window's block at an index is its array at that index. -/
theorem iblk2_0_apply (c : Dev nD) (t : Fin cfg2.N) (y : S1024x128.Idx) : iblk2 V c 0 t y = V c main_arg2 y := by
  unfold iblk2
  show V c main_arg2 (((cfg2.win 0).blk t).view.emb y) = V c main_arg2 y
  obtain ⟨e0, e1⟩ := idx2_0 t
  congr 1
  funext a; apply Fin.ext
  match a with
  | ⟨0, _⟩ => show win2_0.index t (0 : Fin 2) * 1024 + 1 * (y 0).val = (y 0).val; omega
  | ⟨1, _⟩ => show win2_0.index t (1 : Fin 2) * 128 + 1 * (y 1).val = (y 1).val; omega
theorem iblk2_1_apply (c : Dev nD) (t : Fin cfg2.N) (y : S1024x128.Idx) : iblk2 V c 1 t y = V c main_v13 y := by
  unfold iblk2
  show V c main_v13 (((cfg2.win 1).blk t).view.emb y) = V c main_v13 y
  obtain ⟨e0, e1⟩ := idx2_1 t
  congr 1
  funext a; apply Fin.ext
  match a with
  | ⟨0, _⟩ => show win2_1.index t (0 : Fin 2) * 1024 + 1 * (y 0).val = (y 0).val; omega
  | ⟨1, _⟩ => show win2_1.index t (1 : Fin 2) * 128 + 1 * (y 1).val = (y 1).val; omega
theorem iblk2_2_apply (c : Dev nD) (t : Fin cfg2.N) (y : S1024x1.Idx) : iblk2 V c 2 t y = V c main_v14 y := by
  unfold iblk2
  show V c main_v14 (((cfg2.win 2).blk t).view.emb y) = V c main_v14 y
  obtain ⟨e0, e1⟩ := idx2_2 t
  congr 1
  funext a; apply Fin.ext
  match a with
  | ⟨0, _⟩ => show win2_2.index t (0 : Fin 2) * 1024 + 1 * (y 0).val = (y 0).val; omega
  | ⟨1, _⟩ => show win2_2.index t (1 : Fin 2) * 1 + 1 * (y 1).val = (y 1).val; omega
theorem iblk2_3_apply (c : Dev nD) (t : Fin cfg2.N) (y : S1024x128.Idx) : iblk2 V c 3 t y = V c main_v19 y := by
  unfold iblk2
  show V c main_v19 (((cfg2.win 3).blk t).view.emb y) = V c main_v19 y
  obtain ⟨e0, e1⟩ := idx2_3 t
  congr 1
  funext a; apply Fin.ext
  match a with
  | ⟨0, _⟩ => show win2_3.index t (0 : Fin 2) * 1024 + 1 * (y 0).val = (y 0).val; omega
  | ⟨1, _⟩ => show win2_3.index t (1 : Fin 2) * 128 + 1 * (y 1).val = (y 1).val; omega
theorem iblk2_4_apply (c : Dev nD) (t : Fin cfg2.N) (y : S1024x1.Idx) : iblk2 V c 4 t y = V c main_v20 y := by
  unfold iblk2
  show V c main_v20 (((cfg2.win 4).blk t).view.emb y) = V c main_v20 y
  obtain ⟨e0, e1⟩ := idx2_4 t
  congr 1
  funext a; apply Fin.ext
  match a with
  | ⟨0, _⟩ => show win2_4.index t (0 : Fin 2) * 1024 + 1 * (y 0).val = (y 0).val; omega
  | ⟨1, _⟩ => show win2_4.index t (1 : Fin 2) * 1 + 1 * (y 1).val = (y 1).val; omega
theorem iblk2_5_apply (c : Dev nD) (t : Fin cfg2.N) (y : S384x512.Idx) : iblk2 V c 5 t y = V c main_arg3 y := by
  unfold iblk2
  show V c main_arg3 (((cfg2.win 5).blk t).view.emb y) = V c main_arg3 y
  obtain ⟨e0, e1⟩ := idx2_5 t
  congr 1
  funext a; apply Fin.ext
  match a with
  | ⟨0, _⟩ => show win2_5.index t (0 : Fin 2) * 384 + 1 * (y 0).val = (y 0).val; omega
  | ⟨1, _⟩ => show win2_5.index t (1 : Fin 2) * 512 + 1 * (y 1).val = (y 1).val; omega
theorem iblk2_6_apply (c : Dev nD) (t : Fin cfg2.N) (y : S1x512.Idx) : iblk2 V c 6 t y = V c main_v21 y := by
  unfold iblk2
  show V c main_v21 (((cfg2.win 6).blk t).view.emb y) = V c main_v21 y
  obtain ⟨e0, e1⟩ := idx2_6 t
  congr 1
  funext a; apply Fin.ext
  match a with
  | ⟨0, _⟩ => show win2_6.index t (0 : Fin 2) * 1 + 1 * (y 0).val = (y 0).val; omega
  | ⟨1, _⟩ => show win2_6.index t (1 : Fin 2) * 512 + 1 * (y 1).val = (y 1).val; omega
theorem iblk2_7_apply (c : Dev nD) (t : Fin cfg2.N) (y : S512x128.Idx) : iblk2 V c 7 t y = V c main_arg5 y := by
  unfold iblk2
  show V c main_arg5 (((cfg2.win 7).blk t).view.emb y) = V c main_arg5 y
  obtain ⟨e0, e1⟩ := idx2_7 t
  congr 1
  funext a; apply Fin.ext
  match a with
  | ⟨0, _⟩ => show win2_7.index t (0 : Fin 2) * 512 + 1 * (y 0).val = (y 0).val; omega
  | ⟨1, _⟩ => show win2_7.index t (1 : Fin 2) * 128 + 1 * (y 1).val = (y 1).val; omega
theorem iblk2_8_apply (c : Dev nD) (t : Fin cfg2.N) (y : S1x128.Idx) : iblk2 V c 8 t y = V c main_v22 y := by
  unfold iblk2
  show V c main_v22 (((cfg2.win 8).blk t).view.emb y) = V c main_v22 y
  obtain ⟨e0, e1⟩ := idx2_8 t
  congr 1
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega
theorem iblk2_9_apply (c : Dev nD) (t : Fin cfg2.N) (y : S1x128.Idx) : iblk2 V c 9 t y = V c main_v23 y := by
  unfold iblk2
  show V c main_v23 (((cfg2.win 9).blk t).view.emb y) = V c main_v23 y
  obtain ⟨e0, e1⟩ := idx2_9 t
  congr 1
  funext a; apply Fin.ext
  match a with
  | ⟨0, _⟩ => show win2_9.index t (0 : Fin 2) * 1 + 1 * (y 0).val = (y 0).val; omega
  | ⟨1, _⟩ => show win2_9.index t (1 : Fin 2) * 128 + 1 * (y 1).val = (y 1).val; omega
theorem iblk2_10_apply (c : Dev nD) (t : Fin cfg2.N) (y : S1x128.Idx) : iblk2 V c 10 t y = V c main_v24 y := by
  unfold iblk2
  show V c main_v24 (((cfg2.win 10).blk t).view.emb y) = V c main_v24 y
  obtain ⟨e0, e1⟩ := idx2_10 t
  congr 1
  funext a; apply Fin.ext
  match a with
  | ⟨0, _⟩ => show win2_10.index t (0 : Fin 2) * 1 + 1 * (y 0).val = (y 0).val; omega
  | ⟨1, _⟩ => show win2_10.index t (1 : Fin 2) * 128 + 1 * (y 1).val = (y 1).val; omega
theorem iblk2_11_apply (c : Dev nD) (t : Fin cfg2.N) (y : S1024x128.Idx) : iblk2 V c 11 t y = V c main_v25 y := by
  unfold iblk2
  show V c main_v25 (((cfg2.win 11).blk t).view.emb y) = V c main_v25 y
  obtain ⟨e0, e1⟩ := idx2_11 t
  congr 1
  funext a; apply Fin.ext
  match a with
  | ⟨0, _⟩ => show win2_11.index t (0 : Fin 2) * 1024 + 1 * (y 0).val = (y 0).val; omega
  | ⟨1, _⟩ => show win2_11.index t (1 : Fin 2) * 128 + 1 * (y 1).val = (y 1).val; omega

/-! ## The result's array after the call -/

/-- Every index of the result's array is in the one point's block. -/
theorem mem_blk2_11 (t : Fin cfg2.N) (i : S1024x128.Idx) : i ∈ ((cfg2.win 11).blk t).view.set := by
  show i ∈ ((View.whole main_v25).slice (win2_11.rect t)).set
  rw [View.set_slice_whole, Rect.mem_set_unit]
  obtain ⟨e0, e1⟩ := idx2_11 t
  intro a
  match a with
  | ⟨0, _⟩ =>
    show win2_11.index t (0 : Fin 2) * 1024 ≤ (i 0).val ∧ (i 0).val < win2_11.index t (0 : Fin 2) * 1024 + 1024
    have hi : (i 0).val < 1024 := (i 0).isLt
    omega
  | ⟨1, _⟩ =>
    show win2_11.index t (1 : Fin 2) * 128 ≤ (i 1).val ∧ (i 1).val < win2_11.index t (1 : Fin 2) * 128 + 128
    have hi : (i 1).val < 128 := (i 1).isLt
    omega

/-- The result's array ends holding, index by index, what the body left in the window's buffer at the one point:
    that point writes its block back, and the block is the whole array. -/
theorem arr2_final (c : Dev nD) (y : S1024x128.Idx) : (dat2 V c).arrAt 11 cfg2.N y = (dat2 V c).after 11 t2_0 y := by
  have h := (dat2 V c).arrAt_eq_of_cover 11 (fun i => (dat2 V c).after 11 t2_0 i)
    (fun t _ => by
      show (cfg2.win 11).cut (grid2.coords t) ((dat2 V c).after 11 t) = _
      obtain rfl := fin_N2 t
      obtain ⟨e0, e1⟩ := idx2_11 t2_0
      funext j
      show (dat2 V c).after 11 t2_0 j = (dat2 V c).after 11 t2_0 (((cfg2.win 11).blk t2_0).view.emb j)
      congr 1
      funext a; apply Fin.ext
      match a with
      | ⟨0, _⟩ => show (j 0).val = win2_11.index t2_0 (0 : Fin 2) * 1024 + 1 * (j 0).val; omega
      | ⟨1, _⟩ => show (j 1).val = win2_11.index t2_0 (1 : Fin 2) * 128 + 1 * (j 1).val; omega)
    (fun i => ⟨t2_0, flush2_11 t2_0, mem_blk2_11 t2_0 i⟩)
  exact congrFun h y

end Cert.Kernel.Seg

end
-- ==== Proof.KbRunCond.lean ====
import proofs.«416664_j53730040873193_3_alg».proof.Proof.Gen.Kernel.Regions

noncomputable section

namespace Cert.Kernel.Seg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! # The run of the whole program, with every unscoped buffer read at the end

From one record per kernel call, entered from the buffer contents before it and left at the contents after it, every
weakly fair execution of the program from memory `m` terminates, and every final memory holds each unscoped buffer at the
last boundary's contents: the arguments (which no step writes) and the result alike. -/

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V14 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, .rfl, .rfl, .rfl, hpre0 c, hpost0 c, .rfl, .rfl, .rfl, .rfl, hpre1 c, hpost1 c, hpre2 c, (hpost2 c).trans (sep_mono .rfl (hE3 c))⟩)
    (hinit := ?_) (QY := fun c s => ∀ b ∈ Pipeline.ucRefs τ sig, s.mem (((c : Thread nD τ)).1, b) = V14 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    iintro ⟨Hh, HSI⟩
    unfold StableHlo.held
    imodintro
    iapply (pointsTo_read_all (Pipeline.ucRefs τ sig) (fun b => (((c : Thread nD τ)).1, b)) (V14 m outs c) s')
    isplitl [Hh] <;> iassumption

end Cert.Kernel.Seg

end
-- ==== Proof.KbRun.lean ====
import proofs.«416664_j53730040873193_3_alg».proof.Proof.KbR0Body
import proofs.«416664_j53730040873193_3_alg».proof.Proof.KbR1Body
import proofs.«416664_j53730040873193_3_alg».proof.Proof.KbR2
import proofs.«416664_j53730040873193_3_alg».proof.Proof.KbRunCond
import Idealize.ShloMosaic.Lib.Pipeline.RegionsLoop

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: the three calls among the host operations

The buffer contents at the boundaries are the generated valuations `V0 … V14`, stated over what the calls leave
(`outs`); here `outs` is instantiated, call by call, with what each pipeline's write-backs leave in its arrays. -/

/-- What a call is entered from, read at the TensorCore's references. -/
abbrev Ve0 : (c : Dev nD) → (b : Ref sig .tc) → Buf (Elt F) ((c : Thread nD τ).loc b) := fun c b => V5 m c b
/-- After the first call: its arrays at what its write-backs leave, every other buffer as entered. -/
def W6 (c : Dev nD) : Valuation τ sig (Elt F) :=
  Pipeline.withArrays spec0 c (V5 m c) fun w => (dat0 (Ve0 m) c).arrAt w cfg0.N
def outs1 : Outs (F := F) := fun _ r c => W6 m c r
abbrev Ve1 : (c : Dev nD) → (b : Ref sig .tc) → Buf (Elt F) ((c : Thread nD τ).loc b) := fun c b => V11 m (outs1 m) c b
/-- After the second call. -/
def W12 (c : Dev nD) : Valuation τ sig (Elt F) :=
  Pipeline.withArrays spec1 c (V11 m (outs1 m) c) fun w => (dat1 (Ve1 m) c).arrAt w cfg1.N
def outs2 : Outs (F := F) := fun J r c => if J ≤ 6 then W6 m c r else W12 m c r
abbrev Ve2 : (c : Dev nD) → (b : Ref sig .tc) → Buf (Elt F) ((c : Thread nD τ).loc b) := fun c b => V13 m (outs2 m) c b
/-- After the third call. -/
def W14 (c : Dev nD) : Valuation τ sig (Elt F) :=
  Pipeline.withArrays spec2 c (V13 m (outs2 m) c) fun w => (dat2 (Ve2 m) c).arrAt w cfg2.N
/-- What the calls leave, all three. -/
def outs3 : Outs (F := F) := fun J r c => if J ≤ 6 then W6 m c r else if J ≤ 12 then W12 m c r else W14 m c r

theorem outs3_6 (r : Ref sig .tc) (c : Dev nD) : outs3 m 6 r c = W6 m c r := rfl
theorem outs3_12 (r : Ref sig .tc) (c : Dev nD) : outs3 m 12 r c = W12 m c r := rfl
theorem outs3_14 (r : Ref sig .tc) (c : Dev nD) : outs3 m 14 r c = W14 m c r := rfl
/-- The contents before the second and the third call do not depend on what later calls leave. -/
theorem V11_outs3 (c : Dev nD) : V11 m (outs3 m) c = V11 m (outs1 m) c := rfl
theorem V13_outs3 (c : Dev nD) : V13 m (outs3 m) c = V13 m (outs2 m) c := rfl

theorem Ve1_eq (c : Dev nD) (b : Ref sig .tc) : V11 m (outs3 m) c b = Ve1 m c b := congrFun (V11_outs3 m c) _
theorem Ve2_eq (c : Dev nD) (b : Ref sig .tc) : V13 m (outs3 m) c b = Ve2 m c b := congrFun (V13_outs3 m c) _

theorem W6_arr (c : Dev nD) (w : Fin cfg0.W) : W6 m c (Proc.devRef .tc (Pipeline.arrRef spec0 w)) = (dat0 (Ve0 m) c).arrAt w cfg0.N := by
  unfold W6; exact Pipeline.withArrays_arr spec0 launch0.win.arr_inj c _ _ w
theorem W12_arr (c : Dev nD) (w : Fin cfg1.W) : W12 m c (Proc.devRef .tc (Pipeline.arrRef spec1 w)) = (dat1 (Ve1 m) c).arrAt w cfg1.N := by
  unfold W12; exact Pipeline.withArrays_arr spec1 launch1.win.arr_inj c _ _ w
theorem W14_arr (c : Dev nD) (w : Fin cfg2.W) : W14 m c (Proc.devRef .tc (Pipeline.arrRef spec2 w)) = (dat2 (Ve2 m) c).arrAt w cfg2.N := by
  unfold W14; exact Pipeline.withArrays_arr spec2 launch2.win.arr_inj c _ _ w

/-- The updated valuations at the buffers a call may change. -/
theorem V6_v12_0 (outs : Outs (F := F)) (c : Dev nD) : V6 m outs c main_v12_0 = outs 6 main_v12_0 c := by
  simp only [V6, Function.update_of_ne (StableHlo.devRef_ne_of_ne (by decide : (main_v12_0 : Ref sig .tc) ≠ main_v12_1) : (Proc.devRef .tc main_v12_0 : DevRef τ sig) ≠ Proc.devRef .tc main_v12_1), Function.update_self]
theorem V6_v12_1 (outs : Outs (F := F)) (c : Dev nD) : V6 m outs c main_v12_1 = outs 6 main_v12_1 c := by
  simp only [V6, Function.update_self]
theorem V12_v18_0 (outs : Outs (F := F)) (c : Dev nD) : V12 m outs c main_v18_0 = outs 12 main_v18_0 c := by
  simp only [V12, Function.update_of_ne (StableHlo.devRef_ne_of_ne (by decide : (main_v18_0 : Ref sig .tc) ≠ main_v18_1) : (Proc.devRef .tc main_v18_0 : DevRef τ sig) ≠ Proc.devRef .tc main_v18_1), Function.update_self]
theorem V12_v18_1 (outs : Outs (F := F)) (c : Dev nD) : V12 m outs c main_v18_1 = outs 12 main_v18_1 c := by
  simp only [V12, Function.update_self]
theorem V14_v25 (outs : Outs (F := F)) (c : Dev nD) : V14 m outs c main_v25 = outs 14 main_v25 c := by
  simp only [V14, Function.update_self]

/-! ## The proof data family and what rides beside the buffers -/

/-- Every pipeline's proof data, each at its call's entry contents: a literal match. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
abbrev 𝒱₀ : Variants := Variants.none
abbrev L : GSem nD τ sig → Finset Unit := fun _ => ∅
abbrev lv : GSem nD τ sig → Unit → ℕ := fun _ _ => 0
/-- The core's generator register at some state, and the core owing nothing. -/
abbrev R (c : Dev nD) : sProp 𝕄 := iprop((∃ r, prngReg c r) ∗ ∃ W, owes (c : Thread nD τ) (0 : CellTallies nD τ sig Unit) W)

/-! ## Each call's arrays at its entry and at its exit -/

theorem hA0 (c : Dev nD) (w : Fin cfg0.W) : (pdats m 0 c).A w = V5 m c (Pipeline.arrRef spec0 w) := A_eq0 (Ve0 m) c w
theorem hA1 (c : Dev nD) (w : Fin cfg1.W) : (pdats m 1 c).A w = V11 m (outs3 m) c (Pipeline.arrRef spec1 w) := (A_eq1 (Ve1 m) c w).trans (Ve1_eq m c _).symm
theorem hA2 (c : Dev nD) (w : Fin cfg2.W) : (pdats m 2 c).A w = V13 m (outs3 m) c (Pipeline.arrRef spec2 w) := (A_eq2 (Ve2 m) c w).trans (Ve2_eq m c _).symm

theorem hF0 (c : Dev nD) (w : Fin cfg0.W) : (pdats m 0 c).arrAt w cfg0.N = V6 m (outs3 m) c (Pipeline.arrRef spec0 w) := by
  match w with
  | ⟨0, _⟩ => exact ((dat0 (Ve0 m) c).arrAt_in 0 rfl _).trans ((A_eq0 (Ve0 m) c 0).trans (V6_of m (outs3 m) c main_v9 (by decide)).symm)
  | ⟨1, _⟩ => exact ((dat0 (Ve0 m) c).arrAt_in 1 rfl _).trans ((A_eq0 (Ve0 m) c 1).trans (V6_of m (outs3 m) c main_v11 (by decide)).symm)
  | ⟨2, _⟩ => exact ((V6_v12_0 m (outs3 m) c).trans ((outs3_6 m main_v12_0 c).trans (W6_arr m c 2))).symm
  | ⟨3, _⟩ => exact ((V6_v12_1 m (outs3 m) c).trans ((outs3_6 m main_v12_1 c).trans (W6_arr m c 3))).symm
theorem hrest0 (c : Dev nD) : ∀ b, b ∉ Finset.univ.image (Pipeline.arrRef spec0) → V6 m (outs3 m) c b = V5 m c b := fun b hb =>
  V6_of m (outs3 m) c b (by
    intro hmem
    rcases List.mem_cons.mp hmem with rfl | hmem
    · exact hb (Finset.mem_image.mpr ⟨2, Finset.mem_univ _, rfl⟩)
    · rcases List.mem_singleton.mp hmem with rfl
      exact hb (Finset.mem_image.mpr ⟨3, Finset.mem_univ _, rfl⟩))

theorem hF1 (c : Dev nD) (w : Fin cfg1.W) : (pdats m 1 c).arrAt w cfg1.N = V12 m (outs3 m) c (Pipeline.arrRef spec1 w) := by
  match w with
  | ⟨0, _⟩ => exact ((dat1 (Ve1 m) c).arrAt_in 0 rfl _).trans ((A_eq1 (Ve1 m) c 0).trans ((Ve1_eq m c main_v15).symm.trans (V12_of m (outs3 m) c main_v15 (by decide)).symm))
  | ⟨1, _⟩ => exact ((dat1 (Ve1 m) c).arrAt_in 1 rfl _).trans ((A_eq1 (Ve1 m) c 1).trans ((Ve1_eq m c main_v17).symm.trans (V12_of m (outs3 m) c main_v17 (by decide)).symm))
  | ⟨2, _⟩ => exact ((V12_v18_0 m (outs3 m) c).trans ((outs3_12 m main_v18_0 c).trans (W12_arr m c 2))).symm
  | ⟨3, _⟩ => exact ((V12_v18_1 m (outs3 m) c).trans ((outs3_12 m main_v18_1 c).trans (W12_arr m c 3))).symm
theorem hrest1 (c : Dev nD) : ∀ b, b ∉ Finset.univ.image (Pipeline.arrRef spec1) → V12 m (outs3 m) c b = V11 m (outs3 m) c b := fun b hb =>
  V12_of m (outs3 m) c b (by
    intro hmem
    rcases List.mem_cons.mp hmem with rfl | hmem
    · exact hb (Finset.mem_image.mpr ⟨2, Finset.mem_univ _, rfl⟩)
    · rcases List.mem_singleton.mp hmem with rfl
      exact hb (Finset.mem_image.mpr ⟨3, Finset.mem_univ _, rfl⟩))

set_option maxHeartbeats 4000000 in
theorem hF2 (c : Dev nD) (w : Fin cfg2.W) : (pdats m 2 c).arrAt w cfg2.N = V14 m (outs3 m) c (Pipeline.arrRef spec2 w) := by
  match w with
  | ⟨0, _⟩ => exact ((dat2 (Ve2 m) c).arrAt_in 0 rfl _).trans ((A_eq2 (Ve2 m) c 0).trans ((Ve2_eq m c main_arg2).symm.trans (V14_of m (outs3 m) c main_arg2 (by decide)).symm))
  | ⟨1, _⟩ => exact ((dat2 (Ve2 m) c).arrAt_in 1 rfl _).trans ((A_eq2 (Ve2 m) c 1).trans ((Ve2_eq m c main_v13).symm.trans (V14_of m (outs3 m) c main_v13 (by decide)).symm))
  | ⟨2, _⟩ => exact ((dat2 (Ve2 m) c).arrAt_in 2 rfl _).trans ((A_eq2 (Ve2 m) c 2).trans ((Ve2_eq m c main_v14).symm.trans (V14_of m (outs3 m) c main_v14 (by decide)).symm))
  | ⟨3, _⟩ => exact ((dat2 (Ve2 m) c).arrAt_in 3 rfl _).trans ((A_eq2 (Ve2 m) c 3).trans ((Ve2_eq m c main_v19).symm.trans (V14_of m (outs3 m) c main_v19 (by decide)).symm))
  | ⟨4, _⟩ => exact ((dat2 (Ve2 m) c).arrAt_in 4 rfl _).trans ((A_eq2 (Ve2 m) c 4).trans ((Ve2_eq m c main_v20).symm.trans (V14_of m (outs3 m) c main_v20 (by decide)).symm))
  | ⟨5, _⟩ => exact ((dat2 (Ve2 m) c).arrAt_in 5 rfl _).trans ((A_eq2 (Ve2 m) c 5).trans ((Ve2_eq m c main_arg3).symm.trans (V14_of m (outs3 m) c main_arg3 (by decide)).symm))
  | ⟨6, _⟩ => exact ((dat2 (Ve2 m) c).arrAt_in 6 rfl _).trans ((A_eq2 (Ve2 m) c 6).trans ((Ve2_eq m c main_v21).symm.trans (V14_of m (outs3 m) c main_v21 (by decide)).symm))
  | ⟨7, _⟩ => exact ((dat2 (Ve2 m) c).arrAt_in 7 rfl _).trans ((A_eq2 (Ve2 m) c 7).trans ((Ve2_eq m c main_arg5).symm.trans (V14_of m (outs3 m) c main_arg5 (by decide)).symm))
  | ⟨8, _⟩ => exact ((dat2 (Ve2 m) c).arrAt_in 8 rfl _).trans ((A_eq2 (Ve2 m) c 8).trans ((Ve2_eq m c main_v22).symm.trans (V14_of m (outs3 m) c main_v22 (by decide)).symm))
  | ⟨9, _⟩ => exact ((dat2 (Ve2 m) c).arrAt_in 9 rfl _).trans ((A_eq2 (Ve2 m) c 9).trans ((Ve2_eq m c main_v23).symm.trans (V14_of m (outs3 m) c main_v23 (by decide)).symm))
  | ⟨10, _⟩ => exact ((dat2 (Ve2 m) c).arrAt_in 10 rfl _).trans ((A_eq2 (Ve2 m) c 10).trans ((Ve2_eq m c main_v24).symm.trans (V14_of m (outs3 m) c main_v24 (by decide)).symm))
  | ⟨11, _⟩ => exact ((V14_v25 m (outs3 m) c).trans ((outs3_14 m main_v25 c).trans (W14_arr m c 11))).symm
theorem hrest2 (c : Dev nD) : ∀ b, b ∉ Finset.univ.image (Pipeline.arrRef spec2) → V14 m (outs3 m) c b = V13 m (outs3 m) c b := fun b hb =>
  V14_of m (outs3 m) c b (by
    intro hmem
    rcases List.mem_singleton.mp hmem with rfl
    exact hb (Finset.mem_image.mpr ⟨11, Finset.mem_univ _, rfl⟩))

/-- The third call keeps the class's invariant. -/
theorem hin2 (c : Dev nD) : Pipeline.ΦA spec2 c ⊢ (dat2 (Ve2 m) c).Φ 0 := by
  rw [show (dat2 (Ve2 m) c).Φ 0 = Pipeline.ΦA spec2 c from rfl]
theorem hout2 (c : Dev nD) : (dat2 (Ve2 m) c).Φ (Fin.last cfg2.N) ⊢ Pipeline.ΦA spec2 c := by
  rw [show (dat2 (Ve2 m) c).Φ (Fin.last cfg2.N) = Pipeline.ΦA spec2 c from rfl]

/-! ## The calls as segments -/

-- the library lemmas below are stated over the pinned configuration: unification must unfold plain definitions in a metavariable's type
set_option backward.isDefEq.respectTransparency.types false in
/-- Call 0 over the thread state: entered from every unscoped buffer at the contents before it, left at the contents
    after it; its arrays split out of the unscoped buffers and put back at what the write-backs leave; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs3 m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs3 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas below are stated over the pinned configuration: unification must unfold plain definitions in a metavariable's type
set_option backward.isDefEq.respectTransparency.types false in
/-- Call 1 over the thread state: entered from every unscoped buffer at the contents before it, left at the contents
    after it; its arrays split out of the unscoped buffers and put back at what the write-backs leave; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (outs3 m) c) ∗ R c)
  post c := iprop(StableHlo.held (c : Thread nD τ) (Pipeline.ucRefs τ sig) (V12 m (outs3 m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs3 m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs3 m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs3 m) c b) (fun b => V12 m (outs3 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas below are stated over the pinned configuration: unification must unfold plain definitions in a metavariable's type
set_option backward.isDefEq.respectTransparency.types false in
/-- Call 2 over the thread state: entered from every unscoped buffer at the contents before it, left at the contents
    after it; its arrays split out of the unscoped buffers and put back at what the write-backs leave; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V13 m (outs3 m) c) ∗ R c)
  post c := iprop(StableHlo.held (c : Thread nD τ) (Pipeline.ucRefs τ sig) (V14 m (outs3 m) c) ∗ R c)
  X c := iprop(∃ r, prngReg c r)
  Y c := iprop(∃ r, prngReg c r)
  Z c := Pipeline.unscopedRest (Ix := Unit) (Name := ℕ) (U := UR sig nD τ) (Lvl := ℕ) spec2 c (fun b => V13 m (outs3 m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V13 m (outs3 m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 m c)
    unfold Pipeline.ΦA
    iintro ⟨Hp, -, Hr⟩
    isplitl [Hr]; · iexact Hr
    iexact Hp
  hout c := by
    rw [Pipeline.ownSems0_none]
    refine (hout2 m c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V13 m (outs3 m) c b) (fun b => V14 m (outs3 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, H⟩; iexact H

/-- THE RUN: every weakly fair execution from memory `m` terminates, and every final memory holds each unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs3 m) c b) :=
  run_cond m emb₁ () 𝒱₀ L lv (fun _ _ => rfl) ρ (outs3 m) (pdats m) 0 (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- THE FRAME: every weakly fair execution from memory `m` terminates, nothing faulting, and every final memory holds each
    argument as launched. -/
theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ L lv (fun _ _ => rfl) ρ (outs3 m) (pdats m) 0 (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN WITH ITS RESULT: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v25) = V14 m (outs3 m) c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v25 (by decide)),
      (h c _ (mem_uc main_arg0 (by decide))).trans (V14_main_arg0 m (outs3 m) c),
      (h c _ (mem_uc main_arg1 (by decide))).trans (V14_main_arg1 m (outs3 m) c),
      (h c _ (mem_uc main_arg2 (by decide))).trans (V14_main_arg2 m (outs3 m) c),
      (h c _ (mem_uc main_arg3 (by decide))).trans (V14_main_arg3 m (outs3 m) c),
      (h c _ (mem_uc main_arg4 (by decide))).trans (V14_main_arg4 m (outs3 m) c),
      (h c _ (mem_uc main_arg5 (by decide))).trans (V14_main_arg5 m (outs3 m) c),
      (h c _ (mem_uc main_arg6 (by decide))).trans (V14_main_arg6 m (outs3 m) c),
      (h c _ (mem_uc main_arg7 (by decide))).trans (V14_main_arg7 m (outs3 m) c),
      (h c _ (mem_uc main_arg8 (by decide))).trans (V14_main_arg8 m (outs3 m) c),
      (h c _ (mem_uc main_arg9 (by decide))).trans (V14_main_arg9 m (outs3 m) c),
      (h c _ (mem_uc main_arg10 (by decide))).trans (V14_main_arg10 m (outs3 m) c)⟩) (run_all m ρ)

end Cert.Kernel.Seg

end
-- ==== Proof.KiR0Runs.lean ====
import proofs.«416664_j53730040873193_3_alg».proof.Proof.Gen.KernelIdeal.Launch
import proofs.«416664_j53730040873193_3_alg».proof.Proof.Gen.KernelIdeal.Skeleton
import proofs.«416664_j53730040873193_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first segment-sum call (124 grid points: 2 core slots of 62 row blocks)

The body zeroes its two accumulators at the first row block of a core slot, adds the block's
one-hot product into them at every block, and copies them out at the slot's last block. -/

/-- The row block is the first of its core slot. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 62 = 0 :=
  (by decide +kernel : ∀ t : Fin grid0.N, cond0_0 (grid0.coords t) ↔ t.val % 62 = 0)

/-- The row block is the last of its core slot. -/
abbrev cond0_1 (i : grid0.Coords) : Prop := k0_cond2 i = 1#1
theorem hcond0_1 : ∀ t : Fin cfg0.N, cond0_1 (grid0.coords t) ↔ t.val % 62 = 61 :=
  (by decide +kernel : ∀ t : Fin grid0.N, cond0_1 (grid0.coords t) ↔ t.val % 62 = 61)

/-- The two operands are staged at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two results are stored, and written back, exactly at a slot's last block. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The staging memrefs the pipeline passes at point `t`, and the two accumulators. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view
abbrev VO0_2 : View sig .tc .vmem S1x1024x128 .f32 := (Memref.whole cc0_stg2_0 : Memref sig .tc .vmem S1x1024x128 .f32).view
abbrev VO0_3 : View sig .tc .vmem S1x1024x1 .f32 := (Memref.whole cc0_stg3_0 : Memref sig .tc .vmem S1x1024x1 .f32).view

/-! ## The body, case by case -/

set_option maxHeartbeats 4000000 in
/-- FIRST block of a slot: both accumulators are overwritten (zeroed, then the block's product added), whatever
    they held; the results' buffers are not touched. -/
noncomputable def kernelRun0_A (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S4096x128 .f32) (x1 : Vec F S1x4096 .i32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE block: the block's product is added to what the accumulators held; the results' buffers are not touched. -/
noncomputable def kernelRun0_B (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S4096x128 .f32) (x1 : Vec F S1x4096 .i32) (xs0 : Vec F S1024x128 .f32) (xs1 : Vec F S1024x1 .f32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST block of a slot: the block's product is added to the accumulators, which are then copied into the
    results' buffers, whatever those held. -/
noncomputable def kernelRun0_C (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S4096x128 .f32) (x1 : Vec F S1x4096 .i32) (xs0 : Vec F S1024x128 .f32) (xs1 : Vec F S1024x1 .f32) :
    Σ' (L2 : List (View.Piece (Elt F) S1x1024x128 .f32)) (L3 : List (View.Piece (Elt F) S1x1024x1 .f32))
      (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, ?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Seg

end
-- ==== Proof.KiR0.lean ====
import proofs.«416664_j53730040873193_3_alg».proof.Proof.KiR0Runs

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first segment-sum call: what every buffer holds point by point, at the contents `V` the call is entered from -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulators and in the results' buffers -/

/-- Contents nothing reads: a result's buffer at a point that neither stores it nor writes it back. -/
def junk0_2 : Vec F S1x1024x128 .f32 := VO0_2.read (Elt F) VO0_2.junk
def junk0_3 : Vec F S1x1024x1 .f32 := VO0_3.read (Elt F) VO0_3.junk

theorem scover0_A_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) (y : S1024x128.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x128.size (by sl_kernel_rfl) y
theorem scover0_A_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem scover0_B_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x128.size (by sl_kernel_rfl) y
theorem scover0_B_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

theorem cover0_C_2 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1x1024x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x1024x128.size (by sl_kernel_rfl) y
theorem cover0_C_3 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1x1024x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1024x1.size (by sl_kernel_rfl) y
theorem scover0_C_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x128.size (by sl_kernel_rfl) y
theorem scover0_C_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def out0_C_2 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1x1024x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1x1024x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## The accumulation, point by point -/

/-- What the two results' buffers and the two accumulators hold after the body at position `n`: the case the position
    selects (first, middle or last block of its core slot), the accumulators of a middle or last block taken over from the
    position before. -/
def outsAt0 (c : Dev nD) : (n : ℕ) → n < cfg0.N → Vec F S1x1024x128 .f32 × Vec F S1x1024x1 .f32 × Vec F S1024x128 .f32 × Vec F S1024x1 .f32
  | 0, hn => (fun (h0 : (0 : ℕ) % 62 = 0) (h1 : ¬(0 : ℕ) % 62 = 61) => (junk0_2, junk0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩))) (Nat.zero_mod _) (by decide)
  | n + 1, hn =>
    if h0 : (n + 1) % 62 = 0 then
      if h1 : (n + 1) % 62 = 61 then
        False.elim (by omega)
      else
        (junk0_2, junk0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 62 = 61 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (junk0_2, junk0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 62 = 0) (h1 : ¬t.val % 62 = 61) :
    outsAt0 V c t.val t.isLt = (junk0_2, junk0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 62 = 0) (h1 : ¬t.val % 62 = 61) :
    outsAt0 V c t.val t.isLt = (junk0_2, junk0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 62 = 0) (h1 : t.val % 62 = 61) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators between points -/

/-- The core's scoped buffers other than this call's staging buffers and its two accumulators, each at some contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) ∗ rest0 (F := F) c) :=
  Pipeline.scopedRest_split_of_list spec0 c [cc0_scratch0, cc0_scratch1] (by decide) (by decide)

/-- The class invariant with the accumulators named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

/-- Before position `n`: nothing named before the first point; afterwards the accumulators at what the position before left. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

/-! ## The proof data -/

/-- The arrays as the call finds them; after the body each operand's buffer at its block and each result's at the
    accumulation's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Seg

end
-- ==== Proof.KiR0Body.lean ====
import proofs.«416664_j53730040873193_3_alg».proof.Proof.KiR0

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first segment-sum call: the body at every point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 8000000 in
/-- The position's remainder mod 62 says which case the point is in; the invariant hands the body the accumulators at what
    the position before left (at anything before the first point) and takes them back at this position's contents; a result's
    buffer passes through untouched except at a slot's last block, where it is stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 124 := lt_of_lt_of_eq t.isLt (show cfg0.N = 124 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 62 = 0
  · by_cases h1 : t.val % 62 = 61
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 62 = 61
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_C_0 c _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover0_B_0 c _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 124 := N_0; omega)

end Cert.KernelIdeal.Seg

end
-- ==== Proof.KiR1Runs.lean ====
import proofs.«416664_j53730040873193_3_alg».proof.Proof.Gen.KernelIdeal.Launch
import proofs.«416664_j53730040873193_3_alg».proof.Proof.Gen.KernelIdeal.Skeleton
import proofs.«416664_j53730040873193_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second segment-sum call (26 grid points: 2 core slots of 13 row blocks)

The body zeroes its two accumulators at the first row block of a core slot, adds the block's
one-hot product into them at every block, and copies them out at the slot's last block. -/

/-- The row block is the first of its core slot. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 13 = 0 :=
  (by decide +kernel : ∀ t : Fin grid1.N, cond1_0 (grid1.coords t) ↔ t.val % 13 = 0)

/-- The row block is the last of its core slot. -/
abbrev cond1_1 (i : grid1.Coords) : Prop := k1_cond2 i = 1#1
theorem hcond1_1 : ∀ t : Fin cfg1.N, cond1_1 (grid1.coords t) ↔ t.val % 13 = 12 :=
  (by decide +kernel : ∀ t : Fin grid1.N, cond1_1 (grid1.coords t) ↔ t.val % 13 = 12)

/-- The two operands are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The two results are stored, and written back, exactly at a slot's last block. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The staging memrefs the pipeline passes at point `t`, and the two accumulators. -/
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view
abbrev VO1_2 : View sig .tc .vmem S1x1024x128 .f32 := (Memref.whole cc1_stg2_0 : Memref sig .tc .vmem S1x1024x128 .f32).view
abbrev VO1_3 : View sig .tc .vmem S1x1024x1 .f32 := (Memref.whole cc1_stg3_0 : Memref sig .tc .vmem S1x1024x1 .f32).view

/-! ## The body, case by case -/

set_option maxHeartbeats 4000000 in
/-- FIRST block of a slot: both accumulators are overwritten (zeroed, then the block's product added), whatever
    they held; the results' buffers are not touched. -/
noncomputable def kernelRun1_A (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i)
    (x0 : Vec F S4096x128 .f32) (x1 : Vec F S1x4096 .i32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, fun xi2 xi3 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE block: the block's product is added to what the accumulators held; the results' buffers are not touched. -/
noncomputable def kernelRun1_B (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i)
    (x0 : Vec F S4096x128 .f32) (x1 : Vec F S1x4096 .i32) (xs0 : Vec F S1024x128 .f32) (xs1 : Vec F S1024x1 .f32) :
    Σ' (LS0 : List (View.Piece (Elt F) S1024x128 .f32)), { LS1 : List (View.Piece (Elt F) S1024x1 .f32) //
      ∀ (xi2 : Vec F S1x1024x128 .f32) (xi3 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, fun xi2 xi3 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST block of a slot: the block's product is added to the accumulators, which are then copied into the
    results' buffers, whatever those held. -/
noncomputable def kernelRun1_C (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i)
    (x0 : Vec F S4096x128 .f32) (x1 : Vec F S1x4096 .i32) (xs0 : Vec F S1024x128 .f32) (xs1 : Vec F S1024x1 .f32) :
    Σ' (L2 : List (View.Piece (Elt F) S1x1024x128 .f32)) (L3 : List (View.Piece (Elt F) S1x1024x1 .f32))
      (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__segsum_kernel i arg2 harg2 arg3 harg3 arg4 harg4 arg5 harg5 arg6 harg6 arg7 harg7) K } := by
  refine ⟨?_, ?_, ?_, ?_, fun E K => ?run⟩
  case run =>
    simp only [cc1__segsum_kernel_eq_skeleton]; unfold cc1__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Seg

end
-- ==== Proof.KiR1.lean ====
import proofs.«416664_j53730040873193_3_alg».proof.Proof.KiR1Runs

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second segment-sum call: what every buffer holds point by point, at the contents `V` the call is entered from -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulators and in the results' buffers -/

/-- Contents nothing reads: a result's buffer at a point that neither stores it nor writes it back. -/
def junk1_2 : Vec F S1x1024x128 .f32 := VO1_2.read (Elt F) VO1_2.junk
def junk1_3 : Vec F S1x1024x1 .f32 := VO1_3.read (Elt F) VO1_3.junk

theorem scover1_A_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) (y : S1024x128.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x128.size (by sl_kernel_rfl) y
theorem scover1_A_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y
def sout1_A_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1).1)
def sout1_A_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.1)

theorem scover1_B_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) (y : S1024x128.Idx) :
    ∃ pc ∈ (kernelRun1_B c i arg2 harg2 arg3 harg3 arg4 harg4 arg5 harg5 arg6 harg6 arg7 harg7 hc0 hc1 x0 x1 xs0 xs1).1, y ∈ pc.1.set :=
  View.cover_of_tiledL (kernelRun1_B c i arg2 harg2 arg3 harg3 arg4 harg4 arg5 harg5 arg6 harg6 arg7 harg7 hc0 hc1 x0 x1 xs0 xs1).1 S1024x128.size (by sl_kernel_rfl) y
theorem scover1_B_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) (y : S1024x1.Idx) :
    ∃ pc ∈ (kernelRun1_B c i arg2 harg2 arg3 harg3 arg4 harg4 arg5 harg5 arg6 harg6 arg7 harg7 hc0 hc1 x0 x1 xs0 xs1).2.1, y ∈ pc.1.set :=
  View.cover_of_tiledL (kernelRun1_B c i arg2 harg2 arg3 harg3 arg4 harg4 arg5 harg5 arg6 harg6 arg7 harg7 hc0 hc1 x0 x1 xs0 xs1).2.1 S1024x1.size (by sl_kernel_rfl) y
def sout1_B_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).1)
def sout1_B_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.1)

theorem cover1_C_2 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1x1024x128.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL (kernelRun1_C c i arg2 harg2 arg3 harg3 arg4 harg4 arg5 harg5 arg6 harg6 arg7 harg7 hc0 hc1 x0 x1 xs0 xs1).1 S1x1024x128.size (by sl_kernel_rfl) y
theorem cover1_C_3 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1x1024x1.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL (kernelRun1_C c i arg2 harg2 arg3 harg3 arg4 harg4 arg5 harg5 arg6 harg6 arg7 harg7 hc0 hc1 x0 x1 xs0 xs1).2.1 S1x1024x1.size (by sl_kernel_rfl) y
theorem scover1_C_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL (kernelRun1_C c i arg2 harg2 arg3 harg3 arg4 harg4 arg5 harg5 arg6 harg6 arg7 harg7 hc0 hc1 x0 x1 xs0 xs1).2.2.1 S1024x128.size (by sl_kernel_rfl) y
theorem scover1_C_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL (kernelRun1_C c i arg2 harg2 arg3 harg3 arg4 harg4 arg5 harg5 arg6 harg6 arg7 harg7 hc0 hc1 x0 x1 xs0 xs1).2.2.2.1 S1024x1.size (by sl_kernel_rfl) y
def out1_C_2 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1x1024x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1x1024x1 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)
def sout1_C_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
def sout1_C_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

/-! ## The accumulation, point by point -/

/-- What the two results' buffers and the two accumulators hold after the body at position `n`: the case the position
    selects (first, middle or last block of its core slot), the accumulators of a middle or last block taken over from the
    position before. -/
def outsAt1 (c : Dev nD) : (n : ℕ) → n < cfg1.N → Vec F S1x1024x128 .f32 × Vec F S1x1024x1 .f32 × Vec F S1024x128 .f32 × Vec F S1024x1 .f32
  | 0, hn => (fun (h0 : (0 : ℕ) % 13 = 0) (h1 : ¬(0 : ℕ) % 13 = 12) => (junk1_2, junk1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩))) (Nat.zero_mod _) (by decide)
  | n + 1, hn =>
    if h0 : (n + 1) % 13 = 0 then
      if h1 : (n + 1) % 13 = 12 then
        False.elim (by omega)
      else
        (junk1_2, junk1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 13 = 12 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
      else
        (junk1_2, junk1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 13 = 0) (h1 : ¬t.val % 13 = 12) :
    outsAt1 V c t.val t.isLt = (junk1_2, junk1_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 13 = 0) (h1 : ¬t.val % 13 = 12) :
    outsAt1 V c t.val t.isLt = (junk1_2, junk1_3, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 13 = 0) (h1 : t.val % 13 = 12) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators between points -/

/-- The core's scoped buffers other than this call's staging buffers and its two accumulators, each at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)) ∗ rest1 (F := F) c) :=
  Pipeline.scopedRest_split_of_list spec1 c [cc1_scratch0, cc1_scratch1] (by decide) (by decide)

/-- The class invariant with the accumulators named. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

/-- Before position `n`: nothing named before the first point; afterwards the accumulators at what the position before left. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 (F := F) c) ∗ (∃ r, prngReg c r)) := by
  cases n with
  | zero => exact absurd rfl hz
  | succ n => rfl

/-! ## The proof data -/

/-- The arrays as the call finds them; after the body each operand's buffer at its block and each result's at the
    accumulation's component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Seg

end
-- ==== Proof.KiR1Body.lean ====
import proofs.«416664_j53730040873193_3_alg».proof.Proof.KiR1

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second segment-sum call: the body at every point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The position's remainder mod 62 says which case the point is in; the invariant hands the body the accumulators at what
    the position before left (at anything before the first point) and takes them back at this position's contents; a result's
    buffer passes through untouched except at a slot's last block, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 26 := lt_of_lt_of_eq t.isLt (show cfg1.N = 26 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 13 = 0
  · by_cases h1 : t.val % 13 = 12
    · exfalso; omega
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1; (try dsimp only)
      by_cases hz : t.val = 0
      ·
        rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 13 = 12
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_C_2 c _ _ _ _ _ _ _ _ _ _ _ _ _ _ _ _ _ _ _)
        unfold owns; iexists _; isplitr
        swap; · iexact H3
        ipureintro; exact View.read_writes_of_cover _ _ _ _ _ (cover1_C_3 c _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      ·
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            swap; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 26 := N_1; omega)

end Cert.KernelIdeal.Seg

end
-- ==== Proof.KiR2.lean ====
import proofs.«416664_j53730040873193_3_alg».proof.Proof.Gen.KernelIdeal.Launch
import proofs.«416664_j53730040873193_3_alg».proof.Proof.Gen.KernelIdeal.Skeleton
import proofs.«416664_j53730040873193_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third call: the feed-forward block and the layer normalisation (one grid point)

The body loads its eleven operands whole, computes, and stores the result whole. -/

/-- The staging memrefs the pipeline passes at point `t`. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S384x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x128 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1024x128 .f32 := win2_11.stage (cfg2.slots t 11)
abbrev hs2_11 (t : Fin cfg2.N) : (ms2_11 t).IsWhole := hstage2_11 ((cfg2.slots t 11).cast nbuf2_11)
/-- One staging buffer of the result's window, through which its contents are stated. -/
abbrev VO2_11 : View sig .tc .vmem S1024x128 .f32 := (Memref.whole cc2_stg11_0 : Memref sig .tc .vmem S1024x128 .f32).view

/-! ## The body -/

set_option maxHeartbeats 4000000 in
/-- On whole memrefs, the operands' at contents `x0 … x10` and the result's at anything, the body runs to the
    continuation holding the operands' as they were and the result's with its pieces written. -/
noncomputable def kernelRun2 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) :
    { L11 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)) -∗ K ⟨⟩))
          ⊢ wp frame (wpE (defs₀ (F := F)) Variants.none c none) E (cc2__mlp_ln_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc2__mlp_ln_kernel_eq_skeleton]; unfold cc2__mlp_ln_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact H11

/-- Its one store tiles the result's buffer, so it covers it. -/
theorem cover2_11 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) (y : S1024x128.Idx) :
    ∃ pc ∈ (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S1024x128.size (by sl_kernel_rfl) y

/-- What the body leaves in the result's buffer: its pieces read back. -/
def out2_11 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S384x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole)
    (x0 : Vec F S1024x128 .f32) (x1 : Vec F S1024x128 .f32) (x2 : Vec F S1024x1 .f32) (x3 : Vec F S1024x128 .f32) (x4 : Vec F S1024x1 .f32) (x5 : Vec F S384x512 .f32) (x6 : Vec F S1x512 .f32) (x7 : Vec F S512x128 .f32) (x8 : Vec F S1x128 .f32) (x9 : Vec F S1x128 .f32) (x10 : Vec F S1x128 .f32) : Vec F S1024x128 .f32 :=
  VO2_11.read (Elt F) (VO2_11.writes (Elt F) VO2_11.junk (kernelRun2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

variable (V : (c : Dev nD) → (b : Ref sig .tc) → Buf (Elt F) ((c : Thread nD τ).loc b))

/-! ## The windows' blocks, at the contents `V` the call is entered from -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The arrays as the call finds them; after the body each operand's buffer at its block and the result's at what
    the body's store leaves; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t))

set_option maxHeartbeats 4000000 in
/-- The body at the point: the operands' memrefs hold their blocks, so the run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  unfold out2_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover2_11 c _ _ _ _ _ _ _ _ _ _ _ _ _ _ _ _ _ _ _ _ _ _ _ _ _ _ _ _ _ _ _ _ _ _ _ _)

/-- The library's body obligation, at the point. -/
theorem body_obligation2 (c : Dev nD) : BodyObligation (dat2 (F := F) V c) (defs₀ (F := F)) Variants.none () Set.univ := fun t => by
  rw [bigSep_W2, bigSep_W2]
  exact sound_body2 V c t

set_option maxHeartbeats 4000000 in
/-- The stored value is the skeleton's payload of the eleven blocks. -/
theorem after2_11_eq (c : Dev nD) (t : Fin cfg2.N) : (dat2 V c).after 11 t = k2_pay1 (iblk2 V c 0 t) (k2_pay2 (iblk2 V c 0 t) (iblk2 V c 1 t) (iblk2 V c 2 t) (iblk2 V c 3 t) (iblk2 V c 4 t) (iblk2 V c 5 t) (iblk2 V c 6 t) (iblk2 V c 7 t) (iblk2 V c 8 t)) (iblk2 V c 9 t) (iblk2 V c 10 t) := by
  have hz : (![0, 0] : Fin 2 → Nat) = fun _ => 0 := funext fun a => by fin_cases a <;> rfl
  rw [after2_11]
  unfold out2_11
  rw [View.read_writes_eq_canon _ _ _ (cover2_11 c _ _ _ _ _ _ _ _ _ _ _ _ _ _ _ _ _ _ _ _ _ _ _ _ _ _ _ _ _ _ _ _ _ _ _ _)]
  unfold kernelRun2
  dsimp only
  rw [View.canon_unit_zero hz]
  simp only [View.readAt_eq_ld, Memref.IsWhole.read_unread, View.ld_unit_zero (S := S1024x128) hz, View.ld_unit_zero (S := S1024x1) hz, View.ld_unit_zero (S := S384x512) hz, View.ld_unit_zero (S := S1x512) hz, View.ld_unit_zero (S := S512x128) hz, View.ld_unit_zero (S := S1x128) hz]

/-! ## Reading the blocks: every window stages its whole array as its one block -/

/-- Each window's block index at the one point is zero on both axes. -/
theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)
theorem idx2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

/-- So a window's block at an index is its array at that index. -/
theorem iblk2_0_apply (c : Dev nD) (t : Fin cfg2.N) (y : S1024x128.Idx) : iblk2 V c 0 t y = V c main_arg2 y := by
  unfold iblk2
  show V c main_arg2 (((cfg2.win 0).blk t).view.emb y) = V c main_arg2 y
  obtain ⟨e0, e1⟩ := idx2_0 t
  congr 1
  funext a; apply Fin.ext
  match a with
  | ⟨0, _⟩ => show win2_0.index t (0 : Fin 2) * 1024 + 1 * (y 0).val = (y 0).val; omega
  | ⟨1, _⟩ => show win2_0.index t (1 : Fin 2) * 128 + 1 * (y 1).val = (y 1).val; omega
theorem iblk2_1_apply (c : Dev nD) (t : Fin cfg2.N) (y : S1024x128.Idx) : iblk2 V c 1 t y = V c main_v13 y := by
  unfold iblk2
  show V c main_v13 (((cfg2.win 1).blk t).view.emb y) = V c main_v13 y
  obtain ⟨e0, e1⟩ := idx2_1 t
  congr 1
  funext a; apply Fin.ext
  match a with
  | ⟨0, _⟩ => show win2_1.index t (0 : Fin 2) * 1024 + 1 * (y 0).val = (y 0).val; omega
  | ⟨1, _⟩ => show win2_1.index t (1 : Fin 2) * 128 + 1 * (y 1).val = (y 1).val; omega
theorem iblk2_2_apply (c : Dev nD) (t : Fin cfg2.N) (y : S1024x1.Idx) : iblk2 V c 2 t y = V c main_v14 y := by
  unfold iblk2
  show V c main_v14 (((cfg2.win 2).blk t).view.emb y) = V c main_v14 y
  obtain ⟨e0, e1⟩ := idx2_2 t
  congr 1
  funext a; apply Fin.ext
  match a with
  | ⟨0, _⟩ => show win2_2.index t (0 : Fin 2) * 1024 + 1 * (y 0).val = (y 0).val; omega
  | ⟨1, _⟩ => show win2_2.index t (1 : Fin 2) * 1 + 1 * (y 1).val = (y 1).val; omega
theorem iblk2_3_apply (c : Dev nD) (t : Fin cfg2.N) (y : S1024x128.Idx) : iblk2 V c 3 t y = V c main_v19 y := by
  unfold iblk2
  show V c main_v19 (((cfg2.win 3).blk t).view.emb y) = V c main_v19 y
  obtain ⟨e0, e1⟩ := idx2_3 t
  congr 1
  funext a; apply Fin.ext
  match a with
  | ⟨0, _⟩ => show win2_3.index t (0 : Fin 2) * 1024 + 1 * (y 0).val = (y 0).val; omega
  | ⟨1, _⟩ => show win2_3.index t (1 : Fin 2) * 128 + 1 * (y 1).val = (y 1).val; omega
theorem iblk2_4_apply (c : Dev nD) (t : Fin cfg2.N) (y : S1024x1.Idx) : iblk2 V c 4 t y = V c main_v20 y := by
  unfold iblk2
  show V c main_v20 (((cfg2.win 4).blk t).view.emb y) = V c main_v20 y
  obtain ⟨e0, e1⟩ := idx2_4 t
  congr 1
  funext a; apply Fin.ext
  match a with
  | ⟨0, _⟩ => show win2_4.index t (0 : Fin 2) * 1024 + 1 * (y 0).val = (y 0).val; omega
  | ⟨1, _⟩ => show win2_4.index t (1 : Fin 2) * 1 + 1 * (y 1).val = (y 1).val; omega
theorem iblk2_5_apply (c : Dev nD) (t : Fin cfg2.N) (y : S384x512.Idx) : iblk2 V c 5 t y = V c main_arg3 y := by
  unfold iblk2
  show V c main_arg3 (((cfg2.win 5).blk t).view.emb y) = V c main_arg3 y
  obtain ⟨e0, e1⟩ := idx2_5 t
  congr 1
  funext a; apply Fin.ext
  match a with
  | ⟨0, _⟩ => show win2_5.index t (0 : Fin 2) * 384 + 1 * (y 0).val = (y 0).val; omega
  | ⟨1, _⟩ => show win2_5.index t (1 : Fin 2) * 512 + 1 * (y 1).val = (y 1).val; omega
theorem iblk2_6_apply (c : Dev nD) (t : Fin cfg2.N) (y : S1x512.Idx) : iblk2 V c 6 t y = V c main_v21 y := by
  unfold iblk2
  show V c main_v21 (((cfg2.win 6).blk t).view.emb y) = V c main_v21 y
  obtain ⟨e0, e1⟩ := idx2_6 t
  congr 1
  funext a; apply Fin.ext
  match a with
  | ⟨0, _⟩ => show win2_6.index t (0 : Fin 2) * 1 + 1 * (y 0).val = (y 0).val; omega
  | ⟨1, _⟩ => show win2_6.index t (1 : Fin 2) * 512 + 1 * (y 1).val = (y 1).val; omega
theorem iblk2_7_apply (c : Dev nD) (t : Fin cfg2.N) (y : S512x128.Idx) : iblk2 V c 7 t y = V c main_arg5 y := by
  unfold iblk2
  show V c main_arg5 (((cfg2.win 7).blk t).view.emb y) = V c main_arg5 y
  obtain ⟨e0, e1⟩ := idx2_7 t
  congr 1
  funext a; apply Fin.ext
  match a with
  | ⟨0, _⟩ => show win2_7.index t (0 : Fin 2) * 512 + 1 * (y 0).val = (y 0).val; omega
  | ⟨1, _⟩ => show win2_7.index t (1 : Fin 2) * 128 + 1 * (y 1).val = (y 1).val; omega
theorem iblk2_8_apply (c : Dev nD) (t : Fin cfg2.N) (y : S1x128.Idx) : iblk2 V c 8 t y = V c main_v22 y := by
  unfold iblk2
  show V c main_v22 (((cfg2.win 8).blk t).view.emb y) = V c main_v22 y
  obtain ⟨e0, e1⟩ := idx2_8 t
  congr 1
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega
theorem iblk2_9_apply (c : Dev nD) (t : Fin cfg2.N) (y : S1x128.Idx) : iblk2 V c 9 t y = V c main_v23 y := by
  unfold iblk2
  show V c main_v23 (((cfg2.win 9).blk t).view.emb y) = V c main_v23 y
  obtain ⟨e0, e1⟩ := idx2_9 t
  congr 1
  funext a; apply Fin.ext
  match a with
  | ⟨0, _⟩ => show win2_9.index t (0 : Fin 2) * 1 + 1 * (y 0).val = (y 0).val; omega
  | ⟨1, _⟩ => show win2_9.index t (1 : Fin 2) * 128 + 1 * (y 1).val = (y 1).val; omega
theorem iblk2_10_apply (c : Dev nD) (t : Fin cfg2.N) (y : S1x128.Idx) : iblk2 V c 10 t y = V c main_v24 y := by
  unfold iblk2
  show V c main_v24 (((cfg2.win 10).blk t).view.emb y) = V c main_v24 y
  obtain ⟨e0, e1⟩ := idx2_10 t
  congr 1
  funext a; apply Fin.ext
  match a with
  | ⟨0, _⟩ => show win2_10.index t (0 : Fin 2) * 1 + 1 * (y 0).val = (y 0).val; omega
  | ⟨1, _⟩ => show win2_10.index t (1 : Fin 2) * 128 + 1 * (y 1).val = (y 1).val; omega
theorem iblk2_11_apply (c : Dev nD) (t : Fin cfg2.N) (y : S1024x128.Idx) : iblk2 V c 11 t y = V c main_v25 y := by
  unfold iblk2
  show V c main_v25 (((cfg2.win 11).blk t).view.emb y) = V c main_v25 y
  obtain ⟨e0, e1⟩ := idx2_11 t
  congr 1
  funext a; apply Fin.ext
  match a with
  | ⟨0, _⟩ => show win2_11.index t (0 : Fin 2) * 1024 + 1 * (y 0).val = (y 0).val; omega
  | ⟨1, _⟩ => show win2_11.index t (1 : Fin 2) * 128 + 1 * (y 1).val = (y 1).val; omega

/-! ## The result's array after the call -/

/-- Every index of the result's array is in the one point's block. -/
theorem mem_blk2_11 (t : Fin cfg2.N) (i : S1024x128.Idx) : i ∈ ((cfg2.win 11).blk t).view.set := by
  show i ∈ ((View.whole main_v25).slice (win2_11.rect t)).set
  rw [View.set_slice_whole, Rect.mem_set_unit]
  obtain ⟨e0, e1⟩ := idx2_11 t
  intro a
  match a with
  | ⟨0, _⟩ =>
    show win2_11.index t (0 : Fin 2) * 1024 ≤ (i 0).val ∧ (i 0).val < win2_11.index t (0 : Fin 2) * 1024 + 1024
    have hi : (i 0).val < 1024 := (i 0).isLt
    omega
  | ⟨1, _⟩ =>
    show win2_11.index t (1 : Fin 2) * 128 ≤ (i 1).val ∧ (i 1).val < win2_11.index t (1 : Fin 2) * 128 + 128
    have hi : (i 1).val < 128 := (i 1).isLt
    omega

/-- The result's array ends holding, index by index, what the body left in the window's buffer at the one point:
    that point writes its block back, and the block is the whole array. -/
theorem arr2_final (c : Dev nD) (y : S1024x128.Idx) : (dat2 V c).arrAt 11 cfg2.N y = (dat2 V c).after 11 t2_0 y := by
  have h := (dat2 V c).arrAt_eq_of_cover 11 (fun i => (dat2 V c).after 11 t2_0 i)
    (fun t _ => by
      show (cfg2.win 11).cut (grid2.coords t) ((dat2 V c).after 11 t) = _
      obtain rfl := fin_N2 t
      obtain ⟨e0, e1⟩ := idx2_11 t2_0
      funext j
      show (dat2 V c).after 11 t2_0 j = (dat2 V c).after 11 t2_0 (((cfg2.win 11).blk t2_0).view.emb j)
      congr 1
      funext a; apply Fin.ext
      match a with
      | ⟨0, _⟩ => show (j 0).val = win2_11.index t2_0 (0 : Fin 2) * 1024 + 1 * (j 0).val; omega
      | ⟨1, _⟩ => show (j 1).val = win2_11.index t2_0 (1 : Fin 2) * 128 + 1 * (j 1).val; omega)
    (fun i => ⟨t2_0, flush2_11 t2_0, mem_blk2_11 t2_0 i⟩)
  exact congrFun h y

end Cert.KernelIdeal.Seg

end
-- ==== Proof.KiRunCond.lean ====
import proofs.«416664_j53730040873193_3_alg».proof.Proof.Gen.KernelIdeal.Regions

noncomputable section

namespace Cert.KernelIdeal.Seg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! # The run of the whole program, with every unscoped buffer read at the end

From one record per kernel call, entered from the buffer contents before it and left at the contents after it, every
weakly fair execution of the program from memory `m` terminates, and every final memory holds each unscoped buffer at the
last boundary's contents: the arguments (which no step writes) and the result alike. -/

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V14 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, .rfl, .rfl, .rfl, hpre0 c, hpost0 c, .rfl, .rfl, .rfl, .rfl, hpre1 c, hpost1 c, hpre2 c, (hpost2 c).trans (sep_mono .rfl (hE3 c))⟩)
    (hinit := ?_) (QY := fun c s => ∀ b ∈ Pipeline.ucRefs τ sig, s.mem (((c : Thread nD τ)).1, b) = V14 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    iintro ⟨Hh, HSI⟩
    unfold StableHlo.held
    imodintro
    iapply (pointsTo_read_all (Pipeline.ucRefs τ sig) (fun b => (((c : Thread nD τ)).1, b)) (V14 m outs c) s')
    isplitl [Hh] <;> iassumption

end Cert.KernelIdeal.Seg

end
-- ==== Proof.KiRun.lean ====
import proofs.«416664_j53730040873193_3_alg».proof.Proof.KiR0Body
import proofs.«416664_j53730040873193_3_alg».proof.Proof.KiR1Body
import proofs.«416664_j53730040873193_3_alg».proof.Proof.KiR2
import proofs.«416664_j53730040873193_3_alg».proof.Proof.KiRunCond
import Idealize.ShloMosaic.Lib.Pipeline.RegionsLoop

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: the three calls among the host operations

The buffer contents at the boundaries are the generated valuations `V0 … V14`, stated over what the calls leave
(`outs`); here `outs` is instantiated, call by call, with what each pipeline's write-backs leave in its arrays. -/

/-- What a call is entered from, read at the TensorCore's references. -/
abbrev Ve0 : (c : Dev nD) → (b : Ref sig .tc) → Buf (Elt F) ((c : Thread nD τ).loc b) := fun c b => V5 m c b
/-- After the first call: its arrays at what its write-backs leave, every other buffer as entered. -/
def W6 (c : Dev nD) : Valuation τ sig (Elt F) :=
  Pipeline.withArrays spec0 c (V5 m c) fun w => (dat0 (Ve0 m) c).arrAt w cfg0.N
def outs1 : Outs (F := F) := fun _ r c => W6 m c r
abbrev Ve1 : (c : Dev nD) → (b : Ref sig .tc) → Buf (Elt F) ((c : Thread nD τ).loc b) := fun c b => V11 m (outs1 m) c b
/-- After the second call. -/
def W12 (c : Dev nD) : Valuation τ sig (Elt F) :=
  Pipeline.withArrays spec1 c (V11 m (outs1 m) c) fun w => (dat1 (Ve1 m) c).arrAt w cfg1.N
def outs2 : Outs (F := F) := fun J r c => if J ≤ 6 then W6 m c r else W12 m c r
abbrev Ve2 : (c : Dev nD) → (b : Ref sig .tc) → Buf (Elt F) ((c : Thread nD τ).loc b) := fun c b => V13 m (outs2 m) c b
/-- After the third call. -/
def W14 (c : Dev nD) : Valuation τ sig (Elt F) :=
  Pipeline.withArrays spec2 c (V13 m (outs2 m) c) fun w => (dat2 (Ve2 m) c).arrAt w cfg2.N
/-- What the calls leave, all three. -/
def outs3 : Outs (F := F) := fun J r c => if J ≤ 6 then W6 m c r else if J ≤ 12 then W12 m c r else W14 m c r

theorem outs3_6 (r : Ref sig .tc) (c : Dev nD) : outs3 m 6 r c = W6 m c r := rfl
theorem outs3_12 (r : Ref sig .tc) (c : Dev nD) : outs3 m 12 r c = W12 m c r := rfl
theorem outs3_14 (r : Ref sig .tc) (c : Dev nD) : outs3 m 14 r c = W14 m c r := rfl
/-- The contents before the second and the third call do not depend on what later calls leave. -/
theorem V11_outs3 (c : Dev nD) : V11 m (outs3 m) c = V11 m (outs1 m) c := rfl
theorem V13_outs3 (c : Dev nD) : V13 m (outs3 m) c = V13 m (outs2 m) c := rfl

theorem Ve1_eq (c : Dev nD) (b : Ref sig .tc) : V11 m (outs3 m) c b = Ve1 m c b := congrFun (V11_outs3 m c) _
theorem Ve2_eq (c : Dev nD) (b : Ref sig .tc) : V13 m (outs3 m) c b = Ve2 m c b := congrFun (V13_outs3 m c) _

theorem W6_arr (c : Dev nD) (w : Fin cfg0.W) : W6 m c (Proc.devRef .tc (Pipeline.arrRef spec0 w)) = (dat0 (Ve0 m) c).arrAt w cfg0.N := by
  unfold W6; exact Pipeline.withArrays_arr spec0 launch0.win.arr_inj c _ _ w
theorem W12_arr (c : Dev nD) (w : Fin cfg1.W) : W12 m c (Proc.devRef .tc (Pipeline.arrRef spec1 w)) = (dat1 (Ve1 m) c).arrAt w cfg1.N := by
  unfold W12; exact Pipeline.withArrays_arr spec1 launch1.win.arr_inj c _ _ w
theorem W14_arr (c : Dev nD) (w : Fin cfg2.W) : W14 m c (Proc.devRef .tc (Pipeline.arrRef spec2 w)) = (dat2 (Ve2 m) c).arrAt w cfg2.N := by
  unfold W14; exact Pipeline.withArrays_arr spec2 launch2.win.arr_inj c _ _ w

/-- The updated valuations at the buffers a call may change. -/
theorem V6_v12_0 (outs : Outs (F := F)) (c : Dev nD) : V6 m outs c main_v12_0 = outs 6 main_v12_0 c := by
  simp only [V6, Function.update_of_ne (StableHlo.devRef_ne_of_ne (by decide : (main_v12_0 : Ref sig .tc) ≠ main_v12_1) : (Proc.devRef .tc main_v12_0 : DevRef τ sig) ≠ Proc.devRef .tc main_v12_1), Function.update_self]
theorem V6_v12_1 (outs : Outs (F := F)) (c : Dev nD) : V6 m outs c main_v12_1 = outs 6 main_v12_1 c := by
  simp only [V6, Function.update_self]
theorem V12_v18_0 (outs : Outs (F := F)) (c : Dev nD) : V12 m outs c main_v18_0 = outs 12 main_v18_0 c := by
  simp only [V12, Function.update_of_ne (StableHlo.devRef_ne_of_ne (by decide : (main_v18_0 : Ref sig .tc) ≠ main_v18_1) : (Proc.devRef .tc main_v18_0 : DevRef τ sig) ≠ Proc.devRef .tc main_v18_1), Function.update_self]
theorem V12_v18_1 (outs : Outs (F := F)) (c : Dev nD) : V12 m outs c main_v18_1 = outs 12 main_v18_1 c := by
  simp only [V12, Function.update_self]
theorem V14_v25 (outs : Outs (F := F)) (c : Dev nD) : V14 m outs c main_v25 = outs 14 main_v25 c := by
  simp only [V14, Function.update_self]

/-! ## The proof data family and what rides beside the buffers -/

/-- Every pipeline's proof data, each at its call's entry contents: a literal match. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
abbrev 𝒱₀ : Variants := Variants.none
abbrev L : GSem nD τ sig → Finset Unit := fun _ => ∅
abbrev lv : GSem nD τ sig → Unit → ℕ := fun _ _ => 0
/-- The core's generator register at some state, and the core owing nothing. -/
abbrev R (c : Dev nD) : sProp 𝕄 := iprop((∃ r, prngReg c r) ∗ ∃ W, owes (c : Thread nD τ) (0 : CellTallies nD τ sig Unit) W)

/-! ## Each call's arrays at its entry and at its exit -/

theorem hA0 (c : Dev nD) (w : Fin cfg0.W) : (pdats m 0 c).A w = V5 m c (Pipeline.arrRef spec0 w) := A_eq0 (Ve0 m) c w
theorem hA1 (c : Dev nD) (w : Fin cfg1.W) : (pdats m 1 c).A w = V11 m (outs3 m) c (Pipeline.arrRef spec1 w) := (A_eq1 (Ve1 m) c w).trans (Ve1_eq m c _).symm
theorem hA2 (c : Dev nD) (w : Fin cfg2.W) : (pdats m 2 c).A w = V13 m (outs3 m) c (Pipeline.arrRef spec2 w) := (A_eq2 (Ve2 m) c w).trans (Ve2_eq m c _).symm

theorem hF0 (c : Dev nD) (w : Fin cfg0.W) : (pdats m 0 c).arrAt w cfg0.N = V6 m (outs3 m) c (Pipeline.arrRef spec0 w) := by
  match w with
  | ⟨0, _⟩ => exact ((dat0 (Ve0 m) c).arrAt_in 0 rfl _).trans ((A_eq0 (Ve0 m) c 0).trans (V6_of m (outs3 m) c main_v9 (by decide)).symm)
  | ⟨1, _⟩ => exact ((dat0 (Ve0 m) c).arrAt_in 1 rfl _).trans ((A_eq0 (Ve0 m) c 1).trans (V6_of m (outs3 m) c main_v11 (by decide)).symm)
  | ⟨2, _⟩ => exact ((V6_v12_0 m (outs3 m) c).trans ((outs3_6 m main_v12_0 c).trans (W6_arr m c 2))).symm
  | ⟨3, _⟩ => exact ((V6_v12_1 m (outs3 m) c).trans ((outs3_6 m main_v12_1 c).trans (W6_arr m c 3))).symm
theorem hrest0 (c : Dev nD) : ∀ b, b ∉ Finset.univ.image (Pipeline.arrRef spec0) → V6 m (outs3 m) c b = V5 m c b := fun b hb =>
  V6_of m (outs3 m) c b (by
    intro hmem
    rcases List.mem_cons.mp hmem with rfl | hmem
    · exact hb (Finset.mem_image.mpr ⟨2, Finset.mem_univ _, rfl⟩)
    · rcases List.mem_singleton.mp hmem with rfl
      exact hb (Finset.mem_image.mpr ⟨3, Finset.mem_univ _, rfl⟩))

theorem hF1 (c : Dev nD) (w : Fin cfg1.W) : (pdats m 1 c).arrAt w cfg1.N = V12 m (outs3 m) c (Pipeline.arrRef spec1 w) := by
  match w with
  | ⟨0, _⟩ => exact ((dat1 (Ve1 m) c).arrAt_in 0 rfl _).trans ((A_eq1 (Ve1 m) c 0).trans ((Ve1_eq m c main_v15).symm.trans (V12_of m (outs3 m) c main_v15 (by decide)).symm))
  | ⟨1, _⟩ => exact ((dat1 (Ve1 m) c).arrAt_in 1 rfl _).trans ((A_eq1 (Ve1 m) c 1).trans ((Ve1_eq m c main_v17).symm.trans (V12_of m (outs3 m) c main_v17 (by decide)).symm))
  | ⟨2, _⟩ => exact ((V12_v18_0 m (outs3 m) c).trans ((outs3_12 m main_v18_0 c).trans (W12_arr m c 2))).symm
  | ⟨3, _⟩ => exact ((V12_v18_1 m (outs3 m) c).trans ((outs3_12 m main_v18_1 c).trans (W12_arr m c 3))).symm
theorem hrest1 (c : Dev nD) : ∀ b, b ∉ Finset.univ.image (Pipeline.arrRef spec1) → V12 m (outs3 m) c b = V11 m (outs3 m) c b := fun b hb =>
  V12_of m (outs3 m) c b (by
    intro hmem
    rcases List.mem_cons.mp hmem with rfl | hmem
    · exact hb (Finset.mem_image.mpr ⟨2, Finset.mem_univ _, rfl⟩)
    · rcases List.mem_singleton.mp hmem with rfl
      exact hb (Finset.mem_image.mpr ⟨3, Finset.mem_univ _, rfl⟩))

set_option maxHeartbeats 4000000 in
theorem hF2 (c : Dev nD) (w : Fin cfg2.W) : (pdats m 2 c).arrAt w cfg2.N = V14 m (outs3 m) c (Pipeline.arrRef spec2 w) := by
  match w with
  | ⟨0, _⟩ => exact ((dat2 (Ve2 m) c).arrAt_in 0 rfl _).trans ((A_eq2 (Ve2 m) c 0).trans ((Ve2_eq m c main_arg2).symm.trans (V14_of m (outs3 m) c main_arg2 (by decide)).symm))
  | ⟨1, _⟩ => exact ((dat2 (Ve2 m) c).arrAt_in 1 rfl _).trans ((A_eq2 (Ve2 m) c 1).trans ((Ve2_eq m c main_v13).symm.trans (V14_of m (outs3 m) c main_v13 (by decide)).symm))
  | ⟨2, _⟩ => exact ((dat2 (Ve2 m) c).arrAt_in 2 rfl _).trans ((A_eq2 (Ve2 m) c 2).trans ((Ve2_eq m c main_v14).symm.trans (V14_of m (outs3 m) c main_v14 (by decide)).symm))
  | ⟨3, _⟩ => exact ((dat2 (Ve2 m) c).arrAt_in 3 rfl _).trans ((A_eq2 (Ve2 m) c 3).trans ((Ve2_eq m c main_v19).symm.trans (V14_of m (outs3 m) c main_v19 (by decide)).symm))
  | ⟨4, _⟩ => exact ((dat2 (Ve2 m) c).arrAt_in 4 rfl _).trans ((A_eq2 (Ve2 m) c 4).trans ((Ve2_eq m c main_v20).symm.trans (V14_of m (outs3 m) c main_v20 (by decide)).symm))
  | ⟨5, _⟩ => exact ((dat2 (Ve2 m) c).arrAt_in 5 rfl _).trans ((A_eq2 (Ve2 m) c 5).trans ((Ve2_eq m c main_arg3).symm.trans (V14_of m (outs3 m) c main_arg3 (by decide)).symm))
  | ⟨6, _⟩ => exact ((dat2 (Ve2 m) c).arrAt_in 6 rfl _).trans ((A_eq2 (Ve2 m) c 6).trans ((Ve2_eq m c main_v21).symm.trans (V14_of m (outs3 m) c main_v21 (by decide)).symm))
  | ⟨7, _⟩ => exact ((dat2 (Ve2 m) c).arrAt_in 7 rfl _).trans ((A_eq2 (Ve2 m) c 7).trans ((Ve2_eq m c main_arg5).symm.trans (V14_of m (outs3 m) c main_arg5 (by decide)).symm))
  | ⟨8, _⟩ => exact ((dat2 (Ve2 m) c).arrAt_in 8 rfl _).trans ((A_eq2 (Ve2 m) c 8).trans ((Ve2_eq m c main_v22).symm.trans (V14_of m (outs3 m) c main_v22 (by decide)).symm))
  | ⟨9, _⟩ => exact ((dat2 (Ve2 m) c).arrAt_in 9 rfl _).trans ((A_eq2 (Ve2 m) c 9).trans ((Ve2_eq m c main_v23).symm.trans (V14_of m (outs3 m) c main_v23 (by decide)).symm))
  | ⟨10, _⟩ => exact ((dat2 (Ve2 m) c).arrAt_in 10 rfl _).trans ((A_eq2 (Ve2 m) c 10).trans ((Ve2_eq m c main_v24).symm.trans (V14_of m (outs3 m) c main_v24 (by decide)).symm))
  | ⟨11, _⟩ => exact ((V14_v25 m (outs3 m) c).trans ((outs3_14 m main_v25 c).trans (W14_arr m c 11))).symm
theorem hrest2 (c : Dev nD) : ∀ b, b ∉ Finset.univ.image (Pipeline.arrRef spec2) → V14 m (outs3 m) c b = V13 m (outs3 m) c b := fun b hb =>
  V14_of m (outs3 m) c b (by
    intro hmem
    rcases List.mem_singleton.mp hmem with rfl
    exact hb (Finset.mem_image.mpr ⟨11, Finset.mem_univ _, rfl⟩))

/-- The third call keeps the class's invariant. -/
theorem hin2 (c : Dev nD) : Pipeline.ΦA spec2 c ⊢ (dat2 (Ve2 m) c).Φ 0 := by
  rw [show (dat2 (Ve2 m) c).Φ 0 = Pipeline.ΦA spec2 c from rfl]
theorem hout2 (c : Dev nD) : (dat2 (Ve2 m) c).Φ (Fin.last cfg2.N) ⊢ Pipeline.ΦA spec2 c := by
  rw [show (dat2 (Ve2 m) c).Φ (Fin.last cfg2.N) = Pipeline.ΦA spec2 c from rfl]

/-! ## The calls as segments -/

-- the library lemmas below are stated over the pinned configuration: unification must unfold plain definitions in a metavariable's type
set_option backward.isDefEq.respectTransparency.types false in
/-- Call 0 over the thread state: entered from every unscoped buffer at the contents before it, left at the contents
    after it; its arrays split out of the unscoped buffers and put back at what the write-backs leave; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs3 m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs3 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas below are stated over the pinned configuration: unification must unfold plain definitions in a metavariable's type
set_option backward.isDefEq.respectTransparency.types false in
/-- Call 1 over the thread state: entered from every unscoped buffer at the contents before it, left at the contents
    after it; its arrays split out of the unscoped buffers and put back at what the write-backs leave; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (outs3 m) c) ∗ R c)
  post c := iprop(StableHlo.held (c : Thread nD τ) (Pipeline.ucRefs τ sig) (V12 m (outs3 m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs3 m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs3 m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs3 m) c b) (fun b => V12 m (outs3 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas below are stated over the pinned configuration: unification must unfold plain definitions in a metavariable's type
set_option backward.isDefEq.respectTransparency.types false in
/-- Call 2 over the thread state: entered from every unscoped buffer at the contents before it, left at the contents
    after it; its arrays split out of the unscoped buffers and put back at what the write-backs leave; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V13 m (outs3 m) c) ∗ R c)
  post c := iprop(StableHlo.held (c : Thread nD τ) (Pipeline.ucRefs τ sig) (V14 m (outs3 m) c) ∗ R c)
  X c := iprop(∃ r, prngReg c r)
  Y c := iprop(∃ r, prngReg c r)
  Z c := Pipeline.unscopedRest (Ix := Unit) (Name := ℕ) (U := UR sig nD τ) (Lvl := ℕ) spec2 c (fun b => V13 m (outs3 m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V13 m (outs3 m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 m c)
    unfold Pipeline.ΦA
    iintro ⟨Hp, -, Hr⟩
    isplitl [Hr]; · iexact Hr
    iexact Hp
  hout c := by
    rw [Pipeline.ownSems0_none]
    refine (hout2 m c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V13 m (outs3 m) c b) (fun b => V14 m (outs3 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, H⟩; iexact H

/-- THE RUN: every weakly fair execution from memory `m` terminates, and every final memory holds each unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs3 m) c b) :=
  run_cond m emb₁ () 𝒱₀ L lv (fun _ _ => rfl) ρ (outs3 m) (pdats m) 0 (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- THE FRAME: every weakly fair execution from memory `m` terminates, nothing faulting, and every final memory holds each
    argument as launched. -/
theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ L lv (fun _ _ => rfl) ρ (outs3 m) (pdats m) 0 (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN WITH ITS RESULT: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v25) = V14 m (outs3 m) c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v25 (by decide)),
      (h c _ (mem_uc main_arg0 (by decide))).trans (V14_main_arg0 m (outs3 m) c),
      (h c _ (mem_uc main_arg1 (by decide))).trans (V14_main_arg1 m (outs3 m) c),
      (h c _ (mem_uc main_arg2 (by decide))).trans (V14_main_arg2 m (outs3 m) c),
      (h c _ (mem_uc main_arg3 (by decide))).trans (V14_main_arg3 m (outs3 m) c),
      (h c _ (mem_uc main_arg4 (by decide))).trans (V14_main_arg4 m (outs3 m) c),
      (h c _ (mem_uc main_arg5 (by decide))).trans (V14_main_arg5 m (outs3 m) c),
      (h c _ (mem_uc main_arg6 (by decide))).trans (V14_main_arg6 m (outs3 m) c),
      (h c _ (mem_uc main_arg7 (by decide))).trans (V14_main_arg7 m (outs3 m) c),
      (h c _ (mem_uc main_arg8 (by decide))).trans (V14_main_arg8 m (outs3 m) c),
      (h c _ (mem_uc main_arg9 (by decide))).trans (V14_main_arg9 m (outs3 m) c),
      (h c _ (mem_uc main_arg10 (by decide))).trans (V14_main_arg10 m (outs3 m) c)⟩) (run_all m ρ)

end Cert.KernelIdeal.Seg

end
-- ==== Proof.Hot.lean ====
import Mathlib.Data.EReal.Basic
import Mathlib.Data.EReal.Operations

noncomputable section

namespace Cert.Spec

/-- The one-hot coefficient of graph `g` at a row whose segment word is `s`: 1 when the word is `g`, else 0. -/
def hot (g : Fin 1024) (s : BitVec 32) : EReal := if BitVec.ofNat 32 g.val = s then 1 else 0

end Cert.Spec

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.KiPayVal.lean ====
/-
  The values the two segment-sum kernels store, read entry by entry at the ideal values.

  A segment sum by a one-hot product: the mask at (g, k) is 1 when the row index g, as a 32-bit word, is the segment
  word of column k, and 0 otherwise; the right operand is the block of rows (columns 0–127) widened with a block of
  ones (columns 128–255); one product of the two onto zero is, at (g, c), the sum over k of the mask at (g, k) times the
  widened operand at (k, c). Its left 128 columns, added to the sum accumulator, give at (g, j) the accumulator plus the
  sum over k of the one-hot coefficient times the row entry (k, j); its column 128, added to the count accumulator,
  gives at (g, 0) the accumulator plus the sum over k of the one-hot coefficient times one. The initial stores are
  zero everywhere, and the final stores copy the two accumulators to blocks with a leading unit axis. The second
  kernel's stored values are the same terms, so the same statements hold for them.
-/
import proofs.«416664_j53730040873193_3_alg».proof.Proof.Gen.KernelIdeal.Skeleton
import proofs.«416664_j53730040873193_3_alg».proof.Proof.Hot
import proofs.«416664_j53730040873193_3_alg».proof.Proof.LibPlainDot
import proofs.«416664_j53730040873193_3_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx
open scoped BigOperators

/-! ## Words and dimension numbers -/

/-- The product's dimension numbers are the plain ones: [1024, 4096] by [4096, 256]. -/
theorem dot_eq_plain :
    dot_S1024x4096_S4096x256_S1024x256_1_0_0_1_n_n = DotDims.plain 1024 4096 256 := rfl

/-- The one-hot coefficient from its words: the 1-bit comparison of the word of g with the segment word s, widened to
    32 bits and read as a signed integer, is 1 when the two words are equal and 0 otherwise. -/
theorem mask_word (g : Fin 1024) (s : BitVec 32) :
    FloatOps.sitofp (F := Ideal) .f32 ((IntOp.cmpi .eq (BitVec.ofNat 32 g.val) s).setWidth 32) = Cert.Spec.hot g s := by
  unfold Cert.Spec.hot
  show ((((IntOp.cmpi .eq (BitVec.ofNat 32 g.val) s).setWidth 32).toInt : ℝ) : EReal) = _
  unfold IntOp.cmpi
  by_cases h : BitVec.ofNat 32 g.val = s
  · rw [if_pos h]
    have e : (BitVec.ofNat 32 g.val == s) = true := beq_iff_eq.2 h
    simp only [e]
    have : ((BitVec.ofBool true).setWidth 32 : BitVec 32).toInt = 1 := by decide
    rw [this]
    norm_num
  · rw [if_neg h]
    have e : (BitVec.ofNat 32 g.val == s) = false := beq_eq_false_iff_ne.2 h
    simp only [e]
    have : ((BitVec.ofBool false).setWidth 32 : BitVec 32).toInt = 0 := by decide
    rw [this]
    norm_num

/-- The bf16 word for one and the f32 word for one denote the same number, 1. -/
theorem one_bf16 : Ideal.ofBits .bf16 0x3F80#16 = Ideal.ofBits .f32 0x3F800000#32 := by
  rw [Column.ofBits_one_f32]
  have h : Ideal.ofBits .bf16 0x3F80#16 = ((1 : ℝ) : EReal) := by
    simp [Ideal.ofBits, Ideal.ieee, -EReal.coe_mul]; norm_num
  rw [h, EReal.coe_one]

/-! ## The two operands of the product -/

/-- The mask: at (g, k), the comparison of the row index g with the segment word of column k, as a float. -/
def maskM (v3 : Vec Ideal S1x4096 .i32) : FVec Ideal S1024x4096 .bf16 :=
  truncf .bf16 (sitofp .f32 (extui 32 (cmpi .eq
    (broadcastTo S1024x4096 (iota .tc S1024x1 32 [0] iota_S1024x1_d0_w32) broadcasts_S1024x1_S1024x4096)
    (broadcastTo S1024x4096 (shapeCast S1x4096 v3 shapeCasts_S1x4096_S1x4096) broadcasts_S1x4096_S1024x4096)) natLt_1_32)) bitsLt_bf16_f32

/-- The rows widened with a block of ones. -/
def wideM (v12 : Vec Ideal S4096x128 .f32) : FVec Ideal S4096x256 .bf16 :=
  concatenate S4096x256 1
    [⟨S4096x128, truncf .bf16 (shapeCast S4096x128 v12 shapeCasts_S4096x128_S4096x128) bitsLt_bf16_f32⟩,
     ⟨S4096x128, broadcast S4096x128 (Scalar.ofBits (F := Ideal) .bf16 0x3F80#16)⟩]
    concatenates_S4096x128_S4096x128_S4096x256_d1

/-- The mask at (g, k) is the one-hot coefficient of g at the segment word of k. -/
theorem maskM_apply (v3 : Vec Ideal S1x4096 .i32) (g : Fin 1024) (k : Fin 4096) :
    maskM v3 (ix2 g k) = Cert.Spec.hot g (v3 (ix2 0 k)) := by
  unfold maskM
  rw [truncf_apply, sitofp_apply, extui_apply]
  show FloatOps.sitofp (F := Ideal) .f32 ((IntOp.cmpi .eq _ _).setWidth 32) = _
  rw [Column.broadcastTo_a1_ab_apply, broadcastTo_1b_ab_apply, shapeCast_self, iota_single_apply]
  exact mask_word g _

/-- The widened operand at a column j below 128 is the row entry (k, j). -/
theorem wideM_left (v12 : Vec Ideal S4096x128 .f32) (k : Fin 4096) (j : Fin 128) :
    wideM v12 (ix2 k (⟨j.val, by have := j.isLt; omega⟩ : Fin 256)) = v12 (ix2 k j) := by
  unfold wideM
  refine (concatenate_apply_piece (1 : Fin S4096x256.rank) _ _ _ 0 (by show (0 : Nat) < 2; omega) S4096x128
    (truncf .bf16 (shapeCast S4096x128 v12 shapeCasts_S4096x128_S4096x128) bitsLt_bf16_f32) rfl rfl 0 rfl
    (ix2 k j)
    (fun b hb => by
      match b with
      | ⟨0, _⟩ => rfl
      | ⟨1, _⟩ => exact absurd rfl hb)
    (by show 0 + j.val = j.val; omega)).trans ?_
  rw [truncf_apply, shapeCast_self]

/-- The widened operand at column 128 is one. -/
theorem wideM_one (v12 : Vec Ideal S4096x128 .f32) (k : Fin 4096) :
    wideM v12 (ix2 k (⟨128, by omega⟩ : Fin 256)) = Ideal.ofBits .f32 0x3F800000#32 := by
  unfold wideM
  refine (concatenate_apply_piece (1 : Fin S4096x256.rank) _ _ _ 1 (by show (1 : Nat) < 2; omega) S4096x128
    (broadcast S4096x128 (Scalar.ofBits (F := Ideal) .bf16 0x3F80#16)) rfl rfl 128 rfl
    (ix2 k (0 : Fin 128))
    (fun b hb => by
      match b with
      | ⟨0, _⟩ => rfl
      | ⟨1, _⟩ => exact absurd rfl hb)
    (by show 128 + 0 = 128; rfl)).trans ?_
  exact one_bf16

/-! ## The first kernel's stored values -/

/-- The product is the plain product of the mask and the widened operand onto zero. -/
theorem pay3_eq (v3 : Vec Ideal S1x4096 .i32) (v12 : Vec Ideal S4096x128 .f32) :
    k0_pay3 (F := Ideal) v3 v12
      = FloatOps.matmul (DotDims.plain 1024 4096 256) none (maskM v3) (wideM v12)
          (constant (F := Ideal) ⟨2, ![1024, 256]⟩ .f32 0x00000000#32) := rfl

/-- The product at (g, c): the sum over k of the one-hot coefficient times the widened operand at (k, c). -/
theorem pay3_apply (v3 : Vec Ideal S1x4096 .i32) (v12 : Vec Ideal S4096x128 .f32) (g : Fin 1024) (c : Fin 256) :
    k0_pay3 (F := Ideal) v3 v12 (ix2 g c) = ∑ k : Fin 4096, Cert.Spec.hot g (v3 (ix2 0 k)) * wideM v12 (ix2 k c) := by
  rw [pay3_eq, PlainDot.matmul_zero_apply]
  exact Finset.sum_congr rfl fun k _ => by rw [maskM_apply]

/-- The sum accumulator's initial value is zero. -/
theorem pay1_apply (g : Fin 1024) (j : Fin 128) : k0_pay1 (F := Ideal) (ix2 g j) = 0 := by
  unfold k0_pay1
  rw [shapeCast_self]
  exact Ideal.ofBits_zero_f32

/-- The count accumulator's initial value is zero. -/
theorem pay2_apply (g : Fin 1024) : k0_pay2 (F := Ideal) (ix2 g 0) = 0 := by
  unfold k0_pay2
  rw [shapeCast_self]
  exact Ideal.ofBits_zero_f32

/-- The sum accumulator after a step: what it held plus the rows of the step summed by segment. -/
theorem pay4_apply (v3 : Vec Ideal S1x4096 .i32) (v12 : Vec Ideal S4096x128 .f32) (v18 : Vec Ideal S1024x128 .f32) (g : Fin 1024) (j : Fin 128) :
    k0_pay4 (F := Ideal) v3 v12 v18 (ix2 g j) = v18 (ix2 g j) + ∑ k : Fin 4096, Cert.Spec.hot g (v3 (ix2 0 k)) * v12 (ix2 k j) := by
  unfold k0_pay4
  rw [shapeCast_self, addf_apply]
  refine congrArg (v18 (ix2 g j) + ·) ?_
  refine (slice2_axis1_apply 0 (k0_pay3 (F := Ideal) v3 v12) slices_S1024x256_o0_0_S1024x128 g j
    (⟨j.val, by have := j.isLt; omega⟩ : Fin 256) (by show j.val = 0 + j.val; omega)).trans ?_
  rw [pay3_apply]
  exact Finset.sum_congr rfl fun k _ => by rw [wideM_left]

/-- The count accumulator after a step: what it held plus the step's rows counted by segment, each as one. -/
theorem pay5_apply (v3 : Vec Ideal S1x4096 .i32) (v12 : Vec Ideal S4096x128 .f32) (v24 : Vec Ideal S1024x1 .f32) (g : Fin 1024) :
    k0_pay5 (F := Ideal) v3 v12 v24 (ix2 g 0) = v24 (ix2 g 0) + ∑ k : Fin 4096, Cert.Spec.hot g (v3 (ix2 0 k)) * Ideal.ofBits .f32 0x3F800000#32 := by
  unfold k0_pay5
  rw [shapeCast_self, addf_apply]
  refine congrArg (v24 (ix2 g 0) + ·) ?_
  refine (slice2_axis1_apply 128 (k0_pay3 (F := Ideal) v3 v12) slices_S1024x256_o0_128_S1024x1 g (0 : Fin 1)
    (⟨128, by omega⟩ : Fin 256) (by show 128 = 128 + 0; rfl)).trans ?_
  rw [pay3_apply]
  exact Finset.sum_congr rfl fun k _ => by rw [wideM_one]

/-- The stored sums: the accumulator under a leading unit axis. -/
theorem pay6_apply (v33 : Vec Ideal S1024x128 .f32) (g : Fin 1024) (j : Fin 128) :
    k0_pay6 (F := Ideal) v33 (ix3 0 g j) = v33 (ix2 g j) := by
  unfold k0_pay6
  exact shapeCast_ab_1ab_apply v33 _ 0 g j

/-- The stored counts: the accumulator under a leading unit axis. -/
theorem pay7_apply (v37 : Vec Ideal S1024x1 .f32) (g : Fin 1024) :
    k0_pay7 (F := Ideal) v37 (ix3 0 g 0) = v37 (ix2 g 0) := by
  unfold k0_pay7
  exact shapeCast_ab_1ab_apply v37 _ 0 g 0

/-! ## The second kernel's stored values: the same terms -/

/-- The second kernel's product is the same plain product. -/
theorem pay3_eq' (v3 : Vec Ideal S1x4096 .i32) (v12 : Vec Ideal S4096x128 .f32) :
    k1_pay3 (F := Ideal) v3 v12
      = FloatOps.matmul (DotDims.plain 1024 4096 256) none (maskM v3) (wideM v12)
          (constant (F := Ideal) ⟨2, ![1024, 256]⟩ .f32 0x00000000#32) := rfl

theorem pay3_apply' (v3 : Vec Ideal S1x4096 .i32) (v12 : Vec Ideal S4096x128 .f32) (g : Fin 1024) (c : Fin 256) :
    k1_pay3 (F := Ideal) v3 v12 (ix2 g c) = ∑ k : Fin 4096, Cert.Spec.hot g (v3 (ix2 0 k)) * wideM v12 (ix2 k c) := by
  rw [pay3_eq', PlainDot.matmul_zero_apply]
  exact Finset.sum_congr rfl fun k _ => by rw [maskM_apply]

theorem pay1_apply' (g : Fin 1024) (j : Fin 128) : k1_pay1 (F := Ideal) (ix2 g j) = 0 := by
  unfold k1_pay1
  rw [shapeCast_self]
  exact Ideal.ofBits_zero_f32

theorem pay2_apply' (g : Fin 1024) : k1_pay2 (F := Ideal) (ix2 g 0) = 0 := by
  unfold k1_pay2
  rw [shapeCast_self]
  exact Ideal.ofBits_zero_f32

theorem pay4_apply' (v3 : Vec Ideal S1x4096 .i32) (v12 : Vec Ideal S4096x128 .f32) (v18 : Vec Ideal S1024x128 .f32) (g : Fin 1024) (j : Fin 128) :
    k1_pay4 (F := Ideal) v3 v12 v18 (ix2 g j) = v18 (ix2 g j) + ∑ k : Fin 4096, Cert.Spec.hot g (v3 (ix2 0 k)) * v12 (ix2 k j) := by
  unfold k1_pay4
  rw [shapeCast_self, addf_apply]
  refine congrArg (v18 (ix2 g j) + ·) ?_
  refine (slice2_axis1_apply 0 (k1_pay3 (F := Ideal) v3 v12) slices_S1024x256_o0_0_S1024x128 g j
    (⟨j.val, by have := j.isLt; omega⟩ : Fin 256) (by show j.val = 0 + j.val; omega)).trans ?_
  rw [pay3_apply']
  exact Finset.sum_congr rfl fun k _ => by rw [wideM_left]

theorem pay5_apply' (v3 : Vec Ideal S1x4096 .i32) (v12 : Vec Ideal S4096x128 .f32) (v24 : Vec Ideal S1024x1 .f32) (g : Fin 1024) :
    k1_pay5 (F := Ideal) v3 v12 v24 (ix2 g 0) = v24 (ix2 g 0) + ∑ k : Fin 4096, Cert.Spec.hot g (v3 (ix2 0 k)) * Ideal.ofBits .f32 0x3F800000#32 := by
  unfold k1_pay5
  rw [shapeCast_self, addf_apply]
  refine congrArg (v24 (ix2 g 0) + ·) ?_
  refine (slice2_axis1_apply 128 (k1_pay3 (F := Ideal) v3 v12) slices_S1024x256_o0_128_S1024x1 g (0 : Fin 1)
    (⟨128, by omega⟩ : Fin 256) (by show 128 = 128 + 0; rfl)).trans ?_
  rw [pay3_apply']
  exact Finset.sum_congr rfl fun k _ => by rw [wideM_one]

theorem pay6_apply' (v33 : Vec Ideal S1024x128 .f32) (g : Fin 1024) (j : Fin 128) :
    k1_pay6 (F := Ideal) v33 (ix3 0 g j) = v33 (ix2 g j) := by
  unfold k1_pay6
  exact shapeCast_ab_1ab_apply v33 _ 0 g j

theorem pay7_apply' (v37 : Vec Ideal S1024x1 .f32) (g : Fin 1024) :
    k1_pay7 (F := Ideal) v37 (ix3 0 g 0) = v37 (ix2 g 0) := by
  unfold k1_pay7
  exact shapeCast_ab_1ab_apply v37 _ 0 g 0

end Cert.KernelIdeal.PayVal

end
-- ==== Proof.KiR0Val.lean ====
/-
  The first segment-sum call at the ideal values: what its two result arrays hold after the run.

  Grid point t = a·62 + b (a the core slot, b the row block) works on rows t·4096 … t·4096 + 4095 of the padded arrays.
  At b = 0 the two accumulators are zeroed and the block's one-hot product added, at every other b the product is added
  to what they held, and at b = 61 they are copied to the results' buffers, which are written back to block a of the
  result arrays. On the extended reals + is commutative and associative and 0 + x = x, so result array 2 at (a, g, j)
  is the sum over slot a's 62 blocks and each block's 4096 rows of (1 if the row's segment word is g, else 0) times the
  row's column j, and result array 3 at (a, g, 0) the same with the word for 1 in place of the row's entry.
-/
import proofs.«416664_j53730040873193_3_alg».proof.Proof.KiR0Body
import proofs.«416664_j53730040873193_3_alg».proof.Proof.KiPayVal
import proofs.«416664_j53730040873193_3_alg».proof.Proof.Hot
import Idealize.ShloMosaic.Lib.Pipeline.Value
import Idealize.ShloMosaic.Lib.ValueIdx

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

/-! ## The pieces each case's run found are the body's payloads -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST block of a slot: accumulator 0 ends at the zero block plus the block's product. -/
theorem sout_A_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) :
    sout0_A_0 c i arg2 harg2 arg3 harg3 arg4 harg4 arg5 harg5 arg6 harg6 arg7 harg7 hc0 hc1 x0 x1 = k0_pay4 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- FIRST block: accumulator 1 ends at the zero column plus the block's count. -/
theorem sout_A_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S4096x128 .f32) (x1 : Vec F S1x4096 .i32) :
    sout0_A_1 c i arg2 harg2 arg3 harg3 arg4 harg4 arg5 harg5 arg6 harg6 arg7 harg7 hc0 hc1 x0 x1 = k0_pay5 x1 x0 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- MIDDLE block: accumulator 0 ends at what it held plus the block's product. -/
theorem sout_B_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) :
    sout0_B_0 c i arg2 harg2 arg3 harg3 arg4 harg4 arg5 harg5 arg6 harg6 arg7 harg7 hc0 hc1 x0 x1 xs0 xs1 = k0_pay4 x1 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- MIDDLE block: accumulator 1 ends at what it held plus the block's count. -/
theorem sout_B_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S4096x128 .f32) (x1 : Vec F S1x4096 .i32) (xs0 : Vec F S1024x128 .f32) (xs1 : Vec F S1024x1 .f32) :
    sout0_B_1 c i arg2 harg2 arg3 harg3 arg4 harg4 arg5 harg5 arg6 harg6 arg7 harg7 hc0 hc1 x0 x1 xs0 xs1 = k0_pay5 x1 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- LAST block: the accumulators as at a middle block, -/
theorem sout_C_0 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) :
    sout0_C_0 c i arg2 harg2 arg3 harg3 arg4 harg4 arg5 harg5 arg6 harg6 arg7 harg7 hc0 hc1 x0 x1 xs0 xs1 = k0_pay4 x1 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

theorem sout_C_1 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) :
    sout0_C_1 c i arg2 harg2 arg3 harg3 arg4 harg4 arg5 harg5 arg6 harg6 arg7 harg7 hc0 hc1 x0 x1 xs0 xs1 = k0_pay5 x1 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- and the results' buffers at the accumulators' new contents, given the leading unit axis. -/
theorem out_C_2 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) :
    out0_C_2 c i arg2 harg2 arg3 harg3 arg4 harg4 arg5 harg5 arg6 harg6 arg7 harg7 hc0 hc1 x0 x1 xs0 xs1 = k0_pay6 (k0_pay4 x1 x0 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1024x128) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

theorem out_C_3 (c : Dev nD) (i : grid0.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S4096x128 .f32) (x1 : Vec F S1x4096 .i32) (xs0 : Vec F S1024x128 .f32) (xs1 : Vec F S1024x1 .f32) :
    out0_C_3 c i arg2 harg2 arg3 harg3 arg4 harg4 arg5 harg5 arg6 harg6 arg7 harg7 hc0 hc1 x0 x1 xs0 xs1 = k0_pay7 (k0_pay5 x1 x0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1024x1) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

end Pieces

variable (V : (c : Dev nD) → (b : Ref sig .tc) → Buf (Elt Ideal) ((c : Thread nD τ).loc b)) (c : Dev nD)

/-! ## A window's block read at an index -/

/-- The grid is walked row-major: at point t the row-block windows sit at block t. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- The padded row that row k of point t's block is. -/
def rowAt (t : Fin cfg0.N) (k : Fin 4096) : Fin 507904 :=
  ⟨t.val * 4096 + k.val, by have := lt_of_lt_of_eq t.isLt (show cfg0.N = 124 from N_0); have := k.isLt; omega⟩

/-- The rows' block at point t, entry (k, j), is the padded array's entry (t·4096 + k, j). -/
theorem iblk0_0_apply (t : Fin cfg0.N) (k : Fin 4096) (j : Fin 128) :
    iblk0 V c 0 t (ix2 k j) = V c main_v9 (ix2 (rowAt t k) j) := by
  unfold iblk0
  rw [View.read_apply]
  show V c main_v9 _ = V c main_v9 _
  congr 1
  funext a
  apply Fin.ext
  match a with
  | ⟨0, _⟩ => show win0_0.index t 0 * 4096 + 1 * k.val = t.val * 4096 + k.val; rw [(index0_0 t).1]; omega
  | ⟨1, _⟩ => show win0_0.index t 1 * 128 + 1 * j.val = j.val; rw [(index0_0 t).2]; omega

/-- The segment words' block at point t, entry (0, k), is the padded words' entry (0, t·4096 + k). -/
theorem iblk0_1_apply (t : Fin cfg0.N) (k : Fin 4096) :
    iblk0 V c 1 t (ix2 0 k) = V c main_v11 (ix2 0 (rowAt t k)) := by
  unfold iblk0
  rw [View.read_apply]
  show V c main_v11 _ = V c main_v11 _
  congr 1
  funext a
  apply Fin.ext
  match a with
  | ⟨0, _⟩ => show win0_1.index t 0 * 1 + 1 * 0 = 0; rw [(index0_1 t).1]
  | ⟨1, _⟩ => show win0_1.index t 1 * 4096 + 1 * k.val = t.val * 4096 + k.val; rw [(index0_1 t).2]; omega

/-! ## The accumulation, point by point -/

/-- Point t's contribution to accumulator 0 at (g, j): its 4096 rows' one-hot coefficients times their column j. -/
def blk0 (t : Fin cfg0.N) (g : Fin 1024) (j : Fin 128) : EReal :=
  ∑ k : Fin 4096, Cert.Spec.hot g (V c main_v11 (ix2 0 (rowAt t k))) * V c main_v9 (ix2 (rowAt t k) j)

/-- Point t's contribution to accumulator 1 at g: its rows' one-hot coefficients times the word for 1. -/
def blk1 (t : Fin cfg0.N) (g : Fin 1024) : EReal :=
  ∑ k : Fin 4096, Cert.Spec.hot g (V c main_v11 (ix2 0 (rowAt t k))) * Ideal.ofBits .f32 0x3F800000#32

/-- The block's product as the payload spells it is the point's contribution. -/
theorem prod0_eq (t : Fin cfg0.N) (g : Fin 1024) (j : Fin 128) :
    (∑ k : Fin 4096, Cert.Spec.hot g (iblk0 V c 1 t (ix2 0 k)) * iblk0 V c 0 t (ix2 k j)) = blk0 V c t g j := by
  unfold blk0
  refine Finset.sum_congr rfl fun k _ => ?_
  rw [iblk0_0_apply, iblk0_1_apply]

theorem prod1_eq (t : Fin cfg0.N) (g : Fin 1024) :
    (∑ k : Fin 4096, Cert.Spec.hot g (iblk0 V c 1 t (ix2 0 k)) * Ideal.ofBits .f32 0x3F800000#32) = blk1 V c t g := by
  unfold blk1
  refine Finset.sum_congr rfl fun k _ => ?_
  rw [iblk0_1_apply]

/-- At the FIRST block of a slot accumulator 0 ends at the block's contribution, -/
theorem acc0_first (t : Fin cfg0.N) (h0 : t.val % 62 = 0) (g : Fin 1024) (j : Fin 128) :
    (outsAt0 V c t.val t.isLt).2.2.1 (ix2 g j) = blk0 V c t g j := by
  have h1 : ¬t.val % 62 = 61 := by omega
  rw [outsAt0_A V c t h0 h1]
  dsimp only
  rw [sout_A_0, Cert.KernelIdeal.PayVal.pay4_apply, Cert.KernelIdeal.PayVal.pay1_apply, zero_add, prod0_eq]

/-- and at every LATER block at what the position before left plus the block's contribution. -/
theorem acc0_later (t : Fin cfg0.N) (h0 : ¬t.val % 62 = 0) (g : Fin 1024) (j : Fin 128) :
    (outsAt0 V c t.val t.isLt).2.2.1 (ix2 g j)
      = (outsAt0 V c (t.val - 1) (Nat.lt_of_le_of_lt (Nat.sub_le _ _) t.isLt)).2.2.1 (ix2 g j) + blk0 V c t g j := by
  by_cases h1 : t.val % 62 = 61
  · rw [outsAt0_C V c t h0 h1]
    dsimp only
    rw [sout_C_0, Cert.KernelIdeal.PayVal.pay4_apply, prod0_eq]
  · rw [outsAt0_B V c t h0 h1]
    dsimp only
    rw [sout_B_0, Cert.KernelIdeal.PayVal.pay4_apply, prod0_eq]

/-- The same for accumulator 1. -/
theorem acc1_first (t : Fin cfg0.N) (h0 : t.val % 62 = 0) (g : Fin 1024) :
    (outsAt0 V c t.val t.isLt).2.2.2 (ix2 g 0) = blk1 V c t g := by
  have h1 : ¬t.val % 62 = 61 := by omega
  rw [outsAt0_A V c t h0 h1]
  dsimp only
  rw [sout_A_1, Cert.KernelIdeal.PayVal.pay5_apply, Cert.KernelIdeal.PayVal.pay2_apply, zero_add, prod1_eq]

theorem acc1_later (t : Fin cfg0.N) (h0 : ¬t.val % 62 = 0) (g : Fin 1024) :
    (outsAt0 V c t.val t.isLt).2.2.2 (ix2 g 0)
      = (outsAt0 V c (t.val - 1) (Nat.lt_of_le_of_lt (Nat.sub_le _ _) t.isLt)).2.2.2 (ix2 g 0) + blk1 V c t g := by
  by_cases h1 : t.val % 62 = 61
  · rw [outsAt0_C V c t h0 h1]
    dsimp only
    rw [sout_C_1, Cert.KernelIdeal.PayVal.pay5_apply, prod1_eq]
  · rw [outsAt0_B V c t h0 h1]
    dsimp only
    rw [sout_B_1, Cert.KernelIdeal.PayVal.pay5_apply, prod1_eq]

/-! ## The accumulators after a position, in closed form -/

/-- The contribution of the natural position p to accumulator 0 (nothing past the grid). -/
def B0 (g : Fin 1024) (j : Fin 128) (p : ℕ) : EReal := if h : p < cfg0.N then blk0 V c ⟨p, h⟩ g j else 0
/-- The contribution of the natural position p to accumulator 1. -/
def B1 (g : Fin 1024) (p : ℕ) : EReal := if h : p < cfg0.N then blk1 V c ⟨p, h⟩ g else 0

/-- After position n accumulator 0 holds the contributions of n's slot from its first block up to n. -/
theorem acc0_closed (g : Fin 1024) (j : Fin 128) (n : ℕ) : ∀ (hn : n < cfg0.N),
    (outsAt0 V c n hn).2.2.1 (ix2 g j) = ∑ m ∈ Finset.range (n % 62 + 1), B0 V c g j (n - n % 62 + m) := by
  induction n using Nat.strong_induction_on with
  | _ n ih =>
    intro hn
    by_cases h0 : n % 62 = 0
    · refine (acc0_first V c ⟨n, hn⟩ h0 g j).trans ?_
      rw [h0, Finset.sum_range_one, Nat.sub_zero, Nat.add_zero]
      unfold B0
      rw [dif_pos hn]
    · refine (acc0_later V c ⟨n, hn⟩ h0 g j).trans ?_
      have hn1 : n - 1 < cfg0.N := Nat.lt_of_le_of_lt (Nat.sub_le _ _) hn
      have e1 : (n - 1) % 62 + 1 = n % 62 := by omega
      have e2 : n - 1 - (n - 1) % 62 = n - n % 62 := by omega
      have e3 : n - n % 62 + n % 62 = n := by omega
      have hprev := ih (n - 1) (by omega) hn1
      rw [e1, e2] at hprev
      rw [Finset.sum_range_succ, e3]
      refine congrArg₂ (· + ·) hprev ?_
      unfold B0
      rw [dif_pos hn]

/-- The same for accumulator 1. -/
theorem acc1_closed (g : Fin 1024) (n : ℕ) : ∀ (hn : n < cfg0.N),
    (outsAt0 V c n hn).2.2.2 (ix2 g 0) = ∑ m ∈ Finset.range (n % 62 + 1), B1 V c g (n - n % 62 + m) := by
  induction n using Nat.strong_induction_on with
  | _ n ih =>
    intro hn
    by_cases h0 : n % 62 = 0
    · refine (acc1_first V c ⟨n, hn⟩ h0 g).trans ?_
      rw [h0, Finset.sum_range_one, Nat.sub_zero, Nat.add_zero]
      unfold B1
      rw [dif_pos hn]
    · refine (acc1_later V c ⟨n, hn⟩ h0 g).trans ?_
      have hn1 : n - 1 < cfg0.N := Nat.lt_of_le_of_lt (Nat.sub_le _ _) hn
      have e1 : (n - 1) % 62 + 1 = n % 62 := by omega
      have e2 : n - 1 - (n - 1) % 62 = n - n % 62 := by omega
      have e3 : n - n % 62 + n % 62 = n := by omega
      have hprev := ih (n - 1) (by omega) hn1
      rw [e1, e2] at hprev
      rw [Finset.sum_range_succ, e3]
      refine congrArg₂ (· + ·) hprev ?_
      unfold B1
      rw [dif_pos hn]

/-- The padded row that slot a, block b, row k of the block works on. -/
def row0 (a : Fin 2) (b : Fin 62) (k : Fin 4096) : Fin 507904 := ⟨(a.val * 62 + b.val) * 4096 + k.val, by have := a.isLt; have := b.isLt; have := k.isLt; omega⟩

/-- The last position of slot a. -/
def lastOf (a : Fin 2) : Fin cfg0.N := ⟨a.val * 62 + 61, by rw [show cfg0.N = 124 from N_0]; have := a.isLt; omega⟩

/-- After a slot's last position accumulator 0 holds the slot's 62 blocks' contributions. -/
theorem acc0_last (a : Fin 2) (g : Fin 1024) (j : Fin 128) :
    (outsAt0 V c (lastOf a).val (lastOf a).isLt).2.2.1 (ix2 g j)
      = ∑ b : Fin 62, ∑ k : Fin 4096, Cert.Spec.hot g (V c main_v11 (ix2 0 (row0 a b k))) * V c main_v9 (ix2 (row0 a b k) j) := by
  have hN : cfg0.N = 124 := N_0
  have ha := a.isLt
  rw [acc0_closed V c g j (lastOf a).val (lastOf a).isLt]
  have e1 : (lastOf a).val % 62 + 1 = 62 := by show (a.val * 62 + 61) % 62 + 1 = 62; omega
  have e2 : (lastOf a).val - (lastOf a).val % 62 = a.val * 62 := by show a.val * 62 + 61 - (a.val * 62 + 61) % 62 = a.val * 62; omega
  rw [e1, e2, Finset.sum_range]
  refine Finset.sum_congr rfl fun b _ => ?_
  have hb : a.val * 62 + b.val < cfg0.N := by have := b.isLt; omega
  unfold B0
  rw [dif_pos hb]
  rfl

/-- and accumulator 1 the slot's 62 blocks' counts. -/
theorem acc1_last (a : Fin 2) (g : Fin 1024) :
    (outsAt0 V c (lastOf a).val (lastOf a).isLt).2.2.2 (ix2 g 0)
      = ∑ b : Fin 62, ∑ k : Fin 4096, Cert.Spec.hot g (V c main_v11 (ix2 0 (row0 a b k))) * Ideal.ofBits .f32 0x3F800000#32 := by
  have hN : cfg0.N = 124 := N_0
  have ha := a.isLt
  rw [acc1_closed V c g (lastOf a).val (lastOf a).isLt]
  have e1 : (lastOf a).val % 62 + 1 = 62 := by show (a.val * 62 + 61) % 62 + 1 = 62; omega
  have e2 : (lastOf a).val - (lastOf a).val % 62 = a.val * 62 := by show a.val * 62 + 61 - (a.val * 62 + 61) % 62 = a.val * 62; omega
  rw [e1, e2, Finset.sum_range]
  refine Finset.sum_congr rfl fun b _ => ?_
  have hb : a.val * 62 + b.val < cfg0.N := by have := b.isLt; omega
  unfold B1
  rw [dif_pos hb]
  rfl

/-! ## The result arrays after the run -/

/-- At point t the results' windows sit at block (t / 62, 0, 0): the slot's. -/
theorem index0_2 : ∀ t : Fin cfg0.N, win0_2.index t (0 : Fin 3) = t.val / 62 ∧ win0_2.index t (1 : Fin 3) = 0 ∧ win0_2.index t (2 : Fin 3) = 0 :=
  (by decide +kernel : ∀ t : Fin grid0.N, win0_2.index t (0 : Fin 3) = t.val / 62 ∧ win0_2.index t (1 : Fin 3) = 0 ∧ win0_2.index t (2 : Fin 3) = 0)
theorem index0_3 : ∀ t : Fin cfg0.N, win0_3.index t (0 : Fin 3) = t.val / 62 ∧ win0_3.index t (1 : Fin 3) = 0 ∧ win0_3.index t (2 : Fin 3) = 0 :=
  (by decide +kernel : ∀ t : Fin grid0.N, win0_3.index t (0 : Fin 3) = t.val / 62 ∧ win0_3.index t (1 : Fin 3) = 0 ∧ win0_3.index t (2 : Fin 3) = 0)

/-- The blocks two different writing-back points write are disjoint: the points are the last of different slots, and
    the blocks are separated on the slot axis. -/
theorem hdisj0_2 (t t' : Fin cfg0.N) (hf : (cfg0.win 2).flush t = true) (hf' : (cfg0.win 2).flush t' = true) (hne : t ≠ t') :
    Disjoint ((cfg0.win 2).blk t).view.set ((cfg0.win 2).blk t').view.set := by
  have h61 := (flush0_2 t).mp hf
  have h61' := (flush0_2 t').mp hf'
  have hv : t.val ≠ t'.val := fun e => hne (Fin.ext e)
  show Disjoint ((View.whole main_v12_0).slice (win0_2.rect t)).set ((View.whole main_v12_0).slice (win0_2.rect t')).set
  rw [View.set_slice_whole, View.set_slice_whole]
  refine Rect.unit_disjoint (0 : Fin 3) ?_
  show win0_2.index t 0 * 1 + 1 ≤ win0_2.index t' 0 * 1 ∨ win0_2.index t' 0 * 1 + 1 ≤ win0_2.index t 0 * 1
  rw [(index0_2 t).1, (index0_2 t').1]
  omega

theorem hdisj0_3 (t t' : Fin cfg0.N) (hf : (cfg0.win 3).flush t = true) (hf' : (cfg0.win 3).flush t' = true) (hne : t ≠ t') :
    Disjoint ((cfg0.win 3).blk t).view.set ((cfg0.win 3).blk t').view.set := by
  have h61 := (flush0_3 t).mp hf
  have h61' := (flush0_3 t').mp hf'
  have hv : t.val ≠ t'.val := fun e => hne (Fin.ext e)
  show Disjoint ((View.whole main_v12_1).slice (win0_3.rect t)).set ((View.whole main_v12_1).slice (win0_3.rect t')).set
  rw [View.set_slice_whole, View.set_slice_whole]
  refine Rect.unit_disjoint (0 : Fin 3) ?_
  show win0_3.index t 0 * 1 + 1 ≤ win0_3.index t' 0 * 1 ∨ win0_3.index t' 0 * 1 + 1 ≤ win0_3.index t 0 * 1
  rw [(index0_3 t).1, (index0_3 t').1]
  omega

/-- At a slot's last position result buffer 2 holds accumulator 0 under a leading unit axis, -/
theorem out2_last (t : Fin cfg0.N) (h1 : t.val % 62 = 61) (g : Fin 1024) (j : Fin 128) :
    (outsAt0 V c t.val t.isLt).1 (ix3 0 g j) = (outsAt0 V c t.val t.isLt).2.2.1 (ix2 g j) := by
  have h0 : ¬t.val % 62 = 0 := by omega
  rw [outsAt0_C V c t h0 h1]
  dsimp only
  rw [out_C_2, sout_C_0, Cert.KernelIdeal.PayVal.pay6_apply]

/-- and result buffer 3 accumulator 1. -/
theorem out3_last (t : Fin cfg0.N) (h1 : t.val % 62 = 61) (g : Fin 1024) :
    (outsAt0 V c t.val t.isLt).2.1 (ix3 0 g 0) = (outsAt0 V c t.val t.isLt).2.2.2 (ix2 g 0) := by
  have h0 : ¬t.val % 62 = 0 := by omega
  rw [outsAt0_C V c t h0 h1]
  dsimp only
  rw [out_C_3, sout_C_1, Cert.KernelIdeal.PayVal.pay7_apply]

theorem lastOf_mod (a : Fin 2) : (lastOf a).val % 62 = 61 := by
  show (a.val * 62 + 61) % 62 = 61
  omega

/-- RESULT ARRAY 2 AFTER THE RUN: slot a's entry (g, j) is the sum over the slot's blocks and their rows of the
    one-hot coefficient of g at the row times the row's column j. -/
theorem acc0_final (a : Fin 2) (g : Fin 1024) (j : Fin 128) :
    (dat0 (F := Ideal) V c).arrAt 2 cfg0.N (ix3 a g j)
      = ∑ b : Fin 62, ∑ k : Fin 4096, Cert.Spec.hot g (V c main_v11 (ix2 0 (row0 a b k))) * V c main_v9 (ix2 (row0 a b k) j) := by
  have ha := a.isLt
  have hf : (cfg0.win 2).flush (lastOf a) = true := (flush0_2 (lastOf a)).mpr (lastOf_mod a)
  have hemb : ((cfg0.win 2).blk (lastOf a)).view.emb (ix3 (0 : Fin 1) g j) = ix3 a g j := by
    funext ax
    apply Fin.ext
    match ax with
    | ⟨0, _⟩ =>
      show win0_2.index (lastOf a) 0 * 1 + 1 * 0 = a.val
      rw [(index0_2 (lastOf a)).1]
      show (a.val * 62 + 61) / 62 * 1 + 1 * 0 = a.val
      omega
    | ⟨1, _⟩ => show win0_2.index (lastOf a) 1 * 1024 + 1 * g.val = g.val; rw [(index0_2 (lastOf a)).2.1]; omega
    | ⟨2, _⟩ => show win0_2.index (lastOf a) 2 * 128 + 1 * j.val = j.val; rw [(index0_2 (lastOf a)).2.2]; omega
  have key := (dat0 (F := Ideal) V c).arrAt_emb_eq_flushed 2 (hdisj0_2) (lastOf a) hf (ix3 (0 : Fin 1) g j)
  rw [hemb] at key
  refine key.trans ?_
  show (dat0 (F := Ideal) V c).after 2 (lastOf a) (ix3 (0 : Fin 1) g j) = _
  rw [after0_2, out2_last V c (lastOf a) (lastOf_mod a) g j, acc0_last]

/-- RESULT ARRAY 3 AFTER THE RUN: slot a's entry (g, 0) is the same sum with the word for 1 in place of the row's entry. -/
theorem cnt0_final (a : Fin 2) (g : Fin 1024) :
    (dat0 (F := Ideal) V c).arrAt 3 cfg0.N (ix3 a g 0)
      = ∑ b : Fin 62, ∑ k : Fin 4096, Cert.Spec.hot g (V c main_v11 (ix2 0 (row0 a b k))) * Ideal.ofBits .f32 0x3F800000#32 := by
  have ha := a.isLt
  have hf : (cfg0.win 3).flush (lastOf a) = true := (flush0_3 (lastOf a)).mpr (lastOf_mod a)
  have hemb : ((cfg0.win 3).blk (lastOf a)).view.emb (ix3 (0 : Fin 1) g (0 : Fin 1)) = ix3 a g (0 : Fin 1) := by
    funext ax
    apply Fin.ext
    match ax with
    | ⟨0, _⟩ =>
      show win0_3.index (lastOf a) 0 * 1 + 1 * 0 = a.val
      rw [(index0_3 (lastOf a)).1]
      show (a.val * 62 + 61) / 62 * 1 + 1 * 0 = a.val
      omega
    | ⟨1, _⟩ => show win0_3.index (lastOf a) 1 * 1024 + 1 * g.val = g.val; rw [(index0_3 (lastOf a)).2.1]; omega
    | ⟨2, _⟩ => show win0_3.index (lastOf a) 2 * 1 + 1 * 0 = 0; rw [(index0_3 (lastOf a)).2.2]
  have key := (dat0 (F := Ideal) V c).arrAt_emb_eq_flushed 3 (hdisj0_3) (lastOf a) hf (ix3 (0 : Fin 1) g (0 : Fin 1))
  rw [hemb] at key
  refine key.trans ?_
  show (dat0 (F := Ideal) V c).after 3 (lastOf a) (ix3 (0 : Fin 1) g (0 : Fin 1)) = _
  rw [after0_3, out3_last V c (lastOf a) (lastOf_mod a) g, acc1_last]

end Cert.KernelIdeal.Seg

end
-- ==== Proof.KiR1Val.lean ====
/-
  The second segment-sum call at the ideal values: what its two result arrays hold after the run.

  Grid point t = a·13 + b (a the core slot, b the row block) works on rows t·4096 … t·4096 + 4095 of the padded arrays.
  At b = 0 the two accumulators are zeroed and the block's one-hot product added, at every other b the product is added
  to what they held, and at b = 12 they are copied to the results' buffers, which are written back to block a of the
  result arrays. On the extended reals + is commutative and associative and 0 + x = x, so result array 2 at (a, g, j)
  is the sum over slot a's 13 blocks and each block's 4096 rows of (1 if the row's segment word is g, else 0) times the
  row's column j, and result array 3 at (a, g, 0) the same with the word for 1 in place of the row's entry.
-/
import proofs.«416664_j53730040873193_3_alg».proof.Proof.KiR1Body
import proofs.«416664_j53730040873193_3_alg».proof.Proof.KiPayVal
import proofs.«416664_j53730040873193_3_alg».proof.Proof.Hot
import Idealize.ShloMosaic.Lib.Pipeline.Value
import Idealize.ShloMosaic.Lib.ValueIdx

set_option maxRecDepth 16384

noncomputable section

namespace Cert.KernelIdeal.Seg1

open Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

/-! ## The pieces each case's run found are the body's payloads -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST block of a slot: accumulator 0 ends at the zero block plus the block's product. -/
theorem sout_A_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) :
    sout1_A_0 c i arg2 harg2 arg3 harg3 arg4 harg4 arg5 harg5 arg6 harg6 arg7 harg7 hc0 hc1 x0 x1 = k1_pay4 x1 x0 (k1_pay1 (F := F)) := by
  unfold sout1_A_0
  rw [View.read_writes_eq_canon _ _ _ (scover1_A_0 c i arg2 harg2 arg3 harg3 arg4 harg4 arg5 harg5 arg6 harg6 arg7 harg7 hc0 hc1 x0 x1)]
  unfold kernelRun1_A
  dsimp only
  sl_unfold_words
  rw [View.canon_cons_unit_zero (S := S1024x128) hz2, View.readCov_unit_zero (S := S1024x128) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- FIRST block: accumulator 1 ends at the zero column plus the block's count. -/
theorem sout_A_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i) (x0 : Vec F S4096x128 .f32) (x1 : Vec F S1x4096 .i32) :
    sout1_A_1 c i arg2 harg2 arg3 harg3 arg4 harg4 arg5 harg5 arg6 harg6 arg7 harg7 hc0 hc1 x0 x1 = k1_pay5 x1 x0 (k1_pay2 (F := F)) := by
  unfold sout1_A_1
  rw [View.read_writes_eq_canon _ _ _ (scover1_A_1 c i arg2 harg2 arg3 harg3 arg4 harg4 arg5 harg5 arg6 harg6 arg7 harg7 hc0 hc1 x0 x1)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- MIDDLE block: accumulator 0 ends at what it held plus the block's product. -/
theorem sout_B_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) :
    sout1_B_0 c i arg2 harg2 arg3 harg3 arg4 harg4 arg5 harg5 arg6 harg6 arg7 harg7 hc0 hc1 x0 x1 xs0 xs1 = k1_pay4 x1 x0 xs0 := by
  unfold sout1_B_0
  rw [View.read_writes_eq_canon _ _ _ (scover1_B_0 c i arg2 harg2 arg3 harg3 arg4 harg4 arg5 harg5 arg6 harg6 arg7 harg7 hc0 hc1 x0 x1 xs0 xs1)]
  unfold kernelRun1_B
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- MIDDLE block: accumulator 1 ends at what it held plus the block's count. -/
theorem sout_B_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i) (x0 : Vec F S4096x128 .f32) (x1 : Vec F S1x4096 .i32) (xs0 : Vec F S1024x128 .f32) (xs1 : Vec F S1024x1 .f32) :
    sout1_B_1 c i arg2 harg2 arg3 harg3 arg4 harg4 arg5 harg5 arg6 harg6 arg7 harg7 hc0 hc1 x0 x1 xs0 xs1 = k1_pay5 x1 x0 xs1 := by
  unfold sout1_B_1
  rw [View.read_writes_eq_canon _ _ _ (scover1_B_1 c i arg2 harg2 arg3 harg3 arg4 harg4 arg5 harg5 arg6 harg6 arg7 harg7 hc0 hc1 x0 x1 xs0 xs1)]
  unfold kernelRun1_B
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- LAST block: the accumulators as at a middle block, -/
theorem sout_C_0 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) :
    sout1_C_0 c i arg2 harg2 arg3 harg3 arg4 harg4 arg5 harg5 arg6 harg6 arg7 harg7 hc0 hc1 x0 x1 xs0 xs1 = k1_pay4 x1 x0 xs0 := by
  unfold sout1_C_0
  rw [View.read_writes_eq_canon _ _ _ (scover1_C_0 c i arg2 harg2 arg3 harg3 arg4 harg4 arg5 harg5 arg6 harg6 arg7 harg7 hc0 hc1 x0 x1 xs0 xs1)]
  unfold kernelRun1_C
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

theorem sout_C_1 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) :
    sout1_C_1 c i arg2 harg2 arg3 harg3 arg4 harg4 arg5 harg5 arg6 harg6 arg7 harg7 hc0 hc1 x0 x1 xs0 xs1 = k1_pay5 x1 x0 xs1 := by
  unfold sout1_C_1
  rw [View.read_writes_eq_canon _ _ _ (scover1_C_1 c i arg2 harg2 arg3 harg3 arg4 harg4 arg5 harg5 arg6 harg6 arg7 harg7 hc0 hc1 x0 x1 xs0 xs1)]
  unfold kernelRun1_C
  dsimp only
  sl_unfold_words
  rw [View.canon_unit_zero hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

/-- and the results' buffers at the accumulators' new contents, given the leading unit axis. -/
theorem out_C_2 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) :
    out1_C_2 c i arg2 harg2 arg3 harg3 arg4 harg4 arg5 harg5 arg6 harg6 arg7 harg7 hc0 hc1 x0 x1 xs0 xs1 = k1_pay6 (k1_pay4 x1 x0 xs0) := by
  unfold out1_C_2
  rw [View.read_writes_eq_canon _ _ _ (cover1_C_2 c i arg2 harg2 arg3 harg3 arg4 harg4 arg5 harg5 arg6 harg6 arg7 harg7 hc0 hc1 x0 x1 xs0 xs1)]
  unfold kernelRun1_C
  dsimp only
  sl_unfold_words
  rw [View.canon_unit_zero hz3, View.readCov_unit_zero (S := S1024x128) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

theorem out_C_3 (c : Dev nD) (i : grid1.Coords) (arg2 : Memref sig .tc .vmem S4096x128 .f32) (harg2 : arg2.IsWhole) (arg3 : Memref sig .tc .vmem S1x4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i) (x0 : Vec F S4096x128 .f32) (x1 : Vec F S1x4096 .i32) (xs0 : Vec F S1024x128 .f32) (xs1 : Vec F S1024x1 .f32) :
    out1_C_3 c i arg2 harg2 arg3 harg3 arg4 harg4 arg5 harg5 arg6 harg6 arg7 harg7 hc0 hc1 x0 x1 xs0 xs1 = k1_pay7 (k1_pay5 x1 x0 xs1) := by
  unfold out1_C_3
  rw [View.read_writes_eq_canon _ _ _ (cover1_C_3 c i arg2 harg2 arg3 harg3 arg4 harg4 arg5 harg5 arg6 harg6 arg7 harg7 hc0 hc1 x0 x1 xs0 xs1)]
  unfold kernelRun1_C
  dsimp only
  sl_unfold_words
  rw [View.canon_unit_zero hz3, View.readCov_unit_zero (S := S1024x1) _ hz2]
  simp only [View.readAt_eq_ld, harg2.read_unread, harg3.read_unread, harg6.read_unread, harg7.read_unread,
    View.ld_unit_zero (S := S4096x128) hz2, View.ld_unit_zero (S := S1x4096) hz2, View.ld_unit_zero (S := S1024x128) hz2,
    View.ld_unit_zero (S := S1024x1) hz2]

end Pieces

variable (V : (c : Dev nD) → (b : Ref sig .tc) → Buf (Elt Ideal) ((c : Thread nD τ).loc b)) (c : Dev nD)

/-! ## A window's block read at an index -/

/-- The grid is walked row-major: at point t the row-block windows sit at block t. -/
theorem index0_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem index0_1 : ∀ t : Fin cfg1.N, win1_1.index t (0 : Fin 2) = 0 ∧ win1_1.index t (1 : Fin 2) = t.val :=
  (by decide +kernel : ∀ t : Fin grid1.N, win1_1.index t (0 : Fin 2) = 0 ∧ win1_1.index t (1 : Fin 2) = t.val)

/-- The padded row that row k of point t's block is. -/
def rowAt (t : Fin cfg1.N) (k : Fin 4096) : Fin 106496 :=
  ⟨t.val * 4096 + k.val, by have := lt_of_lt_of_eq t.isLt (show cfg1.N = 26 from N_1); have := k.isLt; omega⟩

/-- The rows' block at point t, entry (k, j), is the padded array's entry (t·4096 + k, j). -/
theorem iblk1_0_apply (t : Fin cfg1.N) (k : Fin 4096) (j : Fin 128) :
    iblk1 V c 0 t (ix2 k j) = V c main_v15 (ix2 (rowAt t k) j) := by
  unfold iblk1
  rw [View.read_apply]
  show V c main_v15 _ = V c main_v15 _
  congr 1
  funext a
  apply Fin.ext
  match a with
  | ⟨0, _⟩ => show win1_0.index t 0 * 4096 + 1 * k.val = t.val * 4096 + k.val; rw [(index0_0 t).1]; omega
  | ⟨1, _⟩ => show win1_0.index t 1 * 128 + 1 * j.val = j.val; rw [(index0_0 t).2]; omega

/-- The segment words' block at point t, entry (0, k), is the padded words' entry (0, t·4096 + k). -/
theorem iblk1_1_apply (t : Fin cfg1.N) (k : Fin 4096) :
    iblk1 V c 1 t (ix2 0 k) = V c main_v17 (ix2 0 (rowAt t k)) := by
  unfold iblk1
  rw [View.read_apply]
  show V c main_v17 _ = V c main_v17 _
  congr 1
  funext a
  apply Fin.ext
  match a with
  | ⟨0, _⟩ => show win1_1.index t 0 * 1 + 1 * 0 = 0; rw [(index0_1 t).1]
  | ⟨1, _⟩ => show win1_1.index t 1 * 4096 + 1 * k.val = t.val * 4096 + k.val; rw [(index0_1 t).2]; omega

/-! ## The accumulation, point by point -/

/-- Point t's contribution to accumulator 0 at (g, j): its 4096 rows' one-hot coefficients times their column j. -/
def blk0 (t : Fin cfg1.N) (g : Fin 1024) (j : Fin 128) : EReal :=
  ∑ k : Fin 4096, Cert.Spec.hot g (V c main_v17 (ix2 0 (rowAt t k))) * V c main_v15 (ix2 (rowAt t k) j)

/-- Point t's contribution to accumulator 1 at g: its rows' one-hot coefficients times the word for 1. -/
def blk1 (t : Fin cfg1.N) (g : Fin 1024) : EReal :=
  ∑ k : Fin 4096, Cert.Spec.hot g (V c main_v17 (ix2 0 (rowAt t k))) * Ideal.ofBits .f32 0x3F800000#32

/-- The block's product as the payload spells it is the point's contribution. -/
theorem prod0_eq (t : Fin cfg1.N) (g : Fin 1024) (j : Fin 128) :
    (∑ k : Fin 4096, Cert.Spec.hot g (iblk1 V c 1 t (ix2 0 k)) * iblk1 V c 0 t (ix2 k j)) = blk0 V c t g j := by
  unfold blk0
  refine Finset.sum_congr rfl fun k _ => ?_
  rw [iblk1_0_apply, iblk1_1_apply]

theorem prod1_eq (t : Fin cfg1.N) (g : Fin 1024) :
    (∑ k : Fin 4096, Cert.Spec.hot g (iblk1 V c 1 t (ix2 0 k)) * Ideal.ofBits .f32 0x3F800000#32) = blk1 V c t g := by
  unfold blk1
  refine Finset.sum_congr rfl fun k _ => ?_
  rw [iblk1_1_apply]

/-- At the FIRST block of a slot accumulator 0 ends at the block's contribution, -/
theorem accA_first (t : Fin cfg1.N) (h0 : t.val % 13 = 0) (g : Fin 1024) (j : Fin 128) :
    (outsAt1 V c t.val t.isLt).2.2.1 (ix2 g j) = blk0 V c t g j := by
  have h1 : ¬t.val % 13 = 12 := by omega
  rw [outsAt1_A V c t h0 h1]
  dsimp only
  rw [sout_A_0, Cert.KernelIdeal.PayVal.pay4_apply', Cert.KernelIdeal.PayVal.pay1_apply', zero_add, prod0_eq]

/-- and at every LATER block at what the position before left plus the block's contribution. -/
theorem accA_later (t : Fin cfg1.N) (h0 : ¬t.val % 13 = 0) (g : Fin 1024) (j : Fin 128) :
    (outsAt1 V c t.val t.isLt).2.2.1 (ix2 g j)
      = (outsAt1 V c (t.val - 1) (Nat.lt_of_le_of_lt (Nat.sub_le _ _) t.isLt)).2.2.1 (ix2 g j) + blk0 V c t g j := by
  by_cases h1 : t.val % 13 = 12
  · rw [outsAt1_C V c t h0 h1]
    dsimp only
    rw [sout_C_0, Cert.KernelIdeal.PayVal.pay4_apply', prod0_eq]
  · rw [outsAt1_B V c t h0 h1]
    dsimp only
    rw [sout_B_0, Cert.KernelIdeal.PayVal.pay4_apply', prod0_eq]

/-- The same for accumulator 1. -/
theorem accB_first (t : Fin cfg1.N) (h0 : t.val % 13 = 0) (g : Fin 1024) :
    (outsAt1 V c t.val t.isLt).2.2.2 (ix2 g 0) = blk1 V c t g := by
  have h1 : ¬t.val % 13 = 12 := by omega
  rw [outsAt1_A V c t h0 h1]
  dsimp only
  rw [sout_A_1, Cert.KernelIdeal.PayVal.pay5_apply', Cert.KernelIdeal.PayVal.pay2_apply', zero_add, prod1_eq]

theorem accB_later (t : Fin cfg1.N) (h0 : ¬t.val % 13 = 0) (g : Fin 1024) :
    (outsAt1 V c t.val t.isLt).2.2.2 (ix2 g 0)
      = (outsAt1 V c (t.val - 1) (Nat.lt_of_le_of_lt (Nat.sub_le _ _) t.isLt)).2.2.2 (ix2 g 0) + blk1 V c t g := by
  by_cases h1 : t.val % 13 = 12
  · rw [outsAt1_C V c t h0 h1]
    dsimp only
    rw [sout_C_1, Cert.KernelIdeal.PayVal.pay5_apply', prod1_eq]
  · rw [outsAt1_B V c t h0 h1]
    dsimp only
    rw [sout_B_1, Cert.KernelIdeal.PayVal.pay5_apply', prod1_eq]

/-! ## The accumulators after a position, in closed form -/

/-- The contribution of the natural position p to accumulator 0 (nothing past the grid). -/
def B0 (g : Fin 1024) (j : Fin 128) (p : ℕ) : EReal := if h : p < cfg1.N then blk0 V c ⟨p, h⟩ g j else 0
/-- The contribution of the natural position p to accumulator 1. -/
def B1 (g : Fin 1024) (p : ℕ) : EReal := if h : p < cfg1.N then blk1 V c ⟨p, h⟩ g else 0

/-- After position n accumulator 0 holds the contributions of n's slot from its first block up to n. -/
theorem accA_closed (g : Fin 1024) (j : Fin 128) (n : ℕ) : ∀ (hn : n < cfg1.N),
    (outsAt1 V c n hn).2.2.1 (ix2 g j) = ∑ m ∈ Finset.range (n % 13 + 1), B0 V c g j (n - n % 13 + m) := by
  induction n using Nat.strong_induction_on with
  | _ n ih =>
    intro hn
    by_cases h0 : n % 13 = 0
    · refine (accA_first V c ⟨n, hn⟩ h0 g j).trans ?_
      rw [h0, Finset.sum_range_one, Nat.sub_zero, Nat.add_zero]
      unfold B0
      rw [dif_pos hn]
    · refine (accA_later V c ⟨n, hn⟩ h0 g j).trans ?_
      have hn1 : n - 1 < cfg1.N := Nat.lt_of_le_of_lt (Nat.sub_le _ _) hn
      have e1 : (n - 1) % 13 + 1 = n % 13 := by omega
      have e2 : n - 1 - (n - 1) % 13 = n - n % 13 := by omega
      have e3 : n - n % 13 + n % 13 = n := by omega
      have hprev := ih (n - 1) (by omega) hn1
      rw [e1, e2] at hprev
      rw [Finset.sum_range_succ, e3]
      refine congrArg₂ (· + ·) hprev ?_
      unfold B0
      rw [dif_pos hn]

/-- The same for accumulator 1. -/
theorem accB_closed (g : Fin 1024) (n : ℕ) : ∀ (hn : n < cfg1.N),
    (outsAt1 V c n hn).2.2.2 (ix2 g 0) = ∑ m ∈ Finset.range (n % 13 + 1), B1 V c g (n - n % 13 + m) := by
  induction n using Nat.strong_induction_on with
  | _ n ih =>
    intro hn
    by_cases h0 : n % 13 = 0
    · refine (accB_first V c ⟨n, hn⟩ h0 g).trans ?_
      rw [h0, Finset.sum_range_one, Nat.sub_zero, Nat.add_zero]
      unfold B1
      rw [dif_pos hn]
    · refine (accB_later V c ⟨n, hn⟩ h0 g).trans ?_
      have hn1 : n - 1 < cfg1.N := Nat.lt_of_le_of_lt (Nat.sub_le _ _) hn
      have e1 : (n - 1) % 13 + 1 = n % 13 := by omega
      have e2 : n - 1 - (n - 1) % 13 = n - n % 13 := by omega
      have e3 : n - n % 13 + n % 13 = n := by omega
      have hprev := ih (n - 1) (by omega) hn1
      rw [e1, e2] at hprev
      rw [Finset.sum_range_succ, e3]
      refine congrArg₂ (· + ·) hprev ?_
      unfold B1
      rw [dif_pos hn]

/-- The padded row that slot a, block b, row k of the block works on. -/
def row0 (a : Fin 2) (b : Fin 13) (k : Fin 4096) : Fin 106496 := ⟨(a.val * 13 + b.val) * 4096 + k.val, by have := a.isLt; have := b.isLt; have := k.isLt; omega⟩

/-- The last position of slot a. -/
def lastOf (a : Fin 2) : Fin cfg1.N := ⟨a.val * 13 + 12, by rw [show cfg1.N = 26 from N_1]; have := a.isLt; omega⟩

/-- After a slot's last position accumulator 0 holds the slot's 13 blocks' contributions. -/
theorem accA_last (a : Fin 2) (g : Fin 1024) (j : Fin 128) :
    (outsAt1 V c (lastOf a).val (lastOf a).isLt).2.2.1 (ix2 g j)
      = ∑ b : Fin 13, ∑ k : Fin 4096, Cert.Spec.hot g (V c main_v17 (ix2 0 (row0 a b k))) * V c main_v15 (ix2 (row0 a b k) j) := by
  have hN : cfg1.N = 26 := N_1
  have ha := a.isLt
  rw [accA_closed V c g j (lastOf a).val (lastOf a).isLt]
  have e1 : (lastOf a).val % 13 + 1 = 13 := by show (a.val * 13 + 12) % 13 + 1 = 13; omega
  have e2 : (lastOf a).val - (lastOf a).val % 13 = a.val * 13 := by show a.val * 13 + 12 - (a.val * 13 + 12) % 13 = a.val * 13; omega
  rw [e1, e2, Finset.sum_range]
  refine Finset.sum_congr rfl fun b _ => ?_
  have hb : a.val * 13 + b.val < cfg1.N := by have := b.isLt; omega
  unfold B0
  rw [dif_pos hb]
  rfl

/-- and accumulator 1 the slot's 13 blocks' counts. -/
theorem accB_last (a : Fin 2) (g : Fin 1024) :
    (outsAt1 V c (lastOf a).val (lastOf a).isLt).2.2.2 (ix2 g 0)
      = ∑ b : Fin 13, ∑ k : Fin 4096, Cert.Spec.hot g (V c main_v17 (ix2 0 (row0 a b k))) * Ideal.ofBits .f32 0x3F800000#32 := by
  have hN : cfg1.N = 26 := N_1
  have ha := a.isLt
  rw [accB_closed V c g (lastOf a).val (lastOf a).isLt]
  have e1 : (lastOf a).val % 13 + 1 = 13 := by show (a.val * 13 + 12) % 13 + 1 = 13; omega
  have e2 : (lastOf a).val - (lastOf a).val % 13 = a.val * 13 := by show a.val * 13 + 12 - (a.val * 13 + 12) % 13 = a.val * 13; omega
  rw [e1, e2, Finset.sum_range]
  refine Finset.sum_congr rfl fun b _ => ?_
  have hb : a.val * 13 + b.val < cfg1.N := by have := b.isLt; omega
  unfold B1
  rw [dif_pos hb]
  rfl

/-! ## The result arrays after the run -/

/-- At point t the results' windows sit at block (t / 13, 0, 0): the slot's. -/
theorem index0_2 : ∀ t : Fin cfg1.N, win1_2.index t (0 : Fin 3) = t.val / 13 ∧ win1_2.index t (1 : Fin 3) = 0 ∧ win1_2.index t (2 : Fin 3) = 0 :=
  (by decide +kernel : ∀ t : Fin grid1.N, win1_2.index t (0 : Fin 3) = t.val / 13 ∧ win1_2.index t (1 : Fin 3) = 0 ∧ win1_2.index t (2 : Fin 3) = 0)
theorem index0_3 : ∀ t : Fin cfg1.N, win1_3.index t (0 : Fin 3) = t.val / 13 ∧ win1_3.index t (1 : Fin 3) = 0 ∧ win1_3.index t (2 : Fin 3) = 0 :=
  (by decide +kernel : ∀ t : Fin grid1.N, win1_3.index t (0 : Fin 3) = t.val / 13 ∧ win1_3.index t (1 : Fin 3) = 0 ∧ win1_3.index t (2 : Fin 3) = 0)

/-- The blocks two different writing-back points write are disjoint: the points are the last of different slots, and
    the blocks are separated on the slot axis. -/
theorem hdisj0_2 (t t' : Fin cfg1.N) (hf : (cfg1.win 2).flush t = true) (hf' : (cfg1.win 2).flush t' = true) (hne : t ≠ t') :
    Disjoint ((cfg1.win 2).blk t).view.set ((cfg1.win 2).blk t').view.set := by
  have h61 := (flush1_2 t).mp hf
  have h61' := (flush1_2 t').mp hf'
  have hv : t.val ≠ t'.val := fun e => hne (Fin.ext e)
  show Disjoint ((View.whole main_v12_0).slice (win1_2.rect t)).set ((View.whole main_v12_0).slice (win1_2.rect t')).set
  rw [View.set_slice_whole, View.set_slice_whole]
  refine Rect.unit_disjoint (0 : Fin 3) ?_
  show win1_2.index t 0 * 1 + 1 ≤ win1_2.index t' 0 * 1 ∨ win1_2.index t' 0 * 1 + 1 ≤ win1_2.index t 0 * 1
  rw [(index0_2 t).1, (index0_2 t').1]
  omega

theorem hdisj0_3 (t t' : Fin cfg1.N) (hf : (cfg1.win 3).flush t = true) (hf' : (cfg1.win 3).flush t' = true) (hne : t ≠ t') :
    Disjoint ((cfg1.win 3).blk t).view.set ((cfg1.win 3).blk t').view.set := by
  have h61 := (flush1_3 t).mp hf
  have h61' := (flush1_3 t').mp hf'
  have hv : t.val ≠ t'.val := fun e => hne (Fin.ext e)
  show Disjoint ((View.whole main_v12_1).slice (win1_3.rect t)).set ((View.whole main_v12_1).slice (win1_3.rect t')).set
  rw [View.set_slice_whole, View.set_slice_whole]
  refine Rect.unit_disjoint (0 : Fin 3) ?_
  show win1_3.index t 0 * 1 + 1 ≤ win1_3.index t' 0 * 1 ∨ win1_3.index t' 0 * 1 + 1 ≤ win1_3.index t 0 * 1
  rw [(index0_3 t).1, (index0_3 t').1]
  omega

/-- At a slot's last position result buffer 2 holds accumulator 0 under a leading unit axis, -/
theorem out2_last (t : Fin cfg1.N) (h1 : t.val % 13 = 12) (g : Fin 1024) (j : Fin 128) :
    (outsAt1 V c t.val t.isLt).1 (ix3 0 g j) = (outsAt1 V c t.val t.isLt).2.2.1 (ix2 g j) := by
  have h0 : ¬t.val % 13 = 0 := by omega
  rw [outsAt1_C V c t h0 h1]
  dsimp only
  rw [out_C_2, sout_C_0, Cert.KernelIdeal.PayVal.pay6_apply']

/-- and result buffer 3 accumulator 1. -/
theorem out3_last (t : Fin cfg1.N) (h1 : t.val % 13 = 12) (g : Fin 1024) :
    (outsAt1 V c t.val t.isLt).2.1 (ix3 0 g 0) = (outsAt1 V c t.val t.isLt).2.2.2 (ix2 g 0) := by
  have h0 : ¬t.val % 13 = 0 := by omega
  rw [outsAt1_C V c t h0 h1]
  dsimp only
  rw [out_C_3, sout_C_1, Cert.KernelIdeal.PayVal.pay7_apply']

theorem lastOf_mod (a : Fin 2) : (lastOf a).val % 13 = 12 := by
  show (a.val * 13 + 12) % 13 = 12
  omega

/-- RESULT ARRAY 2 AFTER THE RUN: slot a's entry (g, j) is the sum over the slot's blocks and their rows of the
    one-hot coefficient of g at the row times the row's column j. -/
theorem accA_final (a : Fin 2) (g : Fin 1024) (j : Fin 128) :
    (dat1 (F := Ideal) V c).arrAt 2 cfg1.N (ix3 a g j)
      = ∑ b : Fin 13, ∑ k : Fin 4096, Cert.Spec.hot g (V c main_v17 (ix2 0 (row0 a b k))) * V c main_v15 (ix2 (row0 a b k) j) := by
  have ha := a.isLt
  have hf : (cfg1.win 2).flush (lastOf a) = true := (flush1_2 (lastOf a)).mpr (lastOf_mod a)
  have hemb : ((cfg1.win 2).blk (lastOf a)).view.emb (ix3 (0 : Fin 1) g j) = ix3 a g j := by
    funext ax
    apply Fin.ext
    match ax with
    | ⟨0, _⟩ =>
      show win1_2.index (lastOf a) 0 * 1 + 1 * 0 = a.val
      rw [(index0_2 (lastOf a)).1]
      show (a.val * 13 + 12) / 13 * 1 + 1 * 0 = a.val
      omega
    | ⟨1, _⟩ => show win1_2.index (lastOf a) 1 * 1024 + 1 * g.val = g.val; rw [(index0_2 (lastOf a)).2.1]; omega
    | ⟨2, _⟩ => show win1_2.index (lastOf a) 2 * 128 + 1 * j.val = j.val; rw [(index0_2 (lastOf a)).2.2]; omega
  have key := (dat1 (F := Ideal) V c).arrAt_emb_eq_flushed 2 (hdisj0_2) (lastOf a) hf (ix3 (0 : Fin 1) g j)
  rw [hemb] at key
  refine key.trans ?_
  show (dat1 (F := Ideal) V c).after 2 (lastOf a) (ix3 (0 : Fin 1) g j) = _
  rw [after1_2, out2_last V c (lastOf a) (lastOf_mod a) g j, accA_last]

/-- RESULT ARRAY 3 AFTER THE RUN: slot a's entry (g, 0) is the same sum with the word for 1 in place of the row's entry. -/
theorem cnt0_final (a : Fin 2) (g : Fin 1024) :
    (dat1 (F := Ideal) V c).arrAt 3 cfg1.N (ix3 a g 0)
      = ∑ b : Fin 13, ∑ k : Fin 4096, Cert.Spec.hot g (V c main_v17 (ix2 0 (row0 a b k))) * Ideal.ofBits .f32 0x3F800000#32 := by
  have ha := a.isLt
  have hf : (cfg1.win 3).flush (lastOf a) = true := (flush1_3 (lastOf a)).mpr (lastOf_mod a)
  have hemb : ((cfg1.win 3).blk (lastOf a)).view.emb (ix3 (0 : Fin 1) g (0 : Fin 1)) = ix3 a g (0 : Fin 1) := by
    funext ax
    apply Fin.ext
    match ax with
    | ⟨0, _⟩ =>
      show win1_3.index (lastOf a) 0 * 1 + 1 * 0 = a.val
      rw [(index0_3 (lastOf a)).1]
      show (a.val * 13 + 12) / 13 * 1 + 1 * 0 = a.val
      omega
    | ⟨1, _⟩ => show win1_3.index (lastOf a) 1 * 1024 + 1 * g.val = g.val; rw [(index0_3 (lastOf a)).2.1]; omega
    | ⟨2, _⟩ => show win1_3.index (lastOf a) 2 * 1 + 1 * 0 = 0; rw [(index0_3 (lastOf a)).2.2]
  have key := (dat1 (F := Ideal) V c).arrAt_emb_eq_flushed 3 (hdisj0_3) (lastOf a) hf (ix3 (0 : Fin 1) g (0 : Fin 1))
  rw [hemb] at key
  refine key.trans ?_
  show (dat1 (F := Ideal) V c).after 3 (lastOf a) (ix3 (0 : Fin 1) g (0 : Fin 1)) = _
  rw [after1_3, out3_last V c (lastOf a) (lastOf_mod a) g, accB_last]

end Cert.KernelIdeal.Seg1

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
import Idealize.ShloMosaic.PureOps.Ideal
import Idealize.ShloMosaic.PureOps.Ideal.Laws
import proofs.«416664_j53730040873193_3_alg».proof.Proof.LibRows
import Mathlib.Algebra.BigOperators.Group.Finset.Basic

noncomputable section

/-! # What both programs compute, entry by entry, on the extended reals

Per graph `g`: the sum and the count of the rows whose segment word names `g` (a word outside `[0, 1024)` names
no graph), for the edge rows and for the node rows; their quotient by `max(count, 1)`; the three blocks `u | edge mean |
node mean` through a two-layer perceptron with a rectifier, a residual, and a row normalisation with scale and shift. -/

namespace Cert.Spec

open Idealize.ShloMosaic
open scoped BigOperators

/-- The four float words both programs spell: 1, 0, 128 and the variance offset. Kept as words: the same word on both
    sides is never evaluated. -/
abbrev one32 : EReal := Ideal.ofBits .f32 0x3F800000#32
abbrev zero32 : EReal := Ideal.ofBits .f32 0x00000000#32
abbrev c128 : EReal := Ideal.ofBits .f32 0x43000000#32
abbrev eps32 : EReal := Ideal.ofBits .f32 0x3727C5AC#32

/-- Column `j` summed over the rows whose segment word names graph `g`. -/
def segSum {M0 : Nat} (seg : Fin M0 → BitVec 32) (v : Fin M0 → Fin 128 → EReal) (g : Fin 1024) (j : Fin 128) : EReal :=
  ∑ q ∈ Finset.univ.filter (fun q : Fin M0 => Cert.LibRows.RowHit 1024 (seg q) g), v q j

/-- The number of rows whose segment word names graph `g`, each counted as the word for 1. -/
def segCnt {M0 : Nat} (seg : Fin M0 → BitVec 32) (g : Fin 1024) : EReal :=
  ∑ q ∈ Finset.univ.filter (fun q : Fin M0 => Cert.LibRows.RowHit 1024 (seg q) g), one32

/-- A segment's mean: its sum over its count, the count raised to at least 1. -/
def mean (s c : EReal) : EReal := Ideal.div s (max c one32)

/-- The three blocks side by side: columns 0–127 `u`, 128–255 the edge means, 256–383 the node means. -/
def cat (u em nm : Fin 1024 → Fin 128 → EReal) (i : Fin 1024) (k : Fin 384) : EReal :=
  if h : k.val < 128 then u i ⟨k.val, h⟩
  else if h2 : k.val < 256 then em i ⟨k.val - 128, by omega⟩
  else nm i ⟨k.val - 256, by omega⟩

/-- The hidden layer: the rectified affine image of a row. -/
def hid (x : Fin 1024 → Fin 384 → EReal) (W1 : Fin 384 → Fin 512 → EReal) (b1 : Fin 512 → EReal) (i : Fin 1024) (l : Fin 512) : EReal :=
  max ((∑ k : Fin 384, x i k * W1 k l) + b1 l) zero32

/-- The second affine layer plus the residual. -/
def res (h : Fin 1024 → Fin 512 → EReal) (W2 : Fin 512 → Fin 128 → EReal) (b2 : Fin 128 → EReal) (u : Fin 1024 → Fin 128 → EReal)
    (i : Fin 1024) (j : Fin 128) : EReal :=
  ((∑ l : Fin 512, h i l * W2 l j) + b2 j) + u i j

/-- A row's mean over its 128 columns. -/
def rowMean (r : Fin 1024 → Fin 128 → EReal) (i : Fin 1024) : EReal := Ideal.div (∑ j : Fin 128, r i j) c128

/-- A row's mean squared deviation. -/
def rowVar (r : Fin 1024 → Fin 128 → EReal) (i : Fin 1024) : EReal :=
  Ideal.div (∑ j : Fin 128, (r i j - rowMean r i) * (r i j - rowMean r i)) c128

/-- The row normalisation with scale `γ` and shift `β`. -/
def lnorm (r : Fin 1024 → Fin 128 → EReal) (γ β : Fin 128 → EReal) (i : Fin 1024) (j : Fin 128) : EReal :=
  (r i j - rowMean r i) * Ideal.rsqrt (rowVar r i + eps32) * γ j + β j

/-- Everything after the four segment arrays. -/
def tail (u es ns : Fin 1024 → Fin 128 → EReal) (ec nc : Fin 1024 → EReal)
    (W1 : Fin 384 → Fin 512 → EReal) (b1 : Fin 512 → EReal) (W2 : Fin 512 → Fin 128 → EReal) (b2 γ β : Fin 128 → EReal) :
    Fin 1024 → Fin 128 → EReal :=
  lnorm (res (hid (cat u (fun i k => mean (es i k) (ec i)) (fun i k => mean (ns i k) (nc i))) W1 b1) W2 b2 u) γ β

/-- The whole result from the inputs: `segE` the per-edge segment words, `segN` the per-node ones. -/
def out (segE : Fin 500000 → BitVec 32) (segN : Fin 100000 → BitVec 32) (edge : Fin 500000 → Fin 128 → EReal)
    (x : Fin 100000 → Fin 128 → EReal) (u : Fin 1024 → Fin 128 → EReal)
    (W1 : Fin 384 → Fin 512 → EReal) (b1 : Fin 512 → EReal) (W2 : Fin 512 → Fin 128 → EReal) (b2 γ β : Fin 128 → EReal) :
    Fin 1024 → Fin 128 → EReal :=
  tail u (segSum segE edge) (segSum segN x) (segCnt segE) (segCnt segN) W1 b1 W2 b2 γ β

end Cert.Spec

end
-- ==== Proof.KiTailVal.lean ====
/-
  The third kernel's stored value, entry by entry, on the extended reals.

  The kernel divides the edge sums and the node sums by their counts raised to at least 1, sets the block `u` and the two
  quotients side by side as a row of 384 columns, takes the rectified affine image of that row (384 → 512), the affine image
  of the result (512 → 128), adds `u`, and normalises each row of 128 columns: subtract the row mean, multiply by the
  reciprocal square root of the mean squared deviation plus the offset, scale by `γ` and shift by `β`. At the ideal
  values a change of float format is the identity, a matrix product onto a zero accumulator is at `(i, j)` the sum over
  `k` of `l (i, k) · r (k, j)`, and a sum over the last axis is at row `i` the sum over the columns. So the stored
  value at `(i, j)` is `Cert.Spec.tail` of the eleven loaded blocks at `(i, j)`.

  Each operation that is not pointwise has one lemma at explicit coordinates: the row sum kept as a column, a column
  broadcast along a row, a one-row block broadcast down the rows, the two products, the quotient by the raised count,
  and the three blocks side by side. `pay1_apply` reads the normalisation of any `[1024, 128]` block plus `u`;
  `pay2_apply` reads the two layers; `tail_eq_spec` puts them together.
-/
import proofs.«416664_j53730040873193_3_alg».proof.Proof.Gen.KernelIdeal.Skeleton
import proofs.«416664_j53730040873193_3_alg».proof.Proof.Spec
import proofs.«416664_j53730040873193_3_alg».proof.Proof.LibColumn
import proofs.«416664_j53730040873193_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Basic

noncomputable section

namespace Cert.KernelIdeal.TailVal

open Idealize.ShloMosaic Idealize.ShloMosaic.ValueIdx Cert.KernelIdeal Cert.KernelIdeal.Gen
open scoped BigOperators

/-! ## The operations that are not pointwise, each at explicit coordinates -/

/-- The sum over the 128 columns of a `[1024, 128]` block, kept as a `[1024, 1]` column, reads at `(i, 0)` the sum over
    `j` of the block at `(i, j)`. -/
theorem rowSum_apply (x : FVec Ideal S1024x128 .f32) (i : Fin 1024) :
    shapeCast S1024x1 (multiReduction (F := Ideal) .add [1] S1024 x 0x00000000#32 reduces_S1024x128_S1024 (.inl rfl) rfl)
        shapeCasts_S1024_S1024x1 (ix2 i (0 : Fin 1))
      = ∑ j : Fin 128, x (ix2 i j) := by
  refine (Column.shapeCast_a_a1_apply _ shapeCasts_S1024_S1024x1 i 0).trans ?_
  refine (Ideal.multiReduction_add_single x _ reduces_S1024x128_S1024 _ _ (ix1 i)).trans ?_
  refine Finset.sum_congr rfl fun j _ => congrArg x ?_
  funext a
  match a with
  | ⟨0, _⟩ => rfl
  | ⟨1, _⟩ => rfl

/-- A `[1024, 1]` column broadcast to `[1024, 128]` reads at `(i, j)` the column at `(i, 0)`. -/
theorem col_apply (c : FVec Ideal S1024x1 .f32) (i : Fin 1024) (j : Fin 128) :
    broadcastTo S1024x128 c broadcasts_S1024x1_S1024x128 (ix2 i j) = c (ix2 i (0 : Fin 1)) :=
  Column.broadcastTo_a1_ab_apply c broadcasts_S1024x1_S1024x128 i j

/-- A `[1, 128]` block broadcast to `[1024, 128]` reads at `(i, j)` the block at `(0, j)`. -/
theorem row128_apply (v : Vec Ideal S1x128 .f32) (i : Fin 1024) (j : Fin 128) :
    broadcastTo S1024x128 (shapeCast S1x128 v shapeCasts_S1x128_S1x128) broadcasts_S1x128_S1024x128 (ix2 i j)
      = v (ix2 (0 : Fin 1) j) := by
  rw [shapeCast_self]
  exact broadcastTo_1b_ab_apply v broadcasts_S1x128_S1024x128 i j

/-- A reciprocal square root at an index is the reciprocal square root of the element. -/
theorem rsqrt_apply {s : Shape} {φ : FTy} (a : FVec Ideal s φ) (i : s.Idx) : rsqrt a i = Ideal.rsqrt (a i) := rfl

/-! ## The row normalisation -/

/-- The stored value over ANY `[1024, 128]` block `v35` in place of the second layer: at `(i, j)` it is the row
    normalisation, with scale `v55` and shift `v59`, of the entrywise sum `v35 + v0`. -/
theorem pay1_apply (v0 : Vec Ideal S1024x128 .f32) (v35 : FVec Ideal S1024x128 .f32) (v55 v59 : Vec Ideal S1x128 .f32)
    (i : Fin 1024) (j : Fin 128) :
    k2_pay1 (F := Ideal) v0 v35 v55 v59 (ix2 i j)
      = Cert.Spec.lnorm (fun a b => v35 (ix2 a b) + v0 (ix2 a b)) (fun k => v55 (ix2 0 k)) (fun k => v59 (ix2 0 k)) i j := by
  unfold k2_pay1 Cert.Spec.lnorm Cert.Spec.rowVar Cert.Spec.rowMean
  simp only [addf_apply, mulf_apply, subf_apply, divf_apply, rsqrt_apply, broadcast_apply, col_apply]
  rw [row128_apply, row128_apply, rowSum_apply, rowSum_apply]
  simp only [addf_apply, mulf_apply, subf_apply, divf_apply, broadcast_apply, col_apply]
  rw [rowSum_apply]
  rfl

/-- A `[1, 512]` block broadcast to `[1024, 512]` reads at `(i, l)` the block at `(0, l)`. -/
theorem row512_apply (v : Vec Ideal S1x512 .f32) (i : Fin 1024) (l : Fin 512) :
    broadcastTo S1024x512 (shapeCast S1x512 v shapeCasts_S1x512_S1x512) broadcasts_S1x512_S1024x512 (ix2 i l)
      = v (ix2 (0 : Fin 1) l) := by
  rw [shapeCast_self]
  exact broadcastTo_1b_ab_apply v broadcasts_S1x512_S1024x512 i l

/-- The `[1024, 384] · [384, 512]` product onto zero reads at `(i, j)` the sum over `k < 384` of `l (i, k) · r (k, j)`:
    its dimension numbers are the plain ones. -/
theorem mm1_apply (l : FVec Ideal S1024x384 .bf16) (r : FVec Ideal S384x512 .bf16) (i : Fin 1024) (j : Fin 512) :
    matmul dot_S1024x384_S384x512_S1024x512_1_0_0_1_n_n none l r (constant (F := Ideal) S1024x512 .f32 0x00000000#32) (ix2 i j)
      = ∑ k : Fin 384, l (ix2 i k) * r (ix2 k j) :=
  PlainDot.matmul_zero_apply none l r i j

/-- The `[1024, 512] · [512, 128]` product onto zero reads at `(i, j)` the sum over `k < 512` of `l (i, k) · r (k, j)`. -/
theorem mm2_apply (l : FVec Ideal S1024x512 .bf16) (r : FVec Ideal S512x128 .bf16) (i : Fin 1024) (j : Fin 128) :
    matmul dot_S1024x512_S512x128_S1024x128_1_0_0_1_n_n none l r (constant (F := Ideal) S1024x128 .f32 0x00000000#32) (ix2 i j)
      = ∑ k : Fin 512, l (ix2 i k) * r (ix2 k j) :=
  PlainDot.matmul_zero_apply none l r i j

/-- A block of sums divided by its column of counts raised to at least 1 reads at `(i, k)` the specification's mean of
    the sum at `(i, k)` and the count at `(i, 0)`. -/
theorem mean_apply (s : Vec Ideal S1024x128 .f32) (c : Vec Ideal S1024x1 .f32) (i : Fin 1024) (k : Fin 128) :
    divf (F := Ideal) (shapeCast S1024x128 s shapeCasts_S1024x128_S1024x128)
        (broadcastTo S1024x128 (maximumf (shapeCast S1024x1 c shapeCasts_S1024x1_S1024x1)
          (broadcast S1024x1 (Scalar.ofBits (F := Ideal) .f32 0x3F800000#32))) broadcasts_S1024x1_S1024x128) (ix2 i k)
      = Cert.Spec.mean (s (ix2 i k)) (c (ix2 i (0 : Fin 1))) := by
  rw [shapeCast_self, shapeCast_self]
  refine (divf_apply _ _ _).trans ?_
  rw [col_apply]
  rfl

/-- Three `[1024, 128]` blocks set side by side read at `(i, k)`, `k < 384`, the specification's `cat`: the first block
    for `k < 128`, the second at `k - 128` for `k < 256`, else the third at `k - 256`. -/
theorem cat_apply (a b c : FVec Ideal S1024x128 .f32) (i : Fin 1024) (k : Fin 384) :
    concatenate S1024x384 1 [⟨S1024x128, a⟩, ⟨S1024x128, b⟩, ⟨S1024x128, c⟩]
        concatenates_S1024x128_S1024x128_S1024x128_S1024x384_d1 (ix2 i k)
      = Cert.Spec.cat (fun p q => a (ix2 p q)) (fun p q => b (ix2 p q)) (fun p q => c (ix2 p q)) i k := by
  unfold Cert.Spec.cat
  by_cases h1 : k.val < 128
  · rw [dif_pos h1]
    exact concatenate_apply_piece (α := Ideal .f32) 1 [⟨S1024x128, a⟩, ⟨S1024x128, b⟩, ⟨S1024x128, c⟩] concatenates_S1024x128_S1024x128_S1024x128_S1024x384_d1 (ix2 i k) 0 (show (0 : Nat) < 3 by decide) S1024x128 a rfl rfl 0 rfl (ix2 i ⟨k.val, h1⟩)
      (fun ax hax => match ax, hax with
        | ⟨0, _⟩, _ => rfl
        | ⟨1, _⟩, hax => absurd rfl hax)
      (Nat.zero_add _)
  · rw [dif_neg h1]
    by_cases h2 : k.val < 256
    · rw [dif_pos h2]
      exact concatenate_apply_piece (α := Ideal .f32) 1 [⟨S1024x128, a⟩, ⟨S1024x128, b⟩, ⟨S1024x128, c⟩] concatenates_S1024x128_S1024x128_S1024x128_S1024x384_d1 (ix2 i k) 1 (show (1 : Nat) < 3 by decide) S1024x128 b rfl rfl 128 rfl
        (ix2 i ⟨k.val - 128, by omega⟩)
        (fun ax hax => match ax, hax with
          | ⟨0, _⟩, _ => rfl
          | ⟨1, _⟩, hax => absurd rfl hax)
        (by show 128 + (k.val - 128) = k.val; omega)
    · rw [dif_neg h2]
      exact concatenate_apply_piece (α := Ideal .f32) 1 [⟨S1024x128, a⟩, ⟨S1024x128, b⟩, ⟨S1024x128, c⟩] concatenates_S1024x128_S1024x128_S1024x128_S1024x384_d1 (ix2 i k) 2 (show (2 : Nat) < 3 by decide) S1024x128 c rfl rfl 256 rfl
        (ix2 i ⟨k.val - 256, by have := k.isLt; omega⟩)
        (fun ax hax => match ax, hax with
          | ⟨0, _⟩, _ => rfl
          | ⟨1, _⟩, hax => absurd rfl hax)
        (by show 256 + (k.val - 256) = k.val; omega)

/-! ## The two layers -/

/-- The second affine layer, before the residual, at an entry: the product of the hidden layer (the rectified affine image of
    the three blocks side by side) with the second weight, plus the second bias. -/
theorem pay2_apply (v0 v1 : Vec Ideal S1024x128 .f32) (v3 : Vec Ideal S1024x1 .f32) (v9 : Vec Ideal S1024x128 .f32)
    (v11 : Vec Ideal S1024x1 .f32) (v19 : Vec Ideal S384x512 .f32) (v22 : Vec Ideal S1x512 .f32) (v29 : Vec Ideal S512x128 .f32)
    (v32 : Vec Ideal S1x128 .f32) (i : Fin 1024) (j : Fin 128) :
    k2_pay2 (F := Ideal) v0 v1 v3 v9 v11 v19 v22 v29 v32 (ix2 i j)
      = (∑ l : Fin 512,
          Cert.Spec.hid
              (Cert.Spec.cat (fun a k => v0 (ix2 a k)) (fun a k => Cert.Spec.mean (v1 (ix2 a k)) (v3 (ix2 a (0 : Fin 1))))
                (fun a k => Cert.Spec.mean (v9 (ix2 a k)) (v11 (ix2 a (0 : Fin 1)))))
              (fun k l => v19 (ix2 k l)) (fun l => v22 (ix2 (0 : Fin 1) l)) i l
            * v29 (ix2 l j))
        + v32 (ix2 (0 : Fin 1) j) := by
  unfold k2_pay2
  simp only [addf_apply]
  rw [row128_apply, mm2_apply]
  refine congrArg (· + v32 (ix2 (0 : Fin 1) j)) (Finset.sum_congr rfl fun l _ => congrArg (· * v29 (ix2 l j)) ?_)
  simp only [truncf_apply, maximumf_apply, addf_apply, broadcast_apply]
  rw [row512_apply, mm1_apply]
  unfold Cert.Spec.hid
  refine congrArg (fun s => max (s + v22 (ix2 (0 : Fin 1) l)) Cert.Spec.zero32)
    (Finset.sum_congr rfl fun k _ => congrArg (· * v19 (ix2 k l)) ?_)
  simp only [truncf_apply]
  rw [cat_apply]
  refine congrArg (fun f : Fin 1024 → Fin 128 → EReal => Cert.Spec.cat (fun a k => v0 (ix2 a k)) f _ i k) (funext fun p => funext fun q => mean_apply v1 v3 p q) |>.trans ?_
  exact congrArg (fun f : Fin 1024 → Fin 128 → EReal => Cert.Spec.cat (fun a k => v0 (ix2 a k)) _ f i k) (funext fun p => funext fun q => mean_apply v9 v11 p q)

/-! ## The stored value -/

/-- The value the third kernel stores, entry by entry, is the specification's tail of the eleven loaded blocks. -/
theorem tail_eq_spec (v0 : Vec Ideal S1024x128 .f32) (v1 : Vec Ideal S1024x128 .f32) (v3 : Vec Ideal S1024x1 .f32)
    (v9 : Vec Ideal S1024x128 .f32) (v11 : Vec Ideal S1024x1 .f32)
    (v19 : Vec Ideal S384x512 .f32) (v22 : Vec Ideal S1x512 .f32) (v29 : Vec Ideal S512x128 .f32)
    (v32 v55 v59 : Vec Ideal S1x128 .f32) (i : Fin 1024) (j : Fin 128) :
    Cert.KernelIdeal.Gen.k2_pay1 (F := Ideal) v0 (Cert.KernelIdeal.Gen.k2_pay2 (F := Ideal) v0 v1 v3 v9 v11 v19 v22 v29 v32) v55 v59 (ix2 i j)
      = Cert.Spec.tail (fun a k => v0 (ix2 a k)) (fun a k => v1 (ix2 a k)) (fun a k => v9 (ix2 a k)) (fun a => v3 (ix2 a 0)) (fun a => v11 (ix2 a 0))
          (fun k l => v19 (ix2 k l)) (fun l => v22 (ix2 0 l)) (fun l k => v29 (ix2 l k)) (fun k => v32 (ix2 0 k)) (fun k => v55 (ix2 0 k)) (fun k => v59 (ix2 0 k)) i j := by
  rw [pay1_apply]
  unfold Cert.Spec.tail
  refine congrArg (fun r : Fin 1024 → Fin 128 → EReal => Cert.Spec.lnorm r (fun k => v55 (ix2 0 k)) (fun k => v59 (ix2 0 k)) i j)
    (funext fun a => funext fun b => ?_)
  rw [pay2_apply]
  rfl

end Cert.KernelIdeal.TailVal

end
-- ==== Proof.LibIdx3.lean ====
/-
  Sums over the indices of a rank-3 array, and over its row-major flattening, as triple sums over the three coordinates.
  General in the extents and in the additive commutative monoid summed in.
-/
import Idealize.ShloMosaic.Lib.ValueIdx

noncomputable section

namespace Cert.Idx3

open Idealize.ShloMosaic Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an [n0, n1, n2] array is the triple sum over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- The row-major position of entry (a, b, c) of an [n0, n1, n2] array. -/
def flat3 {n0 n1 n2 : Nat} (a : Fin n0) (b : Fin n1) (c : Fin n2) : Fin (n0 * n1 * n2) :=
  ⟨(a.val * n1 + b.val) * n2 + c.val, by
    have ha := a.isLt; have hb := b.isLt; have hc := c.isLt
    calc (a.val * n1 + b.val) * n2 + c.val < (a.val * n1 + b.val) * n2 + n2 := by omega
      _ = (a.val * n1 + b.val + 1) * n2 := by ring
      _ ≤ (n0 * n1) * n2 := by
        apply Nat.mul_le_mul_right
        calc a.val * n1 + b.val + 1 ≤ a.val * n1 + n1 := by omega
          _ = (a.val + 1) * n1 := by ring
          _ ≤ n0 * n1 := Nat.mul_le_mul_right _ (by omega)⟩

theorem flat3_val {n0 n1 n2 : Nat} (a : Fin n0) (b : Fin n1) (c : Fin n2) :
    (flat3 a b c).val = (a.val * n1 + b.val) * n2 + c.val := rfl

/-- The coordinates (a, b, c) and the flat positions correspond one to one: pairing (a, b) to a * n1 + b and then
    that with c to (a * n1 + b) * n2 + c are both the standard bijection of a product of two ranges with their product range. -/
def flatEquiv3 {n0 n1 n2 : Nat} : (Fin n0 × Fin n1) × Fin n2 ≃ Fin (n0 * n1 * n2) :=
  ((finProdFinEquiv (m := n0) (n := n1)).prodCongr (Equiv.refl (Fin n2))).trans (finProdFinEquiv (m := n0 * n1) (n := n2))

/-- That correspondence sends (a, b, c) to its row-major position. -/
theorem flatEquiv3_apply {n0 n1 n2 : Nat} (p : (Fin n0 × Fin n1) × Fin n2) :
    flatEquiv3 p = flat3 p.1.1 p.1.2 p.2 := by
  apply Fin.ext
  show p.2.val + n2 * (p.1.2.val + n1 * p.1.1.val) = (p.1.1.val * n1 + p.1.2.val) * n2 + p.2.val
  ring

/-- A sum over the flat positions of an [n0, n1, n2] array is the triple sum over its coordinates. -/
theorem sum_flat3 {M : Type*} [AddCommMonoid M] {n0 n1 n2 : Nat} (f : Fin (n0 * n1 * n2) → M) :
    ∑ q, f q = ∑ a : Fin n0, ∑ b : Fin n1, ∑ c : Fin n2, f (flat3 a b c) := by
  have h1 : ∑ a : Fin n0, ∑ b : Fin n1, ∑ c : Fin n2, f (flat3 a b c)
      = ∑ p : (Fin n0 × Fin n1) × Fin n2, f (flat3 p.1.1 p.1.2 p.2) := by
    rw [Fintype.sum_prod_type, Fintype.sum_prod_type]
  rw [h1]
  refine (Fintype.sum_equiv (flatEquiv3 (n0 := n0) (n1 := n1) (n2 := n2)) _ _ (fun p => ?_)).symm
  rw [flatEquiv3_apply]

/-- The same over a filtered set of flat positions. -/
theorem sum_filter_flat3 {M : Type*} [AddCommMonoid M] {n0 n1 n2 : Nat} (P : Fin (n0 * n1 * n2) → Prop) [DecidablePred P]
    (f : Fin (n0 * n1 * n2) → M) :
    ∑ q ∈ Finset.univ.filter P, f q = ∑ a : Fin n0, ∑ b : Fin n1, ∑ c : Fin n2, if P (flat3 a b c) then f (flat3 a b c) else 0 := by
  rw [Finset.sum_filter, sum_flat3]

end Cert.Idx3

end
-- ==== Proof.SegSumAlg.lean ====
/-
  A sum of rows weighted by a 0/1 segment mask, taken block by block over a padded grid, is the sum of the rows
  that hit the segment.

  Rows q = 0 .. M0-1 each carry a 32-bit segment word; the arrays are padded up to M = 2 * nb * 4096 rows with the
  word -1. For a segment g < 1024 the mask of row q is 1 when the (padded) word of q equals g and 0 otherwise.
  The masked sum over the grid (2 slots, nb blocks, 4096 rows, row-major) equals the sum of the rows whose word,
  read as a signed integer, names g: a padded row has word -1, which is no g < 1024, so its mask is 0 and its term
  vanishes whatever the padded value is (0 * x = 0 in the extended reals); an unpadded row contributes its value
  exactly when it hits g.
-/
import Mathlib.Data.EReal.Basic
import Mathlib.Data.EReal.Operations
import Mathlib.Algebra.BigOperators.Group.Finset.Basic
import Mathlib.Algebra.BigOperators.Fin
import proofs.«416664_j53730040873193_3_alg».proof.Proof.LibRows
import proofs.«416664_j53730040873193_3_alg».proof.Proof.LibIdx3

namespace Cert.SegSumAlg

open scoped BigOperators

/-- The padded segment words: row q's word below M0, the word -1 from M0 on. -/
def padSeg (M0 M : Nat) (seg : Fin M0 → BitVec 32) (q : Fin M) : BitVec 32 :=
  if h : q.val < M0 then seg ⟨q.val, h⟩ else 4294967295#32

/-- Below M0 the padded word is the row's own word. -/
theorem padSeg_lt (M0 M : Nat) (seg : Fin M0 → BitVec 32) (q : Fin M) (h : q.val < M0) :
    padSeg M0 M seg q = seg ⟨q.val, h⟩ := by
  unfold padSeg
  rw [dif_pos h]

/-- From M0 on the padded word is -1. -/
theorem padSeg_ge (M0 M : Nat) (seg : Fin M0 → BitVec 32) (q : Fin M) (h : ¬ q.val < M0) :
    padSeg M0 M seg q = 4294967295#32 := by
  unfold padSeg
  rw [dif_neg h]

/-- A word equals the 32-bit word of g < 1024 exactly when, read signed, it names row g of a table of 1024 rows:
    the word of g has unsigned value g < 2^31, so its signed value is g; conversely a word whose signed value lies in
    [0, 1024) has that same unsigned value. -/
theorem hit_iff (s : BitVec 32) (g : Fin 1024) :
    BitVec.ofNat 32 g.val = s ↔ Cert.LibRows.RowHit 1024 s g := by
  have hg := g.isLt
  have hs := s.isLt
  have hcond := BitVec.toInt_eq_toNat_cond s
  unfold Cert.LibRows.RowHit
  constructor
  · intro h
    have hn : s.toNat = g.val := by
      rw [← h, BitVec.toNat_ofNat]
      omega
    rw [hn] at hcond
    rw [if_pos (by omega)] at hcond
    rw [hcond]
    omega
  · rintro ⟨h0, h1, h2⟩
    apply BitVec.eq_of_toNat_eq
    rw [BitVec.toNat_ofNat]
    by_cases hc : 2 * s.toNat < 2 ^ 32
    · rw [if_pos hc] at hcond
      omega
    · rw [if_neg hc] at hcond
      omega

/-- The word -1 is the word of no g < 1024. -/
theorem ofNat_ne_pad (g : Fin 1024) : BitVec.ofNat 32 g.val ≠ 4294967295#32 := by
  intro h
  have hg := g.isLt
  have hn := congrArg BitVec.toNat h
  rw [BitVec.toNat_ofNat, BitVec.toNat_ofNat] at hn
  omega

/-- A sum over M positions of a function that is G below M0 and 0 from M0 on is the sum of G over its M0 positions. -/
theorem sum_extend_zero {A : Type*} [AddCommMonoid A] {M0 M : Nat} (hle : M0 ≤ M) (G : Fin M0 → A) :
    ∑ q : Fin M, (if h : q.val < M0 then G ⟨q.val, h⟩ else 0) = ∑ q : Fin M0, G q := by
  have h1 : ∑ q : Fin M, (if h : q.val < M0 then G ⟨q.val, h⟩ else 0)
      = ∑ i ∈ Finset.range M, (if h : i < M0 then G ⟨i, h⟩ else 0) :=
    Fin.sum_univ_eq_sum_range (fun n : Nat => if h : n < M0 then G ⟨n, h⟩ else 0) M
  have h2 : ∑ q : Fin M0, G q = ∑ i ∈ Finset.range M0, (if h : i < M0 then G ⟨i, h⟩ else 0) := by
    rw [← Fin.sum_univ_eq_sum_range (fun n : Nat => if h : n < M0 then G ⟨n, h⟩ else 0) M0]
    refine Finset.sum_congr rfl (fun q _ => ?_)
    rw [dif_pos q.isLt]
  rw [h1, h2]
  symm
  refine Finset.sum_subset (Finset.range_subset_range.2 hle) (fun i _ hi => ?_)
  rw [dif_neg (fun hlt => hi (Finset.mem_range.2 hlt))]

/-- THE MASKED GRID SUM IS THE SUM OVER THE HITS. -/
theorem onehot_sum_eq_filter_sum {M0 nb : Nat} (hle : M0 ≤ 2 * nb * 4096) (seg : Fin M0 → BitVec 32) (v : Fin M0 → EReal)
    (w : Fin (2 * nb * 4096) → EReal) (hw : ∀ (q : Fin (2 * nb * 4096)) (h : q.val < M0), w q = v ⟨q.val, h⟩) (g : Fin 1024) :
    ∑ a : Fin 2, ∑ b : Fin nb, ∑ k : Fin 4096,
        (if BitVec.ofNat 32 g.val = padSeg M0 (2 * nb * 4096) seg (Cert.Idx3.flat3 a b k) then (1 : EReal) else 0) * w (Cert.Idx3.flat3 a b k)
      = ∑ q ∈ Finset.univ.filter (fun q : Fin M0 => Cert.LibRows.RowHit 1024 (seg q) g), v q := by
  -- the grid sum is the sum over the flat positions
  have hflat := Cert.Idx3.sum_flat3 (n0 := 2) (n1 := nb) (n2 := 4096)
    (fun q : Fin (2 * nb * 4096) =>
      (if BitVec.ofNat 32 g.val = padSeg M0 (2 * nb * 4096) seg q then (1 : EReal) else 0) * w q)
  refine hflat.symm.trans ?_
  -- each term is the row's value at a hit below M0, and 0 otherwise
  have hterm : ∀ q : Fin (2 * nb * 4096),
      (if BitVec.ofNat 32 g.val = padSeg M0 (2 * nb * 4096) seg q then (1 : EReal) else 0) * w q
        = if h : q.val < M0 then (if Cert.LibRows.RowHit 1024 (seg ⟨q.val, h⟩) g then v ⟨q.val, h⟩ else 0) else 0 := by
    intro q
    by_cases h : q.val < M0
    · rw [dif_pos h, padSeg_lt M0 _ seg q h, hw q h]
      by_cases hh : Cert.LibRows.RowHit 1024 (seg ⟨q.val, h⟩) g
      · rw [if_pos ((hit_iff _ g).mpr hh), if_pos hh, one_mul]
      · rw [if_neg (fun he => hh ((hit_iff _ g).mp he)), if_neg hh, zero_mul]
    · rw [dif_neg h, padSeg_ge M0 _ seg q h, if_neg (ofNat_ne_pad g), zero_mul]
  rw [Finset.sum_congr rfl (fun q _ => hterm q)]
  -- drop the padded positions, then read the conditional sum as a sum over the hits
  rw [sum_extend_zero hle (fun q : Fin M0 => if Cert.LibRows.RowHit 1024 (seg q) g then v q else 0)]
  exact (Finset.sum_filter _ _).symm

/-- THE MASKED GRID COUNT: the same with every row equal to c. -/
theorem onehot_count_eq_filter_sum {M0 nb : Nat} (hle : M0 ≤ 2 * nb * 4096) (seg : Fin M0 → BitVec 32) (c : EReal) (g : Fin 1024) :
    ∑ a : Fin 2, ∑ b : Fin nb, ∑ k : Fin 4096,
        (if BitVec.ofNat 32 g.val = padSeg M0 (2 * nb * 4096) seg (Cert.Idx3.flat3 a b k) then (1 : EReal) else 0) * c
      = ∑ q ∈ Finset.univ.filter (fun q : Fin M0 => Cert.LibRows.RowHit 1024 (seg q) g), c :=
  onehot_sum_eq_filter_sum hle seg (fun _ => c) (fun _ => c) (fun _ _ => rfl) g

end Cert.SegSumAlg
-- ==== Proof.KiHostVal.lean ====
/-
  What the host stretches of the program compute, entry by entry, on the extended reals.

  Between its three calls the program runs short stretches of whole-array operations. Before the first call it gathers
  each edge's segment word, pads the 500000 edge rows with rows of zeros and the 500000 segment words with the word -1
  up to 507904, and views the padded words as one row. After the first call it adds the two cores' partial sums and
  partial counts, and pads the 100000 node rows and the nodes' segment words in the same way up to 106496. After the
  second call it adds that call's two partial results and views four launched vectors as one row each.

  Here each buffer a call reads is read at an index, as a function of the launch contents and of what the earlier calls
  left in their results (which stay unknowns). A padded array at `q` is the operand at `q` below the operand's extent
  and the padding value from there on; the padding value of the rows is the integer zero converted, which is the real
  zero, and that of the words is the word -1. A vector viewed as one row reads at `(0, i)` the vector at `i`. The sum
  over the leading axis of a `[2, 1024, k]` array from the float zero is at `(g, j)` the sum of its two entries
  `(0, g, j)` and `(1, g, j)`. A buffer that none of a run of items writes is carried through it unchanged, which is how
  an argument read late still holds its launch contents.

  The gathered segment words are kept as the composition of the first stretch's operations over the two launched index
  arrays; the gather is not opened.
-/
import proofs.«416664_j53730040873193_3_alg».proof.Proof.Gen.KernelIdeal.Regions
import proofs.«416664_j53730040873193_3_alg».proof.Proof.SegSumAlg
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost
import Idealize.ShloMosaic.PureOps.Ideal.Laws
import Mathlib.Algebra.BigOperators.Group.Finset.Basic

noncomputable section

namespace Cert.KernelIdeal.HostVal

open Idealize.ShloMosaic Idealize.ShloMosaic.TcCoe Idealize.ShloMosaic.ValueIdx Idealize.ShloMosaic.StableHlo
open Cert.KernelIdeal Cert.KernelIdeal.Gen
open scoped BigOperators

variable (m : (ℓ : Loc nD τ sig) → Buf (Elt Ideal) ℓ) (outs : Outs (F := Ideal)) (c : Dev nD)

/-! ## A buffer that no item of a run of items writes is carried through unchanged -/

/-- Through the five host stretches before the first call. -/
theorem V5_eq_V0 (r : Ref sig .tc) (h0 : r ∉ hostOps0_W) (h1 : r ∉ hostOps0_1_W) (h2 : r ∉ hostOps0_2_W)
    (h3 : r ∉ hostOps0_3_W) (h4 : r ∉ hostOps0_4_W) : V5 m c r = V0 m c r :=
  (V5_of m c r h4).trans <| (V4_of m c r h3).trans <| (V3_of m c r h2).trans <| (V2_of m c r h1).trans (V1_of m c r h0)

/-- Through the first call and the five host stretches after it. -/
theorem V11_eq_V5 (r : Ref sig .tc) (h5 : r ∉ ([main_v12_0, main_v12_1] : List (Ref sig .tc))) (h6 : r ∉ hostOps1_W)
    (h7 : r ∉ hostOps1_1_W) (h8 : r ∉ hostOps1_2_W) (h9 : r ∉ hostOps1_3_W) (h10 : r ∉ hostOps1_4_W) :
    V11 m outs c r = V5 m c r :=
  (V11_of m outs c r h10).trans <| (V10_of m outs c r h9).trans <| (V9_of m outs c r h8).trans <|
    (V8_of m outs c r h7).trans <| (V7_of m outs c r h6).trans (V6_of m outs c r h5)

/-- Through the second call and the host stretch after it. -/
theorem V13_eq_V11 (r : Ref sig .tc) (h11 : r ∉ ([main_v18_0, main_v18_1] : List (Ref sig .tc))) (h12 : r ∉ hostOps2_W) :
    V13 m outs c r = V11 m outs c r :=
  (V13_of m outs c r h12).trans (V12_of m outs c r h11)

/-- Through every item up to the second call: a buffer none of them writes holds its launch contents. -/
theorem V12_eq_V0 (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v12_0, main_v12_1] : List (Ref sig .tc)))
    (h6 : r ∉ hostOps1_W) (h7 : r ∉ hostOps1_1_W) (h8 : r ∉ hostOps1_2_W) (h9 : r ∉ hostOps1_3_W) (h10 : r ∉ hostOps1_4_W)
    (h11 : r ∉ ([main_v18_0, main_v18_1] : List (Ref sig .tc))) : V12 m outs c r = V0 m c r :=
  (V12_of m outs c r h11).trans <| (V11_eq_V5 m outs c r h5 h6 h7 h8 h9 h10).trans (V5_eq_V0 m c r h0 h1 h2 h3 h4)

/-- Through every item up to the third call. -/
theorem V13_eq_V0 (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v12_0, main_v12_1] : List (Ref sig .tc)))
    (h6 : r ∉ hostOps1_W) (h7 : r ∉ hostOps1_1_W) (h8 : r ∉ hostOps1_2_W) (h9 : r ∉ hostOps1_3_W) (h10 : r ∉ hostOps1_4_W)
    (h11 : r ∉ ([main_v18_0, main_v18_1] : List (Ref sig .tc))) (h12 : r ∉ hostOps2_W) : V13 m outs c r = V0 m c r :=
  (V13_of m outs c r h12).trans (V12_eq_V0 m outs c r h0 h1 h2 h3 h4 h5 h6 h7 h8 h9 h10 h11)

/-! ## Rows appended to an array, and the two cores' partial results added -/

section Generic
variable {α : Type}

/-- A matrix of `n0` rows padded below to `n` rows (nothing before, nothing between, no column added) reads at
    `(q, j)` the matrix at `(q, j)` while `q < n0`, and the padding value from row `n0` on. -/
theorem padRows_apply {n0 n k hi : Nat} (x : (⟨2, ![n0, k]⟩ : Shape).Idx → α) {u : Shape} (v : u.Idx → α)
    (h : (⟨2, ![n0, k]⟩ : Shape).Pads (![0, 0] : Fin 2 → Nat) ![hi, 0] ![0, 0] ⟨2, ![n, k]⟩) (hu : 0 < u.numel)
    (q : Fin n) (j : Fin k) :
    pad ⟨2, ![n, k]⟩ ![0, 0] ![hi, 0] ![0, 0] x v h hu (ix2 q j)
      = if hq : q.val < n0 then x (ix2 ⟨q.val, hq⟩ j) else v (Shape.Idx.first hu) := by
  by_cases hq : q.val < n0
  · rw [dif_pos hq]
    exact pad_apply_of_inside _ _ _ x v h hu (ix2 q j) (ix2 ⟨q.val, hq⟩ j) fun a => match a with
      | ⟨0, _⟩ => by show q.val = 0 + q.val * (0 + 1); omega
      | ⟨1, _⟩ => by show j.val = 0 + j.val * (0 + 1); omega
  · rw [dif_neg hq]
    exact pad_apply_of_not_inside _ _ _ x v h hu (ix2 q j) (0 : Fin 2) (by
      show ¬(0 ≤ q.val ∧ (q.val - 0) % (0 + 1) = 0 ∧ (q.val - 0) / (0 + 1) < n0)
      omega)

/-- A vector of `n0` entries padded at its end to `n` entries reads at `q` the vector at `q` while `q < n0`, and the
    padding value from entry `n0` on. -/
theorem padEnd_apply {n0 n hi : Nat} (x : (⟨1, ![n0]⟩ : Shape).Idx → α) {u : Shape} (v : u.Idx → α)
    (h : (⟨1, ![n0]⟩ : Shape).Pads (![0] : Fin 1 → Nat) ![hi] ![0] ⟨1, ![n]⟩) (hu : 0 < u.numel) (q : Fin n) :
    pad ⟨1, ![n]⟩ ![0] ![hi] ![0] x v h hu (ix1 q)
      = if hq : q.val < n0 then x (ix1 ⟨q.val, hq⟩) else v (Shape.Idx.first hu) := by
  by_cases hq : q.val < n0
  · rw [dif_pos hq]
    exact pad_apply_of_inside _ _ _ x v h hu (ix1 q) (ix1 ⟨q.val, hq⟩) fun a => match a with
      | ⟨0, _⟩ => by show q.val = 0 + q.val * (0 + 1); omega
  · rw [dif_neg hq]
    exact pad_apply_of_not_inside _ _ _ x v h hu (ix1 q) (0 : Fin 1) (by
      show ¬(0 ≤ q.val ∧ (q.val - 0) % (0 + 1) = 0 ∧ (q.val - 0) / (0 + 1) < n0)
      omega)

end Generic

/-- The host's sum over the leading axis of a `[2, 1024, 128]` array from an initial value: at `(g, j)` the initial
    value plus the sum over the two leading coordinates. -/
theorem sumLead128_apply (x : S2x1024x128.Idx → EReal) (init : S_.Idx → EReal) (g : Fin 1024) (j : Fin 128) :
    Host.reduceAdd (F := Ideal) (φ := .f32) x init reducesTo_S2x1024x128_S1024x128_d0 h_S_ (ix2 g j)
      = init (Shape.Idx.first h_S_) + ∑ a : Fin 2, x (ix3 a g j) := by
  have h : S2x1024x128.Reduces [0] S1024x128 := by decide
  refine (hostReduceAdd_apply x init reducesTo_S2x1024x128_S1024x128_d0 h_S_ (ix2 g j)).trans ?_
  refine (Ideal.hostReduceAdd_single reducesTo_S2x1024x128_S1024x128_d0 h x _ (ix2 g j)).trans ?_
  refine congrArg (init (Shape.Idx.first h_S_) + ·) (Finset.sum_congr rfl fun a _ => congrArg x ?_)
  funext b
  match b with
  | ⟨0, _⟩ => rfl
  | ⟨1, _⟩ => rfl
  | ⟨2, _⟩ => rfl

/-- The same for a `[2, 1024, 1]` array. -/
theorem sumLead1_apply (x : S2x1024x1.Idx → EReal) (init : S_.Idx → EReal) (g : Fin 1024) (j : Fin 1) :
    Host.reduceAdd (F := Ideal) (φ := .f32) x init reducesTo_S2x1024x1_S1024x1_d0 h_S_ (ix2 g j)
      = init (Shape.Idx.first h_S_) + ∑ a : Fin 2, x (ix3 a g j) := by
  have h : S2x1024x1.Reduces [0] S1024x1 := by decide
  refine (hostReduceAdd_apply x init reducesTo_S2x1024x1_S1024x1_d0 h_S_ (ix2 g j)).trans ?_
  refine (Ideal.hostReduceAdd_single reducesTo_S2x1024x1_S1024x1_d0 h x _ (ix2 g j)).trans ?_
  refine congrArg (init (Shape.Idx.first h_S_) + ·) (Finset.sum_congr rfl fun a _ => congrArg x ?_)
  funext b
  match b with
  | ⟨0, _⟩ => rfl
  | ⟨1, _⟩ => rfl
  | ⟨2, _⟩ => rfl

/-- From the float zero the sum over the leading axis is the sum of the two leading entries alone. -/
theorem sumLead128_zero_apply (x : S2x1024x128.Idx → EReal) (g : Fin 1024) (j : Fin 128) :
    Host.reduceAdd (F := Ideal) (φ := .f32) x (constant (F := Ideal) S_ .f32 0x00000000#32)
        reducesTo_S2x1024x128_S1024x128_d0 h_S_ (ix2 g j)
      = ∑ a : Fin 2, x (ix3 a g j) := by
  refine (sumLead128_apply x _ g j).trans ?_
  show Ideal.ofBits .f32 0x00000000#32 + _ = _
  rw [Ideal.ofBits_zero_f32, zero_add]

theorem sumLead1_zero_apply (x : S2x1024x1.Idx → EReal) (g : Fin 1024) (j : Fin 1) :
    Host.reduceAdd (F := Ideal) (φ := .f32) x (constant (F := Ideal) S_ .f32 0x00000000#32)
        reducesTo_S2x1024x1_S1024x1_d0 h_S_ (ix2 g j)
      = ∑ a : Fin 2, x (ix3 a g j) := by
  refine (sumLead1_apply x _ g j).trans ?_
  show Ideal.ofBits .f32 0x00000000#32 + _ = _
  rw [Ideal.ofBits_zero_f32, zero_add]

/-! ## What each host stretch leaves in the buffers the calls read, over any contents `W` before it -/

section Stretches
variable (W : Valuation τ sig (Elt Ideal))

/-- The first stretch ends by setting the integer zero that the edge rows' padding value is converted from. -/
theorem hostOps0_c_1 : (after hostOps0 W main_c_1 : IVec S_ 32) = constantI S_ 32 0#32 := by
  dsimp only [hostOps0]; after_results

/-- The edge rows padded with the converted zero. -/
theorem hostOps0_1_v9 : (after hostOps0_1 W main_v9 : S507904x128.Idx → EReal)
    = pad S507904x128 ![0, 0] ![7904, 0] ![0, 0] (W main_arg1 : S500000x128.Idx → EReal)
        (sitofp (F := Ideal) .f32 (W main_c_1 : IVec S_ 32)) pads_S500000x128_S507904x128_079040_000 h_S_ := by
  dsimp only [hostOps0_1]; after_results; rfl

/-- The word -1 the edges' segment words are padded with. -/
theorem hostOps0_2_c_2 : (after hostOps0_2 W main_c_2 : IVec S_ 32) = constantI S_ 32 4294967295#32 := by
  dsimp only [hostOps0_2]; after_results

/-- The edges' segment words padded with it. -/
theorem hostOps0_3_v10 : (after hostOps0_3 W main_v10 : IVec S507904 32)
    = pad S507904 ![0] ![7904] ![0] (W main_v8 : IVec S500000 32) (W main_c_2 : IVec S_ 32)
        pads_S500000_S507904_079040 h_S_ := by
  dsimp only [hostOps0_3]; after_results; rfl

/-- The padded words viewed as one row. -/
theorem hostOps0_4_v11 : (after hostOps0_4 W main_v11 : IVec S1x507904 32)
    = shapeCast S1x507904 (W main_v10 : IVec S507904 32) shapeCasts_S507904_S1x507904 := by
  dsimp only [hostOps0_4]; after_results; rfl

/-- The two cores' partial edge sums added, from the float zero. -/
theorem hostOps1_v13 : (after hostOps1 W main_v13 : S1024x128.Idx → EReal)
    = Host.reduceAdd (F := Ideal) (φ := .f32) (W main_v12_0 : S2x1024x128.Idx → EReal)
        (constant (F := Ideal) S_ .f32 0x00000000#32) reducesTo_S2x1024x128_S1024x128_d0 h_S_ := by
  dsimp only [hostOps1]; after_results

/-- The two cores' partial edge counts added, from the float zero. -/
theorem hostOps1_v14 : (after hostOps1 W main_v14 : S1024x1.Idx → EReal)
    = Host.reduceAdd (F := Ideal) (φ := .f32) (W main_v12_1 : S2x1024x1.Idx → EReal)
        (constant (F := Ideal) S_ .f32 0x00000000#32) reducesTo_S2x1024x1_S1024x1_d0 h_S_ := by
  dsimp only [hostOps1]; after_results

/-- That stretch ends by setting the integer zero that the node rows' padding value is converted from. -/
theorem hostOps1_c_4 : (after hostOps1 W main_c_4 : IVec S_ 32) = constantI S_ 32 0#32 := by
  dsimp only [hostOps1]; after_results

/-- The node rows padded with the converted zero. -/
theorem hostOps1_1_v15 : (after hostOps1_1 W main_v15 : S106496x128.Idx → EReal)
    = pad S106496x128 ![0, 0] ![6496, 0] ![0, 0] (W main_arg0 : S100000x128.Idx → EReal)
        (sitofp (F := Ideal) .f32 (W main_c_4 : IVec S_ 32)) pads_S100000x128_S106496x128_064960_000 h_S_ := by
  dsimp only [hostOps1_1]; after_results; rfl

/-- The word -1 the nodes' segment words are padded with. -/
theorem hostOps1_2_c_5 : (after hostOps1_2 W main_c_5 : IVec S_ 32) = constantI S_ 32 4294967295#32 := by
  dsimp only [hostOps1_2]; after_results

/-- The nodes' segment words padded with it. -/
theorem hostOps1_3_v16 : (after hostOps1_3 W main_v16 : IVec S106496 32)
    = pad S106496 ![0] ![6496] ![0] (W main_arg10 : IVec S100000 32) (W main_c_5 : IVec S_ 32)
        pads_S100000_S106496_064960 h_S_ := by
  dsimp only [hostOps1_3]; after_results; rfl

/-- The padded words viewed as one row. -/
theorem hostOps1_4_v17 : (after hostOps1_4 W main_v17 : IVec S1x106496 32)
    = shapeCast S1x106496 (W main_v16 : IVec S106496 32) shapeCasts_S106496_S1x106496 := by
  dsimp only [hostOps1_4]; after_results; rfl

/-- The two cores' partial node sums added, from the float zero. -/
theorem hostOps2_v19 : (after hostOps2 W main_v19 : S1024x128.Idx → EReal)
    = Host.reduceAdd (F := Ideal) (φ := .f32) (W main_v18_0 : S2x1024x128.Idx → EReal)
        (constant (F := Ideal) S_ .f32 0x00000000#32) reducesTo_S2x1024x128_S1024x128_d0 h_S_ := by
  dsimp only [hostOps2]; after_results

/-- The two cores' partial node counts added, from the float zero. -/
theorem hostOps2_v20 : (after hostOps2 W main_v20 : S1024x1.Idx → EReal)
    = Host.reduceAdd (F := Ideal) (φ := .f32) (W main_v18_1 : S2x1024x1.Idx → EReal)
        (constant (F := Ideal) S_ .f32 0x00000000#32) reducesTo_S2x1024x1_S1024x1_d0 h_S_ := by
  dsimp only [hostOps2]; after_results

/-- The four vectors the third call reads as one row each. -/
theorem hostOps2_v21 : (after hostOps2 W main_v21 : S1x512.Idx → EReal)
    = shapeCast S1x512 (W main_arg4 : S512.Idx → EReal) shapeCasts_S512_S1x512 := by
  dsimp only [hostOps2]; after_results; rfl
theorem hostOps2_v22 : (after hostOps2 W main_v22 : S1x128.Idx → EReal)
    = shapeCast S1x128 (W main_arg6 : S128.Idx → EReal) shapeCasts_S128_S1x128 := by
  dsimp only [hostOps2]; after_results; rfl
theorem hostOps2_v23 : (after hostOps2 W main_v23 : S1x128.Idx → EReal)
    = shapeCast S1x128 (W main_arg7 : S128.Idx → EReal) shapeCasts_S128_S1x128 := by
  dsimp only [hostOps2]; after_results; rfl
theorem hostOps2_v24 : (after hostOps2 W main_v24 : S1x128.Idx → EReal)
    = shapeCast S1x128 (W main_arg8 : S128.Idx → EReal) shapeCasts_S128_S1x128 := by
  dsimp only [hostOps2]; after_results; rfl

end Stretches

section Gathered
variable (W : Valuation τ sig (Elt Ideal))

/-- The first stretch's gathered words over any contents `W` before it: the first row of the edge index array, with
    100000 added to its negative entries, made a column of start indices, and the nodes' segment words gathered at them. -/
theorem hostOps0_v8 : (after hostOps0 W main_v8 : IVec S500000 32)
    = Host.gather gather_S100000_S500000x1_S500000_n_0_n_n_0_1_1 (W main_arg10 : IVec S100000 32)
        (broadcastInDim S500000x1 ![0] bcast_S500000_S500000x1_0
          (select
            (cmpi .slt
              (shapeCast S500000 (extractStridedSlice S1x500000 ![0, 0] (W main_arg9 : IVec S2x500000 32) slices_S2x500000_S1x500000_0_0) shapeCasts_S1x500000_S500000)
              (broadcastInDim S500000 ![] bcast_S_S500000 (constantI S_ 32 0#32)))
            (addi
              (shapeCast S500000 (extractStridedSlice S1x500000 ![0, 0] (W main_arg9 : IVec S2x500000 32) slices_S2x500000_S1x500000_0_0) shapeCasts_S1x500000_S500000)
              (broadcastInDim S500000 ![] bcast_S_S500000 (constantI S_ 32 100000#32)))
            (shapeCast S500000 (extractStridedSlice S1x500000 ![0, 0] (W main_arg9 : IVec S2x500000 32) slices_S2x500000_S1x500000_0_0) shapeCasts_S1x500000_S500000))) := by
  dsimp only [hostOps0]; after_results; rfl

end Gathered

/-! ## The arguments the third call reads as launched -/

theorem arg2_at : V13 m outs c main_arg2 = V0 m c main_arg2 :=
  V13_eq_V0 m outs c main_arg2 (by decide) (by decide) (by decide) (by decide) (by decide) (by decide) (by decide) (by decide) (by decide) (by decide) (by decide) (by decide) (by decide)
theorem arg3_at : V13 m outs c main_arg3 = V0 m c main_arg3 :=
  V13_eq_V0 m outs c main_arg3 (by decide) (by decide) (by decide) (by decide) (by decide) (by decide) (by decide) (by decide) (by decide) (by decide) (by decide) (by decide) (by decide)
theorem arg5_at : V13 m outs c main_arg5 = V0 m c main_arg5 :=
  V13_eq_V0 m outs c main_arg5 (by decide) (by decide) (by decide) (by decide) (by decide) (by decide) (by decide) (by decide) (by decide) (by decide) (by decide) (by decide) (by decide)

/-! ## The biases and scales the third call reads: a launched vector viewed as one row -/

theorem v21_at (l : Fin 512) : V13 m outs c main_v21 (ix2 0 l) = V0 m c main_arg4 (ix1 l) := by
  refine (congrFun (hostOps2_v21 (V12 m outs c)) (ix2 0 l)).trans ?_
  refine (shapeCast_a_1a_apply _ shapeCasts_S512_S1x512 0 l).trans ?_
  exact congrFun (V12_eq_V0 m outs c main_arg4 (by decide) (by decide) (by decide) (by decide) (by decide) (by decide) (by decide) (by decide) (by decide) (by decide) (by decide) (by decide)) (ix1 l)

theorem v22_at (k : Fin 128) : V13 m outs c main_v22 (ix2 0 k) = V0 m c main_arg6 (ix1 k) := by
  refine (congrFun (hostOps2_v22 (V12 m outs c)) (ix2 0 k)).trans ?_
  refine (shapeCast_a_1a_apply _ shapeCasts_S128_S1x128 0 k).trans ?_
  exact congrFun (V12_eq_V0 m outs c main_arg6 (by decide) (by decide) (by decide) (by decide) (by decide) (by decide) (by decide) (by decide) (by decide) (by decide) (by decide) (by decide)) (ix1 k)

theorem v23_at (k : Fin 128) : V13 m outs c main_v23 (ix2 0 k) = V0 m c main_arg7 (ix1 k) := by
  refine (congrFun (hostOps2_v23 (V12 m outs c)) (ix2 0 k)).trans ?_
  refine (shapeCast_a_1a_apply _ shapeCasts_S128_S1x128 0 k).trans ?_
  exact congrFun (V12_eq_V0 m outs c main_arg7 (by decide) (by decide) (by decide) (by decide) (by decide) (by decide) (by decide) (by decide) (by decide) (by decide) (by decide) (by decide)) (ix1 k)

theorem v24_at (k : Fin 128) : V13 m outs c main_v24 (ix2 0 k) = V0 m c main_arg8 (ix1 k) := by
  refine (congrFun (hostOps2_v24 (V12 m outs c)) (ix2 0 k)).trans ?_
  refine (shapeCast_a_1a_apply _ shapeCasts_S128_S1x128 0 k).trans ?_
  exact congrFun (V12_eq_V0 m outs c main_arg8 (by decide) (by decide) (by decide) (by decide) (by decide) (by decide) (by decide) (by decide) (by decide) (by decide) (by decide) (by decide)) (ix1 k)

/-! ## The padded operands of the two segment-sum calls -/

/-- The edge rows as the first call reads them: the launched rows, then rows of zeros up to row 507904. -/
theorem v9_at (q : Fin 507904) (j : Fin 128) :
    V5 m c main_v9 (ix2 q j) = (if h : q.val < 500000 then V0 m c main_arg1 (ix2 ⟨q.val, h⟩ j) else 0 : EReal) := by
  have e5 : V5 m c main_v9 = V2 m c main_v9 :=
    (V5_of m c main_v9 (by decide)).trans <| (V4_of m c main_v9 (by decide)).trans (V3_of m c main_v9 (by decide))
  refine (congrFun e5 _).trans <| (congrFun (hostOps0_1_v9 (V1 m c)) _).trans ?_
  refine (padRows_apply _ _ pads_S500000x128_S507904x128_079040_000 h_S_ q j).trans ?_
  by_cases h : q.val < 500000
  · rw [dif_pos h, dif_pos h]
    exact congrFun (V1_of m c main_arg1 (by decide)) _
  · rw [dif_neg h, dif_neg h]
    refine (congrArg (fun z : IVec S_ 32 => sitofp (F := Ideal) .f32 z (Shape.Idx.first h_S_)) (hostOps0_c_1 (V0 m c))).trans ?_
    exact sitofp_zero

/-- The edges' segment words as the first call reads them, one row of 507904: the gathered words, then the word -1. -/
theorem v11_at (q : Fin 507904) :
    V5 m c main_v11 (ix2 0 q) = Cert.SegSumAlg.padSeg 500000 507904 (fun p => V1 m c main_v8 (ix1 p)) q := by
  have e8 : V3 m c main_v8 = V1 m c main_v8 := (V3_of m c main_v8 (by decide)).trans (V2_of m c main_v8 (by decide))
  refine (congrFun (hostOps0_4_v11 (V4 m c)) _).trans ?_
  refine (shapeCast_a_1a_apply _ shapeCasts_S507904_S1x507904 0 q).trans ?_
  refine (congrFun (hostOps0_3_v10 (V3 m c)) _).trans ?_
  refine (padEnd_apply _ _ pads_S500000_S507904_079040 h_S_ q).trans ?_
  unfold Cert.SegSumAlg.padSeg
  by_cases h : q.val < 500000
  · rw [dif_pos h, dif_pos h]
    exact congrFun e8 _
  · rw [dif_neg h, dif_neg h]
    exact congrFun (hostOps0_2_c_2 (V2 m c)) _

/-- The node rows as the second call reads them: the launched rows, then rows of zeros up to row 106496. -/
theorem v15_at (q : Fin 106496) (j : Fin 128) :
    V11 m outs c main_v15 (ix2 q j) = (if h : q.val < 100000 then V0 m c main_arg0 (ix2 ⟨q.val, h⟩ j) else 0 : EReal) := by
  have e11 : V11 m outs c main_v15 = V8 m outs c main_v15 :=
    (V11_of m outs c main_v15 (by decide)).trans <| (V10_of m outs c main_v15 (by decide)).trans (V9_of m outs c main_v15 (by decide))
  have e0 : V7 m outs c main_arg0 = V0 m c main_arg0 :=
    (V7_of m outs c main_arg0 (by decide)).trans <| (V6_of m outs c main_arg0 (by decide)).trans
      (V5_eq_V0 m c main_arg0 (by decide) (by decide) (by decide) (by decide) (by decide))
  refine (congrFun e11 _).trans <| (congrFun (hostOps1_1_v15 (V7 m outs c)) _).trans ?_
  refine (padRows_apply _ _ pads_S100000x128_S106496x128_064960_000 h_S_ q j).trans ?_
  by_cases h : q.val < 100000
  · rw [dif_pos h, dif_pos h]
    exact congrFun e0 _
  · rw [dif_neg h, dif_neg h]
    refine (congrArg (fun z : IVec S_ 32 => sitofp (F := Ideal) .f32 z (Shape.Idx.first h_S_)) (hostOps1_c_4 (V6 m outs c))).trans ?_
    exact sitofp_zero

/-- The nodes' segment words as the second call reads them, one row of 106496: the launched words, then the word -1. -/
theorem v17_at (q : Fin 106496) :
    V11 m outs c main_v17 (ix2 0 q) = Cert.SegSumAlg.padSeg 100000 106496 (fun p => V0 m c main_arg10 (ix1 p)) q := by
  have e0 : V9 m outs c main_arg10 = V0 m c main_arg10 :=
    (V9_of m outs c main_arg10 (by decide)).trans <| (V8_of m outs c main_arg10 (by decide)).trans <|
      (V7_of m outs c main_arg10 (by decide)).trans <| (V6_of m outs c main_arg10 (by decide)).trans
        (V5_eq_V0 m c main_arg10 (by decide) (by decide) (by decide) (by decide) (by decide))
  refine (congrFun (hostOps1_4_v17 (V10 m outs c)) _).trans ?_
  refine (shapeCast_a_1a_apply _ shapeCasts_S106496_S1x106496 0 q).trans ?_
  refine (congrFun (hostOps1_3_v16 (V9 m outs c)) _).trans ?_
  refine (padEnd_apply _ _ pads_S100000_S106496_064960 h_S_ q).trans ?_
  unfold Cert.SegSumAlg.padSeg
  by_cases h : q.val < 100000
  · rw [dif_pos h, dif_pos h]
    exact congrFun e0 _
  · rw [dif_neg h, dif_neg h]
    exact congrFun (hostOps1_2_c_5 (V8 m outs c)) _

/-! ## The two cores' partial results of each segment-sum call, added -/

/-- What the first call leaves in its two results is what the stretch after it reads. -/
theorem V6_v12_0 : V6 m outs c main_v12_0 = outs 6 main_v12_0 c := by
  dsimp only [V6]
  rw [Function.update_of_ne (devRef_ne_of_ne (by decide)), Function.update_self]
theorem V6_v12_1 : V6 m outs c main_v12_1 = outs 6 main_v12_1 c := by
  dsimp only [V6]
  rw [Function.update_self]
/-- Likewise for the second call. -/
theorem V12_v18_0 : V12 m outs c main_v18_0 = outs 12 main_v18_0 c := by
  dsimp only [V12]
  rw [Function.update_of_ne (devRef_ne_of_ne (by decide)), Function.update_self]
theorem V12_v18_1 : V12 m outs c main_v18_1 = outs 12 main_v18_1 c := by
  dsimp only [V12]
  rw [Function.update_self]

/-- The edge sums the third call reads: the two cores' partial sums of the first call, added. -/
theorem v13_at (g : Fin 1024) (j : Fin 128) :
    V13 m outs c main_v13 (ix2 g j) = (∑ a : Fin 2, outs 6 main_v12_0 c (ix3 a g j) : EReal) := by
  have e : V13 m outs c main_v13 = V7 m outs c main_v13 :=
    (V13_eq_V11 m outs c main_v13 (by decide) (by decide)).trans <| (V11_of m outs c main_v13 (by decide)).trans <|
      (V10_of m outs c main_v13 (by decide)).trans <| (V9_of m outs c main_v13 (by decide)).trans (V8_of m outs c main_v13 (by decide))
  refine (congrFun e _).trans <| (congrFun (hostOps1_v13 (V6 m outs c)) _).trans ?_
  refine (sumLead128_zero_apply _ g j).trans ?_
  exact Finset.sum_congr rfl fun a _ => congrFun (V6_v12_0 m outs c) (ix3 a g j)

/-- The edge counts the third call reads: the two cores' partial counts of the first call, added. -/
theorem v14_at (g : Fin 1024) :
    V13 m outs c main_v14 (ix2 g 0) = (∑ a : Fin 2, outs 6 main_v12_1 c (ix3 a g 0) : EReal) := by
  have e : V13 m outs c main_v14 = V7 m outs c main_v14 :=
    (V13_eq_V11 m outs c main_v14 (by decide) (by decide)).trans <| (V11_of m outs c main_v14 (by decide)).trans <|
      (V10_of m outs c main_v14 (by decide)).trans <| (V9_of m outs c main_v14 (by decide)).trans (V8_of m outs c main_v14 (by decide))
  refine (congrFun e _).trans <| (congrFun (hostOps1_v14 (V6 m outs c)) _).trans ?_
  refine (sumLead1_zero_apply _ g 0).trans ?_
  exact Finset.sum_congr rfl fun a _ => congrFun (V6_v12_1 m outs c) (ix3 a g 0)

/-- The node sums the third call reads: the two cores' partial sums of the second call, added. -/
theorem v19_at (g : Fin 1024) (j : Fin 128) :
    V13 m outs c main_v19 (ix2 g j) = (∑ a : Fin 2, outs 12 main_v18_0 c (ix3 a g j) : EReal) := by
  refine (congrFun (hostOps2_v19 (V12 m outs c)) _).trans ?_
  refine (sumLead128_zero_apply _ g j).trans ?_
  exact Finset.sum_congr rfl fun a _ => congrFun (V12_v18_0 m outs c) (ix3 a g j)

/-- The node counts the third call reads: the two cores' partial counts of the second call, added. -/
theorem v20_at (g : Fin 1024) :
    V13 m outs c main_v20 (ix2 g 0) = (∑ a : Fin 2, outs 12 main_v18_1 c (ix3 a g 0) : EReal) := by
  refine (congrFun (hostOps2_v20 (V12 m outs c)) _).trans ?_
  refine (sumLead1_zero_apply _ g 0).trans ?_
  exact Finset.sum_congr rfl fun a _ => congrFun (V12_v18_1 m outs c) (ix3 a g 0)

/-! ## The edges' segment words -/

/-- Each edge's segment word, as the first stretch leaves it: the nodes' launched segment words gathered at the first
    row of the launched edge index array (a negative entry counted from the end). -/
theorem v8_eq : (V1 m c main_v8 : IVec S500000 32)
    = Host.gather gather_S100000_S500000x1_S500000_n_0_n_n_0_1_1 (V0 m c main_arg10 : IVec S100000 32)
        (broadcastInDim S500000x1 ![0] bcast_S500000_S500000x1_0
          (select
            (cmpi .slt
              (shapeCast S500000 (extractStridedSlice S1x500000 ![0, 0] (V0 m c main_arg9 : IVec S2x500000 32) slices_S2x500000_S1x500000_0_0) shapeCasts_S1x500000_S500000)
              (broadcastInDim S500000 ![] bcast_S_S500000 (constantI S_ 32 0#32)))
            (addi
              (shapeCast S500000 (extractStridedSlice S1x500000 ![0, 0] (V0 m c main_arg9 : IVec S2x500000 32) slices_S2x500000_S1x500000_0_0) shapeCasts_S1x500000_S500000)
              (broadcastInDim S500000 ![] bcast_S_S500000 (constantI S_ 32 100000#32)))
            (shapeCast S500000 (extractStridedSlice S1x500000 ![0, 0] (V0 m c main_arg9 : IVec S2x500000 32) slices_S2x500000_S1x500000_0_0) shapeCasts_S1x500000_S500000))) :=
  hostOps0_v8 (V0 m c)

end Cert.KernelIdeal.HostVal

end
-- ==== Proof.SegBridge.lean ====
/-
  The masked grid sums, restated over a numeral extent and a row function.

  An array of `M = 2 * nb * 4096` rows is read through a function `row a b k` whose value is the row-major position
  `(a * nb + b) * 4096 + k`; the rows carry the padded segment words (the word -1 from `M0` on) and, below `M0`, the
  values `v`. The coefficient of graph `g` at a row is 1 when the row's word is the word of `g`, else 0. The sum over
  the grid of coefficient times value is the specification's segment sum; with every value the word for 1 it is the
  specification's segment count. Both are the masked grid sums over the flat positions, since `row a b k` is the flat
  position of `(a, b, k)`.
-/
import proofs.«416664_j53730040873193_3_alg».proof.Proof.SegSumAlg
import proofs.«416664_j53730040873193_3_alg».proof.Proof.Spec
import proofs.«416664_j53730040873193_3_alg».proof.Proof.Hot
import proofs.«416664_j53730040873193_3_alg».proof.Proof.LibIdx3
import Mathlib.Algebra.BigOperators.Group.Finset.Basic

noncomputable section

namespace Cert.SegBridge

open scoped BigOperators

/-- A row function with the row-major values is the flat position. -/
theorem row_eq_flat3 {nb : Nat} (row : Fin 2 → Fin nb → Fin 4096 → Fin (2 * nb * 4096))
    (hrow : ∀ a b k, (row a b k).val = (a.val * nb + b.val) * 4096 + k.val) (a : Fin 2) (b : Fin nb) (k : Fin 4096) :
    row a b k = Cert.Idx3.flat3 a b k :=
  Fin.ext ((hrow a b k).trans (Cert.Idx3.flat3_val a b k).symm)

/-- The grid sum of coefficient times value, column `j`, is the segment sum of graph `g` at column `j`. -/
theorem bridge_segSum {M0 nb M : Nat} (hM : M = 2 * nb * 4096) (hle : M0 ≤ M) (seg : Fin M0 → BitVec 32) (v : Fin M0 → Fin 128 → EReal)
    (S : Fin M → BitVec 32) (X : Fin M → Fin 128 → EReal)
    (hS : ∀ q : Fin M, S q = Cert.SegSumAlg.padSeg M0 M seg q)
    (hX : ∀ (q : Fin M) (h : q.val < M0) (j : Fin 128), X q j = v ⟨q.val, h⟩ j)
    (row : Fin 2 → Fin nb → Fin 4096 → Fin M) (hrow : ∀ a b k, (row a b k).val = (a.val * nb + b.val) * 4096 + k.val)
    (g : Fin 1024) (j : Fin 128) :
    ∑ a : Fin 2, ∑ b : Fin nb, ∑ k : Fin 4096, Cert.Spec.hot g (S (row a b k)) * X (row a b k) j = Cert.Spec.segSum seg v g j := by
  subst hM
  have h := Cert.SegSumAlg.onehot_sum_eq_filter_sum hle seg (fun q => v q j) (fun q => X q j) (fun q h => hX q h j) g
  unfold Cert.Spec.segSum
  refine Eq.trans ?_ h
  refine Finset.sum_congr rfl fun a _ => Finset.sum_congr rfl fun b _ => Finset.sum_congr rfl fun k _ => ?_
  rw [row_eq_flat3 row hrow a b k, hS]
  rfl

/-- The grid sum of coefficient times the word for 1 is the segment count of graph `g`. -/
theorem bridge_segCnt {M0 nb M : Nat} (hM : M = 2 * nb * 4096) (hle : M0 ≤ M) (seg : Fin M0 → BitVec 32)
    (S : Fin M → BitVec 32) (hS : ∀ q : Fin M, S q = Cert.SegSumAlg.padSeg M0 M seg q)
    (row : Fin 2 → Fin nb → Fin 4096 → Fin M) (hrow : ∀ a b k, (row a b k).val = (a.val * nb + b.val) * 4096 + k.val)
    (g : Fin 1024) :
    ∑ a : Fin 2, ∑ b : Fin nb, ∑ k : Fin 4096, Cert.Spec.hot g (S (row a b k)) * Cert.Spec.one32 = Cert.Spec.segCnt seg g := by
  subst hM
  have h := Cert.SegSumAlg.onehot_count_eq_filter_sum hle seg Cert.Spec.one32 g
  unfold Cert.Spec.segCnt
  refine Eq.trans ?_ h
  refine Finset.sum_congr rfl fun a _ => Finset.sum_congr rfl fun b _ => Finset.sum_congr rfl fun k _ => ?_
  rw [row_eq_flat3 row hrow a b k, hS]
  rfl

end Cert.SegBridge

end
-- ==== Proof.KiVal.lean ====
import proofs.«416664_j53730040873193_3_alg».proof.Proof.KiRun
import proofs.«416664_j53730040873193_3_alg».proof.Proof.KiR0Val
import proofs.«416664_j53730040873193_3_alg».proof.Proof.KiR1Val
import proofs.«416664_j53730040873193_3_alg».proof.Proof.KiTailVal
import proofs.«416664_j53730040873193_3_alg».proof.Proof.KiHostVal
import proofs.«416664_j53730040873193_3_alg».proof.Proof.SegBridge

set_option maxRecDepth 16384

noncomputable section

namespace Cert.KernelIdeal.Seg

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (c : Dev nD)

/-! # What the kernel program's result holds, entry by entry, at the ideal values -/

/-- The per-edge segment words (the gathered graph ids), the per-node ones, and the two row arrays. -/
abbrev segE : Fin 500000 → BitVec 32 := fun q => V1 m c main_v8 (ix1 q)
abbrev segN : Fin 100000 → BitVec 32 := fun q => V0 m c main_arg10 (ix1 q)
abbrev edgeA : Fin 500000 → Fin 128 → EReal := fun q k => V0 m c main_arg1 (ix2 q k)
abbrev nodeA : Fin 100000 → Fin 128 → EReal := fun q k => V0 m c main_arg0 (ix2 q k)

/-! ## The four segment arrays the third call reads

Each is the sum over the two core slots of what a segment-sum call left, which is the sum over the slot's blocks and
rows of the one-hot coefficient times the padded row: the padded rows carry the word -1, which names no graph, so the
triple sum is the sum over the rows whose word names the graph. -/

theorem esum_eq (g : Fin 1024) (j : Fin 128) :
    V13 m (outs2 m) c main_v13 (ix2 g j) = Cert.Spec.segSum (segE m c) (edgeA m c) g j := by
  rw [HostVal.v13_at m (outs2 m) c g j]
  have h : ∀ a : Fin 2, (outs2 m 6 main_v12_0 c (ix3 a g j) : EReal) = (∑ b : Fin 62, ∑ k : Fin 4096, Cert.Spec.hot g (Ve0 m c main_v11 (ix2 0 (row0 a b k))) * (Ve0 m c main_v9 (ix2 (row0 a b k) j) : EReal) : EReal) := fun a =>
    (congrFun (W6_arr m c 2) (ix3 a g j)).trans (acc0_final (Ve0 m) c a g j)
  refine (Finset.sum_congr (M := EReal) rfl (fun a _ => h a)).trans ?_
  exact Cert.SegBridge.bridge_segSum (M0 := 500000) (nb := 62) (M := 507904) (by norm_num) (by norm_num) (segE m c) (edgeA m c)
    (fun q => V5 m c main_v11 (ix2 0 q)) (fun q k => V5 m c main_v9 (ix2 q k)) (fun q => HostVal.v11_at m c q)
    (fun q h k => by rw [HostVal.v9_at m c q k, dif_pos h]) row0 (fun a b k => rfl) g j

theorem ecnt_eq (g : Fin 1024) :
    V13 m (outs2 m) c main_v14 (ix2 g 0) = Cert.Spec.segCnt (segE m c) g := by
  rw [HostVal.v14_at m (outs2 m) c g]
  have h : ∀ a : Fin 2, (outs2 m 6 main_v12_1 c (ix3 a g 0) : EReal) = (∑ b : Fin 62, ∑ k : Fin 4096, Cert.Spec.hot g (Ve0 m c main_v11 (ix2 0 (row0 a b k))) * Ideal.ofBits .f32 0x3F800000#32 : EReal) := fun a =>
    (congrFun (W6_arr m c 3) (ix3 a g 0)).trans (cnt0_final (Ve0 m) c a g)
  refine (Finset.sum_congr (M := EReal) rfl (fun a _ => h a)).trans ?_
  exact Cert.SegBridge.bridge_segCnt (M0 := 500000) (nb := 62) (M := 507904) (by norm_num) (by norm_num) (segE m c)
    (fun q => V5 m c main_v11 (ix2 0 q)) (fun q => HostVal.v11_at m c q) row0 (fun a b k => rfl) g

theorem nsum_eq (g : Fin 1024) (j : Fin 128) :
    V13 m (outs2 m) c main_v19 (ix2 g j) = Cert.Spec.segSum (segN m c) (nodeA m c) g j := by
  rw [HostVal.v19_at m (outs2 m) c g j]
  have h : ∀ a : Fin 2, (outs2 m 12 main_v18_0 c (ix3 a g j) : EReal) = (∑ b : Fin 13, ∑ k : Fin 4096, Cert.Spec.hot g (Ve1 m c main_v17 (ix2 0 (Seg1.row0 a b k))) * (Ve1 m c main_v15 (ix2 (Seg1.row0 a b k) j) : EReal) : EReal) := fun a =>
    (congrFun (W12_arr m c 2) (ix3 a g j)).trans (Seg1.accA_final (Ve1 m) c a g j)
  refine (Finset.sum_congr (M := EReal) rfl (fun a _ => h a)).trans ?_
  exact Cert.SegBridge.bridge_segSum (M0 := 100000) (nb := 13) (M := 106496) (by norm_num) (by norm_num) (segN m c) (nodeA m c)
    (fun q => V11 m (outs1 m) c main_v17 (ix2 0 q)) (fun q k => V11 m (outs1 m) c main_v15 (ix2 q k)) (fun q => HostVal.v17_at m (outs1 m) c q)
    (fun q h k => by rw [HostVal.v15_at m (outs1 m) c q k, dif_pos h]) Seg1.row0 (fun a b k => rfl) g j

theorem ncnt_eq (g : Fin 1024) :
    V13 m (outs2 m) c main_v20 (ix2 g 0) = Cert.Spec.segCnt (segN m c) g := by
  rw [HostVal.v20_at m (outs2 m) c g]
  have h : ∀ a : Fin 2, (outs2 m 12 main_v18_1 c (ix3 a g 0) : EReal) = (∑ b : Fin 13, ∑ k : Fin 4096, Cert.Spec.hot g (Ve1 m c main_v17 (ix2 0 (Seg1.row0 a b k))) * Ideal.ofBits .f32 0x3F800000#32 : EReal) := fun a =>
    (congrFun (W12_arr m c 3) (ix3 a g 0)).trans (Seg1.cnt0_final (Ve1 m) c a g)
  refine (Finset.sum_congr (M := EReal) rfl (fun a _ => h a)).trans ?_
  exact Cert.SegBridge.bridge_segCnt (M0 := 100000) (nb := 13) (M := 106496) (by norm_num) (by norm_num) (segN m c)
    (fun q => V11 m (outs1 m) c main_v17 (ix2 0 q)) (fun q => HostVal.v17_at m (outs1 m) c q) Seg1.row0 (fun a b k => rfl) g

/-! ## The result -/

/-- The result buffer after the run, entry (i, j): the third call's one stored value at its one grid point, which is
    the shared tail of its eleven operand blocks; the blocks are the whole arrays `u`, the four segment arrays, the two
    weight matrices and the four row vectors. -/
theorem kernel_eq_spec (i : Fin 1024) (j : Fin 128) :
    V14 m (outs3 m) c main_v25 (ix2 i j)
      = Cert.Spec.out (segE m c) (segN m c) (edgeA m c) (nodeA m c) (fun a k => V0 m c main_arg2 (ix2 a k))
          (fun k l => V0 m c main_arg3 (ix2 k l)) (fun l => V0 m c main_arg4 (ix1 l)) (fun l k => V0 m c main_arg5 (ix2 l k))
          (fun k => V0 m c main_arg6 (ix1 k)) (fun k => V0 m c main_arg7 (ix1 k)) (fun k => V0 m c main_arg8 (ix1 k)) i j := by
  rw [V14_v25 m (outs3 m) c, outs3_14 m main_v25 c]
  refine (congrFun (W14_arr m c 11) (ix2 i j)).trans ?_
  rw [arr2_final (Ve2 m) c (ix2 i j), after2_11_eq (Ve2 m) c t2_0]
  refine (Cert.KernelIdeal.TailVal.tail_eq_spec (iblk2 (Ve2 m) c 0 t2_0) (iblk2 (Ve2 m) c 1 t2_0) (iblk2 (Ve2 m) c 2 t2_0) (iblk2 (Ve2 m) c 3 t2_0) (iblk2 (Ve2 m) c 4 t2_0)
    (iblk2 (Ve2 m) c 5 t2_0) (iblk2 (Ve2 m) c 6 t2_0) (iblk2 (Ve2 m) c 7 t2_0) (iblk2 (Ve2 m) c 8 t2_0) (iblk2 (Ve2 m) c 9 t2_0) (iblk2 (Ve2 m) c 10 t2_0) i j).trans ?_
  unfold Cert.Spec.out
  have e0 : (fun a k => iblk2 (Ve2 m) c 0 t2_0 (ix2 a k)) = fun a k => V0 m c main_arg2 (ix2 a k) := funext fun a => funext fun k => by
    rw [iblk2_0_apply]; exact congrFun (HostVal.arg2_at m (outs2 m) c) (ix2 a k)
  have e1 : (fun a k => iblk2 (Ve2 m) c 1 t2_0 (ix2 a k)) = Cert.Spec.segSum (segE m c) (edgeA m c) := funext fun a => funext fun k => by
    rw [iblk2_1_apply]; exact esum_eq m c a k
  have e2 : (fun a => iblk2 (Ve2 m) c 2 t2_0 (ix2 a 0)) = Cert.Spec.segCnt (segE m c) := funext fun a => by
    rw [iblk2_2_apply]; exact ecnt_eq m c a
  have e3 : (fun a k => iblk2 (Ve2 m) c 3 t2_0 (ix2 a k)) = Cert.Spec.segSum (segN m c) (nodeA m c) := funext fun a => funext fun k => by
    rw [iblk2_3_apply]; exact nsum_eq m c a k
  have e4 : (fun a => iblk2 (Ve2 m) c 4 t2_0 (ix2 a 0)) = Cert.Spec.segCnt (segN m c) := funext fun a => by
    rw [iblk2_4_apply]; exact ncnt_eq m c a
  have e5 : (fun k l => iblk2 (Ve2 m) c 5 t2_0 (ix2 k l)) = fun k l => V0 m c main_arg3 (ix2 k l) := funext fun k => funext fun l => by
    rw [iblk2_5_apply]; exact congrFun (HostVal.arg3_at m (outs2 m) c) (ix2 k l)
  have e6 : (fun l => iblk2 (Ve2 m) c 6 t2_0 (ix2 0 l)) = fun l => V0 m c main_arg4 (ix1 l) := funext fun l => by
    rw [iblk2_6_apply]; exact HostVal.v21_at m (outs2 m) c l
  have e7 : (fun l k => iblk2 (Ve2 m) c 7 t2_0 (ix2 l k)) = fun l k => V0 m c main_arg5 (ix2 l k) := funext fun l => funext fun k => by
    rw [iblk2_7_apply]; exact congrFun (HostVal.arg5_at m (outs2 m) c) (ix2 l k)
  have e8 : (fun k => iblk2 (Ve2 m) c 8 t2_0 (ix2 0 k)) = fun k => V0 m c main_arg6 (ix1 k) := funext fun k => by
    rw [iblk2_8_apply]; exact HostVal.v22_at m (outs2 m) c k
  have e9 : (fun k => iblk2 (Ve2 m) c 9 t2_0 (ix2 0 k)) = fun k => V0 m c main_arg7 (ix1 k) := funext fun k => by
    rw [iblk2_9_apply]; exact HostVal.v23_at m (outs2 m) c k
  have e10 : (fun k => iblk2 (Ve2 m) c 10 t2_0 (ix2 0 k)) = fun k => V0 m c main_arg8 (ix1 k) := funext fun k => by
    rw [iblk2_10_apply]; exact HostVal.v24_at m (outs2 m) c k
  rw [e0, e1, e2, e3, e4, e5, e6, e7, e8, e9, e10]

end Cert.KernelIdeal.Seg

end
-- ==== Proof.RefVal.lean ====
/-
  The reference program, read entry by entry at the ideal values, is the specification.

  Stage by stage, at an index: the four scatter-adds are the segment sums and counts (an accumulating scatter of
  rows into a zero table is, at (g, k), zero plus the sum of column k over the rows whose index word names g; the index
  array at (q, 0) is the segment word of q; a count's updates are all the word for 1); a mean is the sum over the
  count raised to at least 1; the concatenation at (i, k) is u, the edge mean or the node mean according to which of
  the three column ranges holds k; a product of matrices at an entry is the sum over the contracted coordinate, so the
  hidden layer is the rectified affine image of the row and the second layer plus u the residual; a row sum from a
  zero initial value is the sum over the row's columns, so the row mean, the mean squared deviation, the reciprocal
  square root of that plus the offset, the scale and the shift are the row normalisation. The per-edge segment word
  (the gather's result) is never opened: both sides name it.
-/
import proofs.«416664_j53730040873193_3_alg».proof.Proof.Gen.ReferenceIdeal.Read
import proofs.«416664_j53730040873193_3_alg».proof.Proof.Spec
import proofs.«416664_j53730040873193_3_alg».proof.Proof.LibRows
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx
open scoped BigOperators

variable (x0 : (⟨S100000x128, .f32⟩ : BufTy).Contents (Elt Ideal)) (x1 : (⟨S500000x128, .f32⟩ : BufTy).Contents (Elt Ideal))
  (x2 : (⟨S1024x128, .f32⟩ : BufTy).Contents (Elt Ideal)) (x3 : (⟨S384x512, .f32⟩ : BufTy).Contents (Elt Ideal))
  (x4 : (⟨S512, .f32⟩ : BufTy).Contents (Elt Ideal)) (x5 : (⟨S512x128, .f32⟩ : BufTy).Contents (Elt Ideal))
  (x6 x7 x8 : (⟨S128, .f32⟩ : BufTy).Contents (Elt Ideal))
  (x9 : (⟨S2x500000, .i32⟩ : BufTy).Contents (Elt Ideal)) (x10 : (⟨S100000, .i32⟩ : BufTy).Contents (Elt Ideal))

/-! ## The four segment arrays -/

/-- The edge rows' index array at (q, 0) is the per-edge segment word of q. -/
theorem v10_at (q : Fin 500000) :
    val_main_v10 (F := Ideal) x9 x10 (ix2 q 0) = val_main_v8 (F := Ideal) x9 x10 (ix1 q) := by
  rw [val_main_v10_apply]
  exact congrArg _ (funext fun a => Fin.ext (by match a with | ⟨0, _⟩ => rfl))

/-- The same array, as the count's scatter reads it. -/
theorem v14_at (q : Fin 500000) :
    val_main_v14 (F := Ideal) x9 x10 (ix2 q 0) = val_main_v8 (F := Ideal) x9 x10 (ix1 q) := by
  rw [val_main_v14_apply]
  exact congrArg _ (funext fun a => Fin.ext (by match a with | ⟨0, _⟩ => rfl))

/-- The node rows' index array at (q, 0) is the per-node segment word of q. -/
theorem v22_at (q : Fin 100000) : val_main_v22 (F := Ideal) x10 (ix2 q 0) = x10 (ix1 q) := by
  rw [val_main_v22_apply]
  exact congrArg _ (funext fun a => Fin.ext (by match a with | ⟨0, _⟩ => rfl))

theorem v26_at (q : Fin 100000) : val_main_v26 (F := Ideal) x10 (ix2 q 0) = x10 (ix1 q) := by
  rw [val_main_v26_apply]
  exact congrArg _ (funext fun a => Fin.ext (by match a with | ⟨0, _⟩ => rfl))

/-- The edge rows summed per graph. -/
theorem v11_at (g : Fin 1024) (k : Fin 128) :
    val_main_v11 (F := Ideal) x1 x9 x10 (ix2 g k)
      = Cert.Spec.segSum (fun q => val_main_v8 (F := Ideal) x9 x10 (ix1 q)) (fun q k => x1 (ix2 q k)) g k := by
  unfold val_main_v11
  have hd : scatter_S1024x128_S500000x1_S500000x128_1_0_0_1
      = Cert.LibRows.rowsScatter 1024 500000 128 scatter_S1024x128_S500000x1_S500000x128_1_0_0_1_wf := rfl
  rw [hd, Cert.LibRows.scatterAdd_rows_apply, val_main_v9_apply, val_main_cst_apply]
  simp only [v10_at]
  unfold Cert.Spec.segSum
  rw [show (FloatOps.ofBits (F := Ideal) .f32 0x00000000#32 : EReal) = 0 from Ideal.ofBits_zero_f32, zero_add]

/-- The node rows summed per graph. -/
theorem v23_at (g : Fin 1024) (k : Fin 128) :
    val_main_v23 (F := Ideal) x0 x10 (ix2 g k)
      = Cert.Spec.segSum (fun q => x10 (ix1 q)) (fun q k => x0 (ix2 q k)) g k := by
  unfold val_main_v23
  have hd : scatter_S1024x128_S100000x1_S100000x128_1_0_0_1
      = Cert.LibRows.rowsScatter 1024 100000 128 scatter_S1024x128_S100000x1_S100000x128_1_0_0_1_wf := rfl
  rw [hd, Cert.LibRows.scatterAdd_rows_apply, val_main_v21_apply, val_main_cst_4_apply]
  simp only [v22_at]
  unfold Cert.Spec.segSum
  rw [show (FloatOps.ofBits (F := Ideal) .f32 0x00000000#32 : EReal) = 0 from Ideal.ofBits_zero_f32, zero_add]

/-- The edge rows counted per graph, each as the word for 1. -/
theorem v15_at (g : Fin 1024) :
    val_main_v15 (F := Ideal) x9 x10 (ix1 g)
      = Cert.Spec.segCnt (fun q => val_main_v8 (F := Ideal) x9 x10 (ix1 q)) g := by
  unfold val_main_v15
  have hd : scatter_S1024_S500000x1_S500000_n_0_0_1
      = Cert.LibRows.vecScatter 1024 500000 scatter_S1024_S500000x1_S500000_n_0_0_1_wf := rfl
  rw [hd, Cert.LibRows.scatterAdd_vec_apply, val_main_v13_apply, val_main_cst_2_apply]
  simp only [v14_at, val_main_v12_apply, val_main_cst_1_apply]
  unfold Cert.Spec.segCnt
  rw [show (FloatOps.ofBits (F := Ideal) .f32 0x00000000#32 : EReal) = 0 from Ideal.ofBits_zero_f32, zero_add]
  rfl

/-- The node rows counted per graph. -/
theorem v27_at (g : Fin 1024) :
    val_main_v27 (F := Ideal) x10 (ix1 g) = Cert.Spec.segCnt (fun q => x10 (ix1 q)) g := by
  unfold val_main_v27
  have hd : scatter_S1024_S100000x1_S100000_n_0_0_1
      = Cert.LibRows.vecScatter 1024 100000 scatter_S1024_S100000x1_S100000_n_0_0_1_wf := rfl
  rw [hd, Cert.LibRows.scatterAdd_vec_apply, val_main_v25_apply, val_main_cst_6_apply]
  simp only [v26_at, val_main_v24_apply, val_main_cst_5_apply]
  unfold Cert.Spec.segCnt
  rw [show (FloatOps.ofBits (F := Ideal) .f32 0x00000000#32 : EReal) = 0 from Ideal.ofBits_zero_f32, zero_add]
  rfl

/-! ## The two means -/

/-- The edge mean of graph i, column k. -/
theorem v20_at (i : Fin 1024) (k : Fin 128) :
    val_main_v20 (F := Ideal) x1 x9 x10 (ix2 i k)
      = Cert.Spec.mean (Cert.Spec.segSum (fun q => val_main_v8 (F := Ideal) x9 x10 (ix1 q)) (fun q k => x1 (ix2 q k)) i k)
          (Cert.Spec.segCnt (fun q => val_main_v8 (F := Ideal) x9 x10 (ix1 q)) i) := by
  have e19 : idx_main_v18 (idx_main_v19 (ix2 i k)) = ix1 i :=
    funext fun a => Fin.ext (by match a with | ⟨0, _⟩ => rfl)
  rw [val_main_v20_apply, val_main_v19_apply, val_main_v18_apply, e19, val_main_v17_apply, val_main_v16_apply,
    val_main_cst_3_apply, v11_at, v15_at]
  rfl

/-- The node mean of graph i, column k. -/
theorem v32_at (i : Fin 1024) (k : Fin 128) :
    val_main_v32 (F := Ideal) x0 x10 (ix2 i k)
      = Cert.Spec.mean (Cert.Spec.segSum (fun q => x10 (ix1 q)) (fun q k => x0 (ix2 q k)) i k)
          (Cert.Spec.segCnt (fun q => x10 (ix1 q)) i) := by
  have e31 : idx_main_v30 (idx_main_v31 (ix2 i k)) = ix1 i :=
    funext fun a => Fin.ext (by match a with | ⟨0, _⟩ => rfl)
  rw [val_main_v32_apply, val_main_v31_apply, val_main_v30_apply, e31, val_main_v29_apply, val_main_v28_apply,
    val_main_cst_7_apply, v23_at, v27_at]
  rfl

/-! ## The inputs as the specification takes them -/

/-- The per-edge segment words. -/
abbrev SegE : Fin 500000 → BitVec 32 := fun q => val_main_v8 (F := Ideal) x9 x10 (ix1 q)
/-- The per-node segment words. -/
abbrev SegN : Fin 100000 → BitVec 32 := fun q => x10 (ix1 q)
/-- The three blocks of a graph's row: u, the edge means, the node means. -/
abbrev Cat : Fin 1024 → Fin 384 → EReal :=
  Cert.Spec.cat (fun a k => x2 (ix2 a k))
    (fun i k => Cert.Spec.mean (Cert.Spec.segSum (SegE x9 x10) (fun q k => x1 (ix2 q k)) i k) (Cert.Spec.segCnt (SegE x9 x10) i))
    (fun i k => Cert.Spec.mean (Cert.Spec.segSum (SegN x10) (fun q k => x0 (ix2 q k)) i k) (Cert.Spec.segCnt (SegN x10) i))
/-- The hidden layer. -/
abbrev Hid : Fin 1024 → Fin 512 → EReal :=
  Cert.Spec.hid (Cat x0 x1 x2 x9 x10) (fun k l => x3 (ix2 k l)) (fun l => x4 (ix1 l))
/-- The second layer plus the residual. -/
abbrev Res : Fin 1024 → Fin 128 → EReal :=
  Cert.Spec.res (Hid x0 x1 x2 x3 x4 x9 x10) (fun l k => x5 (ix2 l k)) (fun k => x6 (ix1 k)) (fun a k => x2 (ix2 a k))

/-! ## The three blocks side by side -/

theorem v33_at (i : Fin 1024) (k : Fin 384) :
    val_main_v33 (F := Ideal) x0 x1 x2 x9 x10 (ix2 i k) = Cat x0 x1 x2 x9 x10 i k := by
  unfold val_main_v33
  show _ = Cert.Spec.cat _ _ _ i k
  unfold Cert.Spec.cat
  by_cases h1 : k.val < 128
  · rw [dif_pos h1]
    exact concatenate_apply_piece (1 : Fin S1024x384.rank) _ _ (ix2 i k) 0 (by show (0 : Nat) < 3; omega) S1024x128 x2 rfl rfl 0 rfl
      (ix2 i ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      refine (concatenate_apply_piece (1 : Fin S1024x384.rank) _ _ (ix2 i k) 1 (by show (1 : Nat) < 3; omega) S1024x128
        (val_main_v20 (F := Ideal) x1 x9 x10) rfl rfl 128 rfl (ix2 i ⟨k.val - 128, by omega⟩)
        (fun b hb => by
          match b with
          | ⟨0, _⟩ => rfl
          | ⟨1, _⟩ => exact absurd rfl hb)
        (by show 128 + (k.val - 128) = k.val; omega)).trans ?_
      exact v20_at x1 x9 x10 i _
    · rw [dif_neg h2]
      refine (concatenate_apply_piece (1 : Fin S1024x384.rank) _ _ (ix2 i k) 2 (by show (2 : Nat) < 3; omega) S1024x128
        (val_main_v32 (F := Ideal) x0 x10) rfl rfl 256 rfl (ix2 i ⟨k.val - 256, by have := k.isLt; omega⟩)
        (fun b hb => by
          match b with
          | ⟨0, _⟩ => rfl
          | ⟨1, _⟩ => exact absurd rfl hb)
        (by show 256 + (k.val - 256) = k.val; omega)).trans ?_
      exact v32_at x0 x10 i _

/-! ## The two layers -/

/-- The hidden layer at (i, l). -/
theorem v38_at (i : Fin 1024) (l : Fin 512) :
    val_main_v38 (F := Ideal) x0 x1 x2 x3 x4 x9 x10 (ix2 i l) = Hid x0 x1 x2 x3 x4 x9 x10 i l := by
  have el : ∀ k : Fin 384, lidx_main_v34 (ix2 i l) k = ix2 i k := fun k =>
    funext fun a => Fin.ext (by match a with | ⟨0, _⟩ => rfl | ⟨1, _⟩ => rfl)
  have er : ∀ k : Fin 384, ridx_main_v34 (ix2 i l) k = ix2 k l := fun k =>
    funext fun a => Fin.ext (by match a with | ⟨0, _⟩ => rfl | ⟨1, _⟩ => rfl)
  have e4 : idx_main_v35 (idx_main_v36 (ix2 i l)) = ix1 l :=
    funext fun a => Fin.ext (by match a with | ⟨0, _⟩ => rfl)
  rw [val_main_v38_apply, val_main_v37_apply, val_main_v34_apply, val_main_v36_apply, val_main_v35_apply,
    val_main_call0_v0_apply, val_main_call0_cst_apply, e4]
  simp only [el, er, v33_at]
  rfl

/-- The second layer plus the residual at (i, j). -/
theorem v43_at (i : Fin 1024) (j : Fin 128) :
    val_main_v43 (F := Ideal) x0 x1 x2 x3 x4 x5 x6 x9 x10 (ix2 i j) = Res x0 x1 x2 x3 x4 x5 x6 x9 x10 i j := by
  have el : ∀ k : Fin 512, lidx_main_v39 (ix2 i j) k = ix2 i k := fun k =>
    funext fun a => Fin.ext (by match a with | ⟨0, _⟩ => rfl | ⟨1, _⟩ => rfl)
  have er : ∀ k : Fin 512, ridx_main_v39 (ix2 i j) k = ix2 k j := fun k =>
    funext fun a => Fin.ext (by match a with | ⟨0, _⟩ => rfl | ⟨1, _⟩ => rfl)
  have e6 : idx_main_v40 (idx_main_v41 (ix2 i j)) = ix1 j :=
    funext fun a => Fin.ext (by match a with | ⟨0, _⟩ => rfl)
  rw [val_main_v43_apply, val_main_v42_apply, val_main_v39_apply, val_main_v41_apply, val_main_v40_apply, e6]
  simp only [el, er, v38_at]
  rfl

/-! ## The row normalisation -/

/-- The array the normalisation reads, by coordinates. -/
abbrev R : Fin 1024 → Fin 128 → EReal := fun i j => val_main_v43 (F := Ideal) x0 x1 x2 x3 x4 x5 x6 x9 x10 (ix2 i j)

/-- The row mean, kept as a column. -/
theorem v47_at (i : Fin 1024) :
    val_main_v47 (F := Ideal) x0 x1 x2 x3 x4 x5 x6 x9 x10 (ix2 i 0) = Cert.Spec.rowMean (R x0 x1 x2 x3 x4 x5 x6 x9 x10) i := by
  have e45 : idx_main_v45 (ix2 i (0 : Fin 1)) = ix1 i := funext fun a => Fin.ext (by match a with | ⟨0, _⟩ => rfl)
  have e44 : ∀ k : Fin 128, idx_main_v44 (ix1 i) k = ix2 i k := fun k =>
    funext fun a => Fin.ext (by match a with | ⟨0, _⟩ => rfl | ⟨1, _⟩ => rfl)
  rw [val_main_v47_apply, val_main_v45_apply, e45, val_main_v44_apply, val_main_cst_8_apply, val_main_v46_apply,
    val_main_cst_9_apply]
  simp only [e44]
  rw [show (FloatOps.ofBits (F := Ideal) .f32 0x00000000#32 : EReal) = 0 from Ideal.ofBits_zero_f32, zero_add]
  rfl

/-- An entry less its row's mean, as the variance reads it. -/
theorem v49_at (i : Fin 1024) (j : Fin 128) :
    val_main_v49 (F := Ideal) x0 x1 x2 x3 x4 x5 x6 x9 x10 (ix2 i j)
      = R x0 x1 x2 x3 x4 x5 x6 x9 x10 i j - Cert.Spec.rowMean (R x0 x1 x2 x3 x4 x5 x6 x9 x10) i := by
  have e48 : idx_main_v48 (ix2 i j) = ix2 i (0 : Fin 1) :=
    funext fun a => Fin.ext (by match a with | ⟨0, _⟩ => rfl | ⟨1, _⟩ => rfl)
  rw [val_main_v49_apply, val_main_v48_apply, e48, v47_at]
  rfl

/-- The same, as the result reads it. -/
theorem v56_at (i : Fin 1024) (j : Fin 128) :
    val_main_v56 (F := Ideal) x0 x1 x2 x3 x4 x5 x6 x9 x10 (ix2 i j)
      = R x0 x1 x2 x3 x4 x5 x6 x9 x10 i j - Cert.Spec.rowMean (R x0 x1 x2 x3 x4 x5 x6 x9 x10) i := by
  have e55 : idx_main_v55 (ix2 i j) = ix2 i (0 : Fin 1) :=
    funext fun a => Fin.ext (by match a with | ⟨0, _⟩ => rfl | ⟨1, _⟩ => rfl)
  rw [val_main_v56_apply, val_main_v55_apply, e55, v47_at]
  rfl

/-- The row's mean squared deviation, kept as a column. -/
theorem v54_at (i : Fin 1024) :
    val_main_v54 (F := Ideal) x0 x1 x2 x3 x4 x5 x6 x9 x10 (ix2 i 0) = Cert.Spec.rowVar (R x0 x1 x2 x3 x4 x5 x6 x9 x10) i := by
  have e52 : idx_main_v52 (ix2 i (0 : Fin 1)) = ix1 i := funext fun a => Fin.ext (by match a with | ⟨0, _⟩ => rfl)
  have e51 : ∀ k : Fin 128, idx_main_v51 (ix1 i) k = ix2 i k := fun k =>
    funext fun a => Fin.ext (by match a with | ⟨0, _⟩ => rfl | ⟨1, _⟩ => rfl)
  rw [val_main_v54_apply, val_main_v52_apply, e52, val_main_v51_apply, val_main_cst_10_apply, val_main_v53_apply,
    val_main_cst_11_apply]
  simp only [e51, val_main_v50_apply, v49_at]
  rw [show (FloatOps.ofBits (F := Ideal) .f32 0x00000000#32 : EReal) = 0 from Ideal.ofBits_zero_f32, zero_add]
  rfl

/-- The normalised, scaled and shifted entry. -/
theorem v67_at (i : Fin 1024) (j : Fin 128) :
    val_main_v67 (F := Ideal) x0 x1 x2 x3 x4 x5 x6 x7 x8 x9 x10 (ix2 i j)
      = Cert.Spec.lnorm (R x0 x1 x2 x3 x4 x5 x6 x9 x10) (fun k => x7 (ix1 k)) (fun k => x8 (ix1 k)) i j := by
  have e60 : idx_main_v60 (ix2 i j) = ix2 i (0 : Fin 1) :=
    funext fun a => Fin.ext (by match a with | ⟨0, _⟩ => rfl | ⟨1, _⟩ => rfl)
  have e63 : idx_main_v62 (idx_main_v63 (ix2 i j)) = ix1 j := funext fun a => Fin.ext (by match a with | ⟨0, _⟩ => rfl)
  have e66 : idx_main_v65 (idx_main_v66 (ix2 i j)) = ix1 j := funext fun a => Fin.ext (by match a with | ⟨0, _⟩ => rfl)
  rw [val_main_v67_apply, val_main_v64_apply, val_main_v61_apply, v56_at, val_main_v60_apply, e60, val_main_v59_apply,
    val_main_v58_apply, v54_at, val_main_v57_apply, val_main_cst_12_apply, val_main_v63_apply, val_main_v62_apply, e63,
    val_main_v66_apply, val_main_v65_apply, e66]
  rfl

/-! ## The reference is the specification -/

/-- THE REFERENCE'S RESULT, ENTRY BY ENTRY, IS THE SPECIFICATION'S. -/
theorem ref_eq_spec (i : Fin 1024) (j : Fin 128) :
    val_main_v67 (F := Ideal) x0 x1 x2 x3 x4 x5 x6 x7 x8 x9 x10 (ix2 i j)
      = Cert.Spec.out (fun q => val_main_v8 (F := Ideal) x9 x10 (ix1 q)) (fun q => x10 (ix1 q))
          (fun q k => x1 (ix2 q k)) (fun q k => x0 (ix2 q k)) (fun a k => x2 (ix2 a k))
          (fun k l => x3 (ix2 k l)) (fun l => x4 (ix1 l)) (fun l k => x5 (ix2 l k)) (fun k => x6 (ix1 k)) (fun k => x7 (ix1 k)) (fun k => x8 (ix1 k)) i j := by
  have hR : R x0 x1 x2 x3 x4 x5 x6 x9 x10 = Res x0 x1 x2 x3 x4 x5 x6 x9 x10 :=
    funext fun a => funext fun b => v43_at x0 x1 x2 x3 x4 x5 x6 x9 x10 a b
  rw [v67_at, hR]
  rfl

end Cert.ReferenceIdeal.RefVal

end
-- ==== Proof.lean ====
/-
  The kernel and its reference compute one function on the extended reals.

  Per graph g (1024 of them) both programs form, over the 500000 edge rows and over the 100000 node rows, the sum of the
  rows whose segment word names g and the number of such rows — the reference by a scatter-add that drops a word outside
  [0, 1024), the kernel by multiplying a 0/1 mask (mask[g, q] = 1 iff row q's word is g) against the rows, block by block
  over two core slots, on arrays padded at the end with rows of zeros whose segment word is -1, which names no graph —,
  divide each sum by max(count, 1), put u, the edge means and the node means side by side, and pass the rows through an
  affine layer with a rectifier, a second affine layer, a residual and a row normalisation with scale and shift. The two
  segment sums are the same finite sum of the same terms (0 · x = 0 and 1 · x = x on the extended reals, so no finiteness
  is used); everything after them is the same expression of them, operation by operation, with the same four float words.

  The three frames: the kernel program's (at the word level and at the ideal values, one text) runs its three calls
  through their pipelines, each body at every grid point keeping the two accumulators of a segment-sum call in the
  call's invariant between points; the reference is a straight line of host operations.
-/
import proofs.«416664_j53730040873193_3_alg».proof.Defs
import proofs.«416664_j53730040873193_3_alg».proof.Proof.Gen.Kernel
import proofs.«416664_j53730040873193_3_alg».proof.Proof.Gen.KernelIdeal
import proofs.«416664_j53730040873193_3_alg».proof.Proof.Gen.ReferenceIdeal
import proofs.«416664_j53730040873193_3_alg».proof.Proof.Gen.Pre_finite_inputs
import proofs.«416664_j53730040873193_3_alg».proof.Proof.KbRun
import proofs.«416664_j53730040873193_3_alg».proof.Proof.KiVal
import proofs.«416664_j53730040873193_3_alg».proof.Proof.RefVal
import proofs.«416664_j53730040873193_3_alg».proof.Proof.KiHostVal
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program at the word level runs to the end, faults nowhere and leaves its arguments unchanged. -/
theorem frame_k : Cert.frame_Kernel := fun m ρ _ => Cert.Kernel.Seg.frame_all (F := Bits) m ρ

/-- The same at the ideal values. -/
theorem frame_ki : Cert.frame_KernelIdeal := fun m ρ _ => Cert.KernelIdeal.Seg.frame_all (F := Ideal) m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at `Cert.Spec.out` of the arguments, entry by entry. -/
theorem algebraic : Cert.algebraic_KernelIdeal_ReferenceIdeal := by
  intro m ρ m' ρ' _ hagree
  refine ⟨fun c => Cert.KernelIdeal.Gen.V14 m (Cert.KernelIdeal.Seg.outs3 m) c Cert.KernelIdeal.main_v25,
    Cert.KernelIdeal.Seg.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq]
  funext idx
  obtain ⟨i, j, rfl⟩ : ∃ (i : Fin 1024) (j : Fin 128), idx = ix2 i j := ⟨idx 0, idx 1, eq_ix2 idx⟩
  refine (Cert.ReferenceIdeal.RefVal.ref_eq_spec _ _ _ _ _ _ _ _ _ _ _ i j).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  -- the reference's gathered segment words are the kernel program's: one chain of host operations on the same arguments
  have hg : (fun q : Fin 500000 => Cert.ReferenceIdeal.Read.val_main_v8 (F := Ideal)
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (ix1 q))
      = Cert.KernelIdeal.Seg.segE m c := by
    funext q
    show _ = Cert.KernelIdeal.Gen.V1 m c Cert.KernelIdeal.main_v8 (ix1 q)
    rw [Cert.KernelIdeal.HostVal.v8_eq m c]
    rfl
  rw [hg]
  exact (Cert.KernelIdeal.Seg.kernel_eq_spec m c i j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
